-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x1x1024x1024 : Shape := ⟨4, ![16, 1, 1024, 1024]⟩
abbrev S_ : Shape := ⟨0, ![]⟩

class Facts : Prop where
  bcast_S_S16x1x1024x1024 : S_.BroadcastsInDim S16x1x1024x1024 (![] : Fin 0 → Fin S16x1x1024x1024.rank)
  reducesTo_S16x1x1024x1024_S_d0_1_2_3 : S16x1x1024x1024.ReducesTo [0, 1, 2, 3] S_
  h_S_ : 0 < S_.numel

variable [Facts]

def fn {F : FTy → Type} [FloatOps F] (main_arg0 : FVec F S16x1x1024x1024 .f32) (main_arg1 : IVec S16x1x1024x1024 32) : IVec S_ 1 :=
  let main_v0 : FVec F S16x1x1024x1024 .f32 := Host.absf main_arg0
  let main_cst : FVec F S_ .f32 := constant S_ .f32 0x7F800000#32
  let main_v1 : FVec F S16x1x1024x1024 .f32 := broadcastInDim S16x1x1024x1024 ![] bcast_S_S16x1x1024x1024 main_cst
  let main_v2 : IVec S16x1x1024x1024 1 := cmpf .olt main_v0 main_v1
  let main_c : IVec S_ 1 := constantI S_ 1 1#1
  let main_v3 : IVec S_ 1 := (fun x v => Host.reduce IntOp.andi x v reducesTo_S16x1x1024x1024_S_d0_1_2_3 h_S_) main_v2 main_c
  let main_c_0 : IVec S_ 32 := constantI S_ 32 0#32
  let main_v4 : IVec S16x1x1024x1024 32 := broadcastInDim S16x1x1024x1024 ![] bcast_S_S16x1x1024x1024 main_c_0
  let main_v5 : IVec S16x1x1024x1024 1 := cmpi .sge main_arg1 main_v4
  let main_c_1 : IVec S_ 32 := constantI S_ 32 64#32
  let main_v6 : IVec S16x1x1024x1024 32 := broadcastInDim S16x1x1024x1024 ![] bcast_S_S16x1x1024x1024 main_c_1
  let main_v7 : IVec S16x1x1024x1024 1 := cmpi .slt main_arg1 main_v6
  let main_v8 : IVec S16x1x1024x1024 1 := andi main_v5 main_v7
  let main_c_2 : IVec S_ 32 := constantI S_ 32 255#32
  let main_v9 : IVec S16x1x1024x1024 32 := broadcastInDim S16x1x1024x1024 ![] bcast_S_S16x1x1024x1024 main_c_2
  let main_v10 : IVec S16x1x1024x1024 1 := cmpi .eq main_arg1 main_v9
  let main_v11 : IVec S16x1x1024x1024 1 := ori main_v8 main_v10
  let main_c_3 : IVec S_ 1 := constantI S_ 1 1#1
  let main_v12 : IVec S_ 1 := (fun x v => Host.reduce IntOp.andi x v reducesTo_S16x1x1024x1024_S_d0_1_2_3 h_S_) main_v11 main_c_3
  let main_v13 : IVec S_ 1 := andi main_v3 main_v12
  main_v13
-- ==== Kernel.lean ====
abbrev S16x1x1024x1024 : Shape := ⟨4, ![16, 1, 1024, 1024]⟩
abbrev S16x1048576 : Shape := ⟨2, ![16, 1048576]⟩
abbrev S16x16x128 : Shape := ⟨3, ![16, 16, 128]⟩
abbrev S8x65536 : Shape := ⟨2, ![8, 65536]⟩
abbrev S8x16x128 : Shape := ⟨3, ![8, 16, 128]⟩
abbrev S8x8x8 : Shape := ⟨3, ![8, 8, 8]⟩
abbrev S8x2048 : Shape := ⟨2, ![8, 2048]⟩
abbrev S8x1x2048 : Shape := ⟨3, ![8, 1, 2048]⟩
abbrev S8x16x2048 : Shape := ⟨3, ![8, 16, 2048]⟩
abbrev S8x8x2048 : Shape := ⟨3, ![8, 8, 2048]⟩
abbrev S8x16x8 : Shape := ⟨3, ![8, 16, 8]⟩
abbrev S8x8x120 : Shape := ⟨3, ![8, 8, 120]⟩
abbrev S8x8x128 : Shape := ⟨3, ![8, 8, 128]⟩
abbrev S16x8x8 : Shape := ⟨3, ![16, 8, 8]⟩
abbrev S16x64 : Shape := ⟨2, ![16, 64]⟩
abbrev S_ : Shape := ⟨0, ![]⟩
abbrev S16x63 : Shape := ⟨2, ![16, 63]⟩

abbrev nBuf : Space → Nat
  | .hbm => 25
  | .vmem => 8
  | .smem => 0
  | _ => 0

abbrev bufTy : (tb : Table) → Fin (tcTables nBuf tb) → BufTy
  | .hbm, ⟨0, _⟩ => ⟨S16x1x1024x1024, .f32⟩
  | .hbm, ⟨1, _⟩ => ⟨S16x1x1024x1024, .i32⟩
  | .hbm, ⟨2, _⟩ => ⟨S16x1048576, .f32⟩
  | .hbm, ⟨3, _⟩ => ⟨S16x1048576, .i32⟩
  | .hbm, ⟨4, _⟩ => ⟨S16x16x128, .f32⟩
  | .hbm, ⟨5, _⟩ => ⟨S16x8x8, .f32⟩
  | .hbm, ⟨6, _⟩ => ⟨S16x64, .f32⟩
  | .hbm, ⟨7, _⟩ => ⟨S16x8x8, .f32⟩
  | .hbm, ⟨8, _⟩ => ⟨S16x64, .f32⟩
  | .hbm, ⟨9, _⟩ => ⟨S_, .f32⟩
  | .hbm, ⟨10, _⟩ => ⟨S16x64, .f32⟩
  | .hbm, ⟨11, _⟩ => ⟨S16x64, .i1⟩
  | .hbm, ⟨12, _⟩ => ⟨S_, .f32⟩
  | .hbm, ⟨13, _⟩ => ⟨S16x64, .f32⟩
  | .hbm, ⟨14, _⟩ => ⟨S16x64, .f32⟩
  | .hbm, ⟨15, _⟩ => ⟨S16x64, .f32⟩
  | .hbm, ⟨16, _⟩ => ⟨S_, .f32⟩
  | .hbm, ⟨17, _⟩ => ⟨S_, .f32⟩
  | .hbm, ⟨18, _⟩ => ⟨S16x64, .f32⟩
  | .hbm, ⟨19, _⟩ => ⟨S16x64, .f32⟩
  | .hbm, ⟨20, _⟩ => ⟨S16x63, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .local _ .vmem, ⟨0, _⟩ => ⟨S8x65536, .f32⟩
  | .local _ .vmem, ⟨1, _⟩ => ⟨S8x65536, .f32⟩
  | .local _ .vmem, ⟨2, _⟩ => ⟨S8x65536, .i32⟩
  | .local _ .vmem, ⟨3, _⟩ => ⟨S8x65536, .i32⟩
  | .local _ .vmem, ⟨4, _⟩ => ⟨S8x16x128, .f32⟩
  | .local _ .vmem, ⟨5, _⟩ => ⟨S8x16x128, .f32⟩
  | .local _ .vmem, ⟨6, _⟩ => ⟨S8x8x8, .f32⟩
  | .local _ .vmem, ⟨7, _⟩ => ⟨S8x8x8, .f32⟩
  | _, _ => ⟨S16x1x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_1 : Ref sig .tc := ⟨.hbm, 16, rfl⟩
abbrev main_call0_v0 : Ref sig .tc := ⟨.hbm, 17, rfl⟩
abbrev main_call0_v1 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_cst_3 : Ref sig .tc := ⟨.hbm, 23, rfl⟩
abbrev main_v15 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 16], ![false, false]⟩

@[reducible] def k0_t1_loop : Scf.Loop 32 :=
  let c0_i32_1 : BitVec 32 := 0#32
  let c32_i32 : BitVec 32 := 32#32
  let v3 : BitVec 32 := Scalar.addi c0_i32_1 c32_i32
  let c1_i32 : BitVec 32 := 1#32
  ⟨c0_i32_1, v3, c1_i32⟩
def k0_mult1 (k0_t1 : Fin k0_t1_loop.trips) : BitVec 32 :=
  let c0_i32_1 : BitVec 32 := 0#32
  let c1_i32 : BitVec 32 := 1#32
  let arg7 : BitVec 32 := Scf.iv c0_i32_1 c1_i32 k0_t1
  let c2048_i32 : BitVec 32 := 2048#32
  let v7 : BitVec 32 := Scalar.muli arg7 c2048_i32
  v7
def k0_off1 (k0_t1 : Fin k0_t1_loop.trips) : Fin 2 → Nat :=
  let c0 : Index := 0#32
  let c0_i32_1 : BitVec 32 := 0#32
  let c1_i32 : BitVec 32 := 1#32
  let arg7 : BitVec 32 := Scf.iv c0_i32_1 c1_i32 k0_t1
  let c2048_i32 : BitVec 32 := 2048#32
  let v7 : BitVec 32 := Scalar.muli arg7 c2048_i32
  let v8 : BitVec 32 := v7
  let v9 : Index := Scalar.indexCast v8
  ![0, v9.toNat]
def k0_cond2 (i : grid0.Coords) : BitVec 1 :=
  let arg1 : BitVec 32 := BitVec.ofNat 32 (i 1).val
  let c15_i32 : BitVec 32 := 15#32
  let v4 : BitVec 1 := Scalar.cmpi .eq arg1 c15_i32
  let v5 : BitVec 32 := Scalar.extui v4
  let c0_i32_3 : BitVec 32 := 0#32
  let v6 : BitVec 1 := Scalar.cmpi .ne v5 c0_i32_3
  v6

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x65536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x65536 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x16x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  shapeCasts_S16x1x1024x1024_S16x1048576 : S16x1x1024x1024.ShapeCasts S16x1048576
  inb_S8x8x8_S8x8x8_0_0_0 : ∀ a, (![0, 0, 0] : Fin 3 → Nat) a + S8x8x8.size a ≤ S8x8x8.size a
  h_S8x8x8 : 0 < S8x8x8.numel
  shapeCasts_S8x8x8_S8x8x8 : S8x8x8.ShapeCasts S8x8x8
  h_S8x2048 : 0 < S8x2048.numel
  shapeCasts_S8x2048_S8x2048 : S8x2048.ShapeCasts S8x2048
  bitsLt_bf16_f32 : FTy.bits .bf16 < FTy.bits .f32
  natLt_1_32 : 1 < 32
  shapeCasts_S8x2048_S8x1x2048 : S8x2048.ShapeCasts S8x1x2048
  concatenates_S8x1x2048_S8x1x2048_S8x1x2048_S8x1x2048_S8x1x2048_S8x1x2048_S8x1x2048_S8x1x2048_S8x1x2048_S8x1x2048_S8x1x2048_S8x1x2048_S8x1x2048_S8x1x2048_S8x1x2048_S8x1x2048_S8x16x2048_d1 : Shape.Concatenates [S8x1x2048, S8x1x2048, S8x1x2048, S8x1x2048, S8x1x2048, S8x1x2048, S8x1x2048, S8x1x2048, S8x1x2048, S8x1x2048, S8x1x2048, S8x1x2048, S8x1x2048, S8x1x2048, S8x1x2048, S8x1x2048] S8x16x2048 1
  concatenates_S8x1x2048_S8x1x2048_S8x1x2048_S8x1x2048_S8x1x2048_S8x1x2048_S8x1x2048_S8x1x2048_S8x8x2048_d1 : Shape.Concatenates [S8x1x2048, S8x1x2048, S8x1x2048, S8x1x2048, S8x1x2048, S8x1x2048, S8x1x2048, S8x1x2048] S8x8x2048 1
  slices_S8x16x8_o0_0_0_S8x8x8 : S8x16x8.Slices ![0, 0, 0] S8x8x8
  slices_S8x16x8_o0_8_0_S8x8x8 : S8x16x8.Slices ![0, 8, 0] S8x8x8
  concatenates_S8x8x8_S8x8x120_S8x8x128_d2 : Shape.Concatenates [S8x8x8, S8x8x120] S8x8x128 2
  concatenates_S8x8x128_S8x8x128_S8x16x128_d1 : Shape.Concatenates [S8x8x128, S8x8x128] S8x16x128 1
  inb_S8x16x128_S8x16x128_0_0_0 : ∀ a, (![0, 0, 0] : Fin 3 → Nat) a + S8x16x128.size a ≤ S8x16x128.size a
  h_S8x16x128 : 0 < S8x16x128.numel
  slices_S16x16x128_S16x8x8_0_0_0 : S16x16x128.Slices ![0, 0, 0] S16x8x8
  shapeCasts_S16x8x8_S16x64 : S16x8x8.ShapeCasts S16x64
  slices_S16x16x128_S16x8x8_0_8_0 : S16x16x128.Slices ![0, 8, 0] S16x8x8
  bcast_S_S16x64 : S_.BroadcastsInDim S16x64 (![] : Fin 0 → Fin S16x64.rank)
  slices_S16x64_S16x63_0_1 : S16x64.Slices ![0, 1] S16x63
  reducesTo_S16x63_S_d0_1 : S16x63.ReducesTo [0, 1] S_
  h_S_ : 0 < S_.numel
  dot_S8x16x2048_S8x8x2048_S8x16x8_2_2_1_1_0_0_wf : DotDims.WF S8x16x2048 S8x8x2048 S8x16x8 [2] [2] [1] [1] [0] [0]
  hrank0 : 0 < grid0.rank
  k0_t1_ok : k0_t1_loop.OK
  k0_mult1_dvd : ∀ k0_t1 : Fin k0_t1_loop.trips, 2048 ∣ (k0_mult1 k0_t1).toNat
  k0_off1_inb : ∀ k0_t1 : Fin k0_t1_loop.trips, ∀ a, (k0_off1 k0_t1) a + S8x2048.size a ≤ S8x65536.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x65536.size a ≤ S16x1048576.size a
  hwx0_0 : ∀ i : grid0.Coords, EltTy.bits .f32 = 32 ∨ (Rect.block (s := S16x1048576) S8x65536.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x65536.size a ≤ S16x1048576.size a
  hwx0_1 : ∀ i : grid0.Coords, EltTy.bits .i32 = 32 ∨ (Rect.block (s := S16x1048576) S8x65536.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x16x128.size a ≤ S16x16x128.size a
  hwx0_2 : ∀ i : grid0.Coords, EltTy.bits .f32 = 32 ∨ (Rect.block (s := S16x16x128) S8x16x128.size (cc0_transform_2 i) (hinb0_2 i)).WholeWords (EltTy.packing .f32)

variable [Facts₀]

def dot_S8x16x2048_S8x8x2048_S8x16x8_2_2_1_1_0_0 : DotDims S8x16x2048 S8x8x2048 S8x16x8 where
  lhsContracting := [2]
  rhsContracting := [2]
  lhsNonContracting := [1]
  rhsNonContracting := [1]
  lhsBatch := [0]
  rhsBatch := [0]
  wf := dot_S8x16x2048_S8x8x2048_S8x16x8_2_2_1_1_0_0_wf

abbrev win0_0 : Pipeline.Window sig grid0 :=
  Pipeline.Window.ofSpec (Memref.whole main_v0) S8x65536.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S8x65536.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S8x16x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S16x1x1024x1024 : Shape := ⟨4, ![16, 1, 1024, 1024]⟩
abbrev S16x1048576 : Shape := ⟨2, ![16, 1048576]⟩
abbrev S_ : Shape := ⟨0, ![]⟩
abbrev S16 : Shape := ⟨1, ![16]⟩
abbrev S16x1 : Shape := ⟨2, ![16, 1]⟩
abbrev S16777216 : Shape := ⟨1, ![16777216]⟩
abbrev S1024 : Shape := ⟨1, ![1024]⟩
abbrev S16777216x1 : Shape := ⟨2, ![16777216, 1]⟩
abbrev S16x64 : Shape := ⟨2, ![16, 64]⟩
abbrev S16x63 : Shape := ⟨2, ![16, 63]⟩

abbrev nBuf : Space → Nat
  | .hbm => 52
  | .vmem => 0
  | .smem => 0
  | _ => 0

abbrev bufTy : (tb : Table) → Fin (tcTables nBuf tb) → BufTy
  | .hbm, ⟨0, _⟩ => ⟨S16x1x1024x1024, .f32⟩
  | .hbm, ⟨1, _⟩ => ⟨S16x1x1024x1024, .i32⟩
  | .hbm, ⟨2, _⟩ => ⟨S16x1048576, .f32⟩
  | .hbm, ⟨3, _⟩ => ⟨S16x1048576, .i32⟩
  | .hbm, ⟨4, _⟩ => ⟨S_, .i32⟩
  | .hbm, ⟨5, _⟩ => ⟨S16x1048576, .i32⟩
  | .hbm, ⟨6, _⟩ => ⟨S16x1048576, .i1⟩
  | .hbm, ⟨7, _⟩ => ⟨S_, .i32⟩
  | .hbm, ⟨8, _⟩ => ⟨S_, .i32⟩
  | .hbm, ⟨9, _⟩ => ⟨S16x1048576, .i32⟩
  | .hbm, ⟨10, _⟩ => ⟨S16x1048576, .i32⟩
  | .hbm, ⟨11, _⟩ => ⟨S16x1048576, .f32⟩
  | .hbm, ⟨12, _⟩ => ⟨S16x1048576, .f32⟩
  | .hbm, ⟨13, _⟩ => ⟨S16x1048576, .f32⟩
  | .hbm, ⟨14, _⟩ => ⟨S16, .i32⟩
  | .hbm, ⟨15, _⟩ => ⟨S16x1, .i32⟩
  | .hbm, ⟨16, _⟩ => ⟨S_, .i32⟩
  | .hbm, ⟨17, _⟩ => ⟨S16x1, .i32⟩
  | .hbm, ⟨18, _⟩ => ⟨S16x1, .i32⟩
  | .hbm, ⟨19, _⟩ => ⟨S16x1048576, .i32⟩
  | .hbm, ⟨20, _⟩ => ⟨S16x1048576, .i32⟩
  | .hbm, ⟨21, _⟩ => ⟨S16777216, .i32⟩
  | .hbm, ⟨22, _⟩ => ⟨S16777216, .f32⟩
  | .hbm, ⟨23, _⟩ => ⟨S_, .f32⟩
  | .hbm, ⟨24, _⟩ => ⟨S1024, .f32⟩
  | .hbm, ⟨25, _⟩ => ⟨S16777216x1, .i32⟩
  | .hbm, ⟨26, _⟩ => ⟨S1024, .f32⟩
  | .hbm, ⟨27, _⟩ => ⟨S16x64, .f32⟩
  | .hbm, ⟨28, _⟩ => ⟨S_, .f32⟩
  | .hbm, ⟨29, _⟩ => ⟨S16x1048576, .f32⟩
  | .hbm, ⟨30, _⟩ => ⟨S16777216, .f32⟩
  | .hbm, ⟨31, _⟩ => ⟨S_, .f32⟩
  | .hbm, ⟨32, _⟩ => ⟨S1024, .f32⟩
  | .hbm, ⟨33, _⟩ => ⟨S16777216x1, .i32⟩
  | .hbm, ⟨34, _⟩ => ⟨S1024, .f32⟩
  | .hbm, ⟨35, _⟩ => ⟨S16x64, .f32⟩
  | .hbm, ⟨36, _⟩ => ⟨S_, .f32⟩
  | .hbm, ⟨37, _⟩ => ⟨S16x64, .f32⟩
  | .hbm, ⟨38, _⟩ => ⟨S16x64, .i1⟩
  | .hbm, ⟨39, _⟩ => ⟨S_, .f32⟩
  | .hbm, ⟨40, _⟩ => ⟨S16x64, .f32⟩
  | .hbm, ⟨41, _⟩ => ⟨S16x64, .f32⟩
  | .hbm, ⟨42, _⟩ => ⟨S16x64, .f32⟩
  | .hbm, ⟨43, _⟩ => ⟨S_, .f32⟩
  | .hbm, ⟨44, _⟩ => ⟨S_, .f32⟩
  | .hbm, ⟨45, _⟩ => ⟨S16x64, .f32⟩
  | .hbm, ⟨46, _⟩ => ⟨S16x64, .f32⟩
  | .hbm, ⟨47, _⟩ => ⟨S16x63, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | _, _ => ⟨S16x1x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_v2 : Ref sig .tc := ⟨.hbm, 5, rfl⟩
abbrev main_v3 : Ref sig .tc := ⟨.hbm, 6, rfl⟩
abbrev main_c_0 : Ref sig .tc := ⟨.hbm, 7, rfl⟩
abbrev main_call0_v0 : Ref sig .tc := ⟨.hbm, 8, rfl⟩
abbrev main_call0_v1 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_c_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_2 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_4 : Ref sig .tc := ⟨.hbm, 36, rfl⟩
abbrev main_v26 : Ref sig .tc := ⟨.hbm, 37, rfl⟩
abbrev main_v27 : Ref sig .tc := ⟨.hbm, 38, rfl⟩
abbrev main_cst_5 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_call1_v0 : Ref sig .tc := ⟨.hbm, 44, rfl⟩
abbrev main_call1_v1 : Ref sig .tc := ⟨.hbm, 45, rfl⟩
abbrev main_v31 : Ref sig .tc := ⟨.hbm, 46, rfl⟩
abbrev main_v32 : Ref sig .tc := ⟨.hbm, 47, rfl⟩
abbrev main_cst_7 : Ref sig .tc := ⟨.hbm, 48, rfl⟩
abbrev main_v33 : Ref sig .tc := ⟨.hbm, 49, rfl⟩
abbrev main_cst_8 : Ref sig .tc := ⟨.hbm, 50, rfl⟩
abbrev main_v34 : Ref sig .tc := ⟨.hbm, 51, rfl⟩

abbrev nD : Nat := 1
abbrev τ : Topo := Topo.v7x

variable {F : FTy → Type} [FloatOps F]

class Facts₀ : Prop where
  shapeCasts_S16x1x1024x1024_S16x1048576 : S16x1x1024x1024.ShapeCasts S16x1048576
  bcast_S_S16x1048576 : S_.BroadcastsInDim S16x1048576 (![] : Fin 0 → Fin S16x1048576.rank)
  bcast_S16_S16x1_0 : S16.BroadcastsInDim S16x1 (![0] : Fin 1 → Fin S16x1.rank)
  bcast_S_S16x1 : S_.BroadcastsInDim S16x1 (![] : Fin 0 → Fin S16x1.rank)
  bcast_S16x1_S16x1048576_0_1 : S16x1.BroadcastsInDim S16x1048576 (![0, 1] : Fin 2 → Fin S16x1048576.rank)
  shapeCasts_S16x1048576_S16777216 : S16x1048576.ShapeCasts S16777216
  bcast_S_S1024 : S_.BroadcastsInDim S1024 (![] : Fin 0 → Fin S1024.rank)
  bcast_S16777216_S16777216x1_0 : S16777216.BroadcastsInDim S16777216x1 (![0] : Fin 1 → Fin S16777216x1.rank)
  shapeCasts_S1024_S16x64 : S1024.ShapeCasts S16x64
  bcast_S_S16x64 : S_.BroadcastsInDim S16x64 (![] : Fin 0 → Fin S16x64.rank)
  slices_S16x64_S16x63_0_1 : S16x64.Slices ![0, 1] S16x63
  reducesTo_S16x63_S_d0_1 : S16x63.ReducesTo [0, 1] S_
  h_S_ : 0 < S_.numel
  scatter_S1024_S16777216x1_S16777216_n_0_0_1_wf : ScatterDims.WF S1024 S16777216x1 S16777216 [] [0] [0] 1

variable [Facts₀]

def scatter_S1024_S16777216x1_S16777216_n_0_0_1 : ScatterDims S1024 S16777216x1 S16777216 where
  updateWindowDims := []
  insertedWindowDims := [0]
  scatterDimsToOperandDims := [0]
  indexVectorDim := 1
  wf := scatter_S1024_S16777216x1_S16777216_n_0_0_1_wf

class Facts : Prop extends Facts₀ where

variable [Facts]
-- ==== Proof.Spec.lean ====
/-
  The per-(batch, label) histogram, as mathematics.

  A pixel carries a float value x and a 32-bit label word g. Its label is g when g is below 255 (signed), and
  0 otherwise; its squared error is (x − label)². Both programs bin pixels by label, per batch row, summing the
  squared errors and counting; they differ only in how the bins are addressed.

  One side factors a label into its top part (label shifted right by 3) and its low three bits, and for
  each batch row b accumulates a 16 × 8 table: entry (m, o) sums, over all pixels of the row, "row m's entry"
  times "the low bits are o" — rows 0..7 carry the squared error where the top part is m, rows 8..15 carry
  1 where the top part is m − 8. The pixels of a row are visited tile by tile (16 tiles of 65536), chunk by
  chunk (32 chunks of 2048) within a tile.

  The other side addresses bin 64·b + label directly, over all batch rows and pixels at once.

  Both then take, per (batch, label), sum / max(count, 1) where the count is positive and 0 elsewhere, add
  these up over labels 1..63 and all batches, and divide by 16.
-/
import Idealize.ShloMosaic.PureOps.Ideal
import Idealize.ShloMosaic.Lib.ValueIdx

noncomputable section

namespace Cert.Hsl

open Idealize.ShloMosaic Idealize.ShloMosaic.ValueIdx

/-- The two inputs with their image axes flattened: 16 batch rows of 1024·1024 pixels. -/
abbrev SPix : Shape := ⟨2, ![16, 1048576]⟩
abbrev SBins : Shape := ⟨2, ![16, 64]⟩
abbrev SBins1 : Shape := ⟨2, ![16, 63]⟩
abbrev SOne : Shape := ⟨0, ![]⟩

/-- A pixel's label: its word when that is below 255 as a signed number, else 0. -/
def labW (g : BitVec 32) : BitVec 32 := Scalar.select (IntOp.cmpi .slt g 255#32) g 0#32

/-- The label's top part (arithmetic shift right by three, as the vector unit does it). -/
def hiW (g : BitVec 32) : BitVec 32 := IntOp.shrsi .vector (labW g) 3#32

/-- The label's low three bits. -/
def loW (g : BitVec 32) : BitVec 32 := IntOp.andi (labW g) 7#32

/-- A pixel's squared error against its label, on the extended reals. -/
def sqE (x : Ideal .f32) (g : BitVec 32) : Ideal .f32 :=
  FloatOps.mulf (FloatOps.subf x (FloatOps.sitofp .f32 (labW g))) (FloatOps.subf x (FloatOps.sitofp .f32 (labW g)))

/-- 1 where two words agree, 0 where they differ. -/
def ind (a b : BitVec 32) : EReal := if a = b then 1 else 0

/-- Row m of the 16-row operand at a pixel: for m below 8 the squared error where the top part is m (else 0),
    for m from 8 on the indicator that the top part is m − 8. -/
def lhsE (m : Fin 16) (x : EReal) (g : BitVec 32) : EReal :=
  if m.val < 8 then (if hiW g = BitVec.ofNat 32 m.val then sqE x g else 0) else ind (hiW g) (BitVec.ofNat 32 (m.val - 8))

/-- Row o of the 8-row operand at a pixel: the indicator that the low bits are o. -/
def rhsE (o : Fin 8) (g : BitVec 32) : EReal := ind (loW g) (BitVec.ofNat 32 o.val)

/-- The pixel at position j of chunk k of tile tt. -/
def pix (tt : Fin 16) (k : Fin 32) (j : Fin 2048) : Fin 1048576 :=
  ⟨tt.val * 65536 + k.val * 2048 + j.val, by have := tt.isLt; have := k.isLt; have := j.isLt; omega⟩

/-- One pixel's contribution to table entry (m, o). -/
def term (m : Fin 16) (o : Fin 8) (x : EReal) (g : BitVec 32) : EReal := lhsE m x g * rhsE o g

/-- One chunk's contribution to batch row b's table entry (m, o). -/
def chunkSum (X : SPix.Idx → EReal) (G : IVec SPix 32) (b : Fin 16) (tt : Fin 16) (k : Fin 32) (m : Fin 16) (o : Fin 8) : EReal :=
  ∑ j : Fin 2048, term m o (X (ix2 b (pix tt k j))) (G (ix2 b (pix tt k j)))

/-- One tile's contribution: its 32 chunks. -/
def tileSum (X : SPix.Idx → EReal) (G : IVec SPix 32) (b : Fin 16) (tt : Fin 16) (m : Fin 16) (o : Fin 8) : EReal :=
  ∑ k : Fin 32, chunkSum X G b tt k m o

/-- Batch row b's table entry (m, o): all 16 tiles. -/
def histK (X : SPix.Idx → EReal) (G : IVec SPix 32) (b : Fin 16) (m : Fin 16) (o : Fin 8) : EReal :=
  ∑ tt : Fin 16, tileSum X G b tt m o

/-- The table side's per-(batch, label) sums: label l sits at row l / 8, column l % 8. -/
def sumsqK (X : SPix.Idx → EReal) (G : IVec SPix 32) : SBins.Idx → EReal := fun i =>
  histK X G ⟨(i 0).val, (i 0).isLt⟩ ⟨(i 1).val / 8, by have : (i 1).val < 64 := (i 1).isLt; omega⟩
    ⟨(i 1).val % 8, Nat.mod_lt _ (by decide)⟩

/-- The table side's per-(batch, label) counts: eight rows further down. -/
def cntK (X : SPix.Idx → EReal) (G : IVec SPix 32) : SBins.Idx → EReal := fun i =>
  histK X G ⟨(i 0).val, (i 0).isLt⟩ ⟨8 + (i 1).val / 8, by have : (i 1).val < 64 := (i 1).isLt; omega⟩
    ⟨(i 1).val % 8, Nat.mod_lt _ (by decide)⟩

/-- The bin a pixel of batch row b is added to on the direct side: 64·b + label, in 32-bit arithmetic. -/
def segW (b : Fin 16) (g : BitVec 32) : BitVec 32 := IntOp.addi (IntOp.muli (BitVec.ofNat 32 b.val) 64#32) (labW g)

/-- The direct side's per-(batch, label) sums: over every batch row and pixel whose bin is 64·batch + label. -/
def sumsqR (X : SPix.Idx → EReal) (G : IVec SPix 32) : SBins.Idx → EReal := fun i =>
  ∑ b : Fin 16, ∑ p : Fin 1048576,
    if (segW b (G (ix2 b p))).toInt = ((64 * (i 0).val + (i 1).val : Nat) : Int) then sqE (X (ix2 b p)) (G (ix2 b p)) else 0

/-- The direct side's per-(batch, label) counts. -/
def cntR (G : IVec SPix 32) : SBins.Idx → EReal := fun i =>
  ∑ b : Fin 16, ∑ p : Fin 1048576,
    if (segW b (G (ix2 b p))).toInt = ((64 * (i 0).val + (i 1).val : Nat) : Int) then (1 : EReal) else 0

/-- What both programs do with the per-(batch, label) sums and counts: the mean where the count is positive and 0
    elsewhere, added up over labels 1..63 and all batches, divided by 16. -/
def lossOf (hb : SOne.BroadcastsInDim SBins (![] : Fin 0 → Fin SBins.rank)) (hs : SBins.Slices ![0, 1] SBins1)
    (hr : SBins1.ReducesTo [0, 1] SOne) (h0 : 0 < SOne.numel)
    (sumsq cnt : FVec Ideal SBins .f32) : FVec Ideal SOne .f32 :=
  Host.divf
    (Host.reduceAdd
      (extractStridedSlice SBins1 ![0, 1]
        (select (cmpf .ogt cnt (broadcastInDim SBins ![] hb (constant (F := Ideal) SOne .f32 0x00000000#32)))
          (Host.divf sumsq (maximumf cnt (broadcastInDim SBins ![] hb (constant (F := Ideal) SOne .f32 0x3F800000#32))))
          (broadcastInDim SBins ![] hb (id (constant (F := Ideal) SOne .f32 0x00000000#32))))
        hs)
      (constant (F := Ideal) SOne .f32 0x00000000#32) hr h0)
    (constant (F := Ideal) SOne .f32 0x41800000#32)

end Cert.Hsl

end
-- ==== Proof.PixelSum.lean ====
/-
  Reindexing of finite sums over the pixels of a row.

  A row has 1048576 = 16 · 32 · 2048 pixels. Writing a pixel number p in the mixed radix (16, 32, 2048), that is
  p = tt · 65536 + k · 2048 + j with tt < 16, k < 32, j < 2048, is a bijection between triples and pixel
  numbers, so a sum over tiles, chunks and positions is a sum over pixels, in any commutative monoid (no
  finiteness of the summands is used: the extended reals are a commutative monoid under addition).

  The second fact is the one-row collapse: a double sum over rows and pixels in which every row but one
  contributes only zeros is the single sum over that row's pixels.
-/
import proofs.«411778_j1022202216838_3_alg».proof.Proof.Spec
import Mathlib.Data.Fintype.BigOperators
import Mathlib.Algebra.BigOperators.Group.Finset.Basic

noncomputable section

namespace Cert.Hsl

open Idealize.ShloMosaic Idealize.ShloMosaic.ValueIdx

/-- The mixed-radix numbering: (tile, chunk, position) ↦ tile · 65536 + chunk · 2048 + position is a bijection onto
    the pixel numbers; its inverse reads off the three digits by division and remainder. -/
def pixEquiv : (Fin 16 × Fin 32 × Fin 2048) ≃ Fin 1048576 where
  toFun t := pix t.1 t.2.1 t.2.2
  invFun p :=
    (⟨p.val / 65536, by have := p.isLt; omega⟩, ⟨p.val % 65536 / 2048, by omega⟩, ⟨p.val % 2048, by omega⟩)
  left_inv := by
    rintro ⟨tt, k, j⟩
    have htt := tt.isLt
    have hk := k.isLt
    have hj := j.isLt
    refine Prod.ext (Fin.ext ?_) (Prod.ext (Fin.ext ?_) (Fin.ext ?_))
    · show (tt.val * 65536 + k.val * 2048 + j.val) / 65536 = tt.val
      omega
    · show (tt.val * 65536 + k.val * 2048 + j.val) % 65536 / 2048 = k.val
      omega
    · show (tt.val * 65536 + k.val * 2048 + j.val) % 2048 = j.val
      omega
  right_inv := by
    intro p
    apply Fin.ext
    show p.val / 65536 * 65536 + p.val % 65536 / 2048 * 2048 + p.val % 2048 = p.val
    omega

/-- Every pixel of a row is position j of chunk k of tile tt for exactly one (tt, k, j): a sum over tiles, chunks
    and positions is the sum over pixels. -/
theorem sum_pix {M : Type*} [AddCommMonoid M] (f : Fin 1048576 → M) :
    ∑ tt : Fin 16, ∑ k : Fin 32, ∑ j : Fin 2048, f (pix tt k j) = ∑ p : Fin 1048576, f p := by
  rw [← Equiv.sum_comp pixEquiv f, Fintype.sum_prod_type]
  refine Finset.sum_congr rfl fun tt _ => ?_
  rw [Fintype.sum_prod_type]
  rfl

/-- The table side's entry as one sum over the row's pixels. -/
theorem histK_eq (X : SPix.Idx → EReal) (G : IVec SPix 32) (b : Fin 16) (m : Fin 16) (o : Fin 8) :
    histK X G b m o = ∑ p : Fin 1048576, term m o (X (ix2 b p)) (G (ix2 b p)) := by
  unfold histK tileSum chunkSum
  exact sum_pix fun p => term m o (X (ix2 b p)) (G (ix2 b p))

/-- A double sum in which only batch row b contributes. -/
theorem sum_rows_single {M : Type*} [AddCommMonoid M] (b : Fin 16) (f : Fin 16 → Fin 1048576 → M)
    (h : ∀ b' p, b' ≠ b → f b' p = 0) :
    ∑ b' : Fin 16, ∑ p : Fin 1048576, f b' p = ∑ p : Fin 1048576, f b p := by
  rw [Finset.sum_eq_single b]
  · intro b' _ hb'
    exact Finset.sum_eq_zero fun p _ => h b' p hb'
  · intro hb
    exact absurd (Finset.mem_univ b) hb

end Cert.Hsl

end
-- ==== Proof.Labels.lean ====
/-
  Word arithmetic of a pixel's label.

  A label word in range is either one of 0..63 or the ignore value 255, which the label map sends to 0; so the
  label is always below 64. A number below 64 is 8·(its top part) + (its low three bits), the shift by three
  being division by 8 and the mask with 7 the remainder; and 64·b + label, with b below 16, stays far below 2³¹,
  so it determines b and the label.
-/
import proofs.«411778_j1022202216838_3_alg».proof.Proof.Spec
import Idealize.ShloMosaic.PureOps.Ideal
import Idealize.ShloMosaic.Lib.ValueIdx

noncomputable section

namespace Cert.Hsl

open Idealize.ShloMosaic

/-- a pixel word in the label range: 0..63, or the ignore value 255 -/
def InRange (g : BitVec 32) : Prop := (0 ≤ g.toInt ∧ g.toInt < 64) ∨ g = 255#32

/-- The label map with its comparison read as an order on signed values. -/
private theorem labW_eq (g : BitVec 32) : labW g = if g.toInt < 255 then g else 0#32 := by
  unfold labW Scalar.select IntOp.cmpi
  have h255 : (255#32 : BitVec 32).toInt = 255 := by decide
  by_cases h : g.toInt < 255
  · have hs : g.slt 255#32 = true := by rw [BitVec.slt_iff_toInt_lt, h255]; exact h
    simp [hs, h]
  · have hs : g.slt 255#32 = false := by
      rw [Bool.eq_false_iff]; intro hh; rw [BitVec.slt_iff_toInt_lt, h255] at hh; exact h hh
    simp [hs, h]

theorem labW_lt (g : BitVec 32) (h : InRange g) : (labW g).toNat < 64 := by
  rcases h with ⟨h0, h1⟩ | rfl
  · rw [labW_eq, if_pos (by omega)]
    have hc := BitVec.toInt_eq_toNat_cond g
    have hlt := g.isLt
    split at hc <;> omega
  · decide

/-- On a word below 64 the arithmetic shift by three divides by 8 and the mask with 7 takes the remainder. -/
private theorem hi_lo_word (L : BitVec 32) (hL : L.toNat < 64) :
    IntOp.shrsi .vector L 3#32 = BitVec.ofNat 32 (L.toNat / 8) ∧ IntOp.andi L 7#32 = BitVec.ofNat 32 (L.toNat % 8) := by
  have hmsb : L.msb = false := by
    rw [BitVec.msb_eq_false_iff_two_mul_lt]; omega
  constructor
  · unfold IntOp.shrsi
    rw [if_pos (by decide)]
    apply BitVec.eq_of_toNat_eq
    rw [BitVec.sshiftRight_eq', BitVec.sshiftRight_eq_of_msb_false hmsb]
    simp only [BitVec.toNat_ushiftRight, BitVec.toNat_ofNat, Nat.shiftRight_eq_div_pow]
    rw [show (3 % 2 ^ 32 : Nat) = 3 from by norm_num, show (2 ^ 3 : Nat) = 8 from by norm_num]
    omega
  · unfold IntOp.andi
    apply BitVec.eq_of_toNat_eq
    simp only [BitVec.toNat_and, BitVec.toNat_ofNat]
    rw [show (7 % 2 ^ 32 : Nat) = 2 ^ 3 - 1 from by norm_num, Nat.and_two_pow_sub_one_eq_mod]
    omega

/-- Two numbers below 2³² are the same when their 32-bit words are. -/
private theorem ofNat_inj_small {a b : Nat} (ha : a < 64) (hb : b < 64) :
    BitVec.ofNat 32 a = BitVec.ofNat 32 b ↔ a = b := by
  constructor
  · intro h
    have := congrArg BitVec.toNat h
    simp only [BitVec.toNat_ofNat] at this
    omega
  · intro h; rw [h]

-- for h o < 8 and a label below 64: the top part is h and the low bits are o exactly when the label is 8h+o
theorem hi_lo_iff (g : BitVec 32) (hg : (labW g).toNat < 64) (h o : Fin 8) :
    (hiW g = BitVec.ofNat 32 h.val ∧ loW g = BitVec.ofNat 32 o.val) ↔ (labW g).toNat = 8 * h.val + o.val := by
  obtain ⟨e1, e2⟩ := hi_lo_word (labW g) hg
  unfold hiW loW
  rw [e1, e2]
  have hh := h.isLt
  have ho := o.isLt
  rw [ofNat_inj_small (by omega) (by omega), ofNat_inj_small (by omega) (by omega)]
  omega

-- rows 0..7: the product of the two operands' entries is the squared error at label 8h+o
theorem term_lo (g : BitVec 32) (hg : (labW g).toNat < 64) (x : EReal) (h o : Fin 8) :
    term ⟨h.val, by omega⟩ o x g = if (labW g).toNat = 8 * h.val + o.val then sqE x g else 0 := by
  have key := hi_lo_iff g hg h o
  have hh := h.isLt
  unfold term lhsE rhsE ind
  simp only [hh, if_true]
  by_cases c1 : hiW g = BitVec.ofNat 32 h.val
  · by_cases c2 : loW g = BitVec.ofNat 32 o.val
    · rw [if_pos c1, if_pos c2, if_pos (key.mp ⟨c1, c2⟩), mul_one]
    · rw [if_pos c1, if_neg c2, if_neg (fun e => c2 (key.mpr e).2), mul_zero]
  · rw [if_neg c1, if_neg (fun e => c1 (key.mpr e).1), zero_mul]

-- rows 8..15: it is the count
theorem term_hi (g : BitVec 32) (hg : (labW g).toNat < 64) (x : EReal) (h o : Fin 8) :
    term ⟨8 + h.val, by omega⟩ o x g = if (labW g).toNat = 8 * h.val + o.val then (1 : EReal) else 0 := by
  have key := hi_lo_iff g hg h o
  have hh : ¬ (8 + h.val < 8) := by omega
  have hsub : 8 + h.val - 8 = h.val := by omega
  unfold term lhsE rhsE ind
  simp only [hh, if_false, hsub]
  by_cases c1 : hiW g = BitVec.ofNat 32 h.val
  · by_cases c2 : loW g = BitVec.ofNat 32 o.val
    · rw [if_pos c1, if_pos c2, if_pos (key.mp ⟨c1, c2⟩), mul_one]
    · rw [if_pos c1, if_neg c2, if_neg (fun e => c2 (key.mpr e).2), mul_zero]
  · rw [if_neg c1, if_neg (fun e => c1 (key.mpr e).1), zero_mul]

-- the direct side's bin: 64·b' + label equals 64·b + l (l < 64) exactly when b' = b and the label is l
theorem segW_iff (g : BitVec 32) (hg : (labW g).toNat < 64) (b' b : Fin 16) (l : Fin 64) :
    (segW b' g).toInt = ((64 * b.val + l.val : Nat) : Int) ↔ (b' = b ∧ (labW g).toNat = l.val) := by
  have hb' := b'.isLt
  have hb := b.isLt
  have hl := l.isLt
  have hnat : (segW b' g).toNat = 64 * b'.val + (labW g).toNat := by
    unfold segW IntOp.addi IntOp.muli
    rw [BitVec.toNat_add, BitVec.toNat_mul, BitVec.toNat_ofNat]
    have : (64#32 : BitVec 32).toNat = 64 := by decide
    rw [this]
    omega
  have hint : (segW b' g).toInt = ((64 * b'.val + (labW g).toNat : Nat) : Int) := by
    have := BitVec.toInt_eq_toNat_cond (segW b' g)
    rw [hnat] at this
    rw [this, if_pos (by omega)]
  rw [hint, Fin.ext_iff]
  omega

end Cert.Hsl

end
-- ==== Proof.Bridge.lean ====
/-
  The two addressings of the per-(batch, label) bins agree.

  One side keeps, for each batch row, a 16 × 8 table whose entry (l / 8, l % 8) sums the squared errors of the
  row's pixels with label l, and whose entry (8 + l / 8, l % 8) counts them: a label below 64 is determined by
  its top part l / 8 and its low three bits l % 8, so "top part is l / 8 and low bits are l % 8" says "label is l".
  The other side adds every pixel of every batch row into bin 64 · row + label; since labels stay below 64,
  bin 64 · b + l receives exactly the pixels of row b with label l. Both sides are therefore the same sum over
  the pixels of one row, restricted to one label.
-/
import proofs.«411778_j1022202216838_3_alg».proof.Proof.PixelSum
import proofs.«411778_j1022202216838_3_alg».proof.Proof.Labels

noncomputable section

namespace Cert.Hsl

open Idealize.ShloMosaic Idealize.ShloMosaic.ValueIdx

/-- Entry (l / 8, l % 8) of batch row b's table, in its upper eight rows, is the sum of the squared errors of the
    row's pixels whose label is l: the top part and the low bits together determine the label. -/
theorem histK_lo (X : SPix.Idx → EReal) (G : IVec SPix 32) (hG : ∀ i, InRange (G i)) (b : Fin 16) (l : Fin 64)
    (m : Fin 16) (o : Fin 8) (hm : m.val = l.val / 8) (ho : o.val = l.val % 8) :
    histK X G b m o
      = ∑ p : Fin 1048576, if (labW (G (ix2 b p))).toNat = l.val then sqE (X (ix2 b p)) (G (ix2 b p)) else 0 := by
  have hl := l.isLt
  have hm' : m = ⟨(⟨l.val / 8, by omega⟩ : Fin 8).val, by omega⟩ := Fin.ext hm
  rw [histK_eq, hm']
  refine Finset.sum_congr rfl fun p _ => ?_
  rw [term_lo _ (labW_lt _ (hG _))]
  refine if_congr ?_ rfl rfl
  show (labW (G (ix2 b p))).toNat = 8 * (l.val / 8) + o.val ↔ _
  omega

/-- The same entry eight rows further down counts those pixels. -/
theorem histK_hi (X : SPix.Idx → EReal) (G : IVec SPix 32) (hG : ∀ i, InRange (G i)) (b : Fin 16) (l : Fin 64)
    (m : Fin 16) (o : Fin 8) (hm : m.val = 8 + l.val / 8) (ho : o.val = l.val % 8) :
    histK X G b m o = ∑ p : Fin 1048576, if (labW (G (ix2 b p))).toNat = l.val then (1 : EReal) else 0 := by
  have hl := l.isLt
  have hm' : m = ⟨8 + (⟨l.val / 8, by omega⟩ : Fin 8).val, by omega⟩ := Fin.ext hm
  rw [histK_eq, hm']
  refine Finset.sum_congr rfl fun p _ => ?_
  rw [term_hi _ (labW_lt _ (hG _))]
  refine if_congr ?_ rfl rfl
  show (labW (G (ix2 b p))).toNat = 8 * (l.val / 8) + o.val ↔ _
  omega

/-- On the direct side, bin 64·b + l receives exactly the pixels of batch row b whose label is l: a pixel of
    another row lands in another block of 64 bins. -/
theorem binSum_eq (G : IVec SPix 32) (hG : ∀ i, InRange (G i)) (b : Fin 16) (l : Fin 64)
    (F : Fin 16 → Fin 1048576 → EReal) :
    (∑ b' : Fin 16, ∑ p : Fin 1048576,
        if (segW b' (G (ix2 b' p))).toInt = ((64 * b.val + l.val : Nat) : Int) then F b' p else 0)
      = ∑ p : Fin 1048576, if (labW (G (ix2 b p))).toNat = l.val then F b p else 0 := by
  rw [sum_rows_single b]
  · refine Finset.sum_congr rfl fun p _ => ?_
    refine if_congr ?_ rfl rfl
    rw [segW_iff _ (labW_lt _ (hG _))]
    exact ⟨fun h => h.2, fun h => ⟨rfl, h⟩⟩
  · intro b' p hb'
    rw [if_neg]
    intro h
    exact hb' ((segW_iff _ (labW_lt _ (hG _)) b' b l).1 h).1

theorem sumsq_bridge (X : SPix.Idx → EReal) (G : IVec SPix 32) (hG : ∀ i, InRange (G i)) :
    sumsqK X G = sumsqR X G := by
  funext i
  have h1 : (i 1).val < 64 := (i 1).isLt
  have hL := histK_lo X G hG ⟨(i 0).val, (i 0).isLt⟩ ⟨(i 1).val, h1⟩
    ⟨(i 1).val / 8, by omega⟩ ⟨(i 1).val % 8, Nat.mod_lt _ (by decide)⟩ rfl rfl
  have hR := binSum_eq G hG ⟨(i 0).val, (i 0).isLt⟩ ⟨(i 1).val, h1⟩ (fun b p => sqE (X (ix2 b p)) (G (ix2 b p)))
  exact hL.trans hR.symm

theorem cnt_bridge (X : SPix.Idx → EReal) (G : IVec SPix 32) (hG : ∀ i, InRange (G i)) :
    cntK X G = cntR G := by
  funext i
  have h1 : (i 1).val < 64 := (i 1).isLt
  have hL := histK_hi X G hG ⟨(i 0).val, (i 0).isLt⟩ ⟨(i 1).val, h1⟩
    ⟨8 + (i 1).val / 8, by omega⟩ ⟨(i 1).val % 8, Nat.mod_lt _ (by decide)⟩ rfl rfl
  have hR := binSum_eq G hG ⟨(i 0).val, (i 0).isLt⟩ ⟨(i 1).val, h1⟩ (fun _ _ => (1 : EReal))
  exact hL.trans hR.symm

end Cert.Hsl

end
-- ==== Proof.PreDecode.lean ====
/-
  What the stated input condition says of a label word.

  The condition is a conjunction of two "for all entries" tests, each an and-reduction over the whole array that
  starts from 1; we only need the second one. An and-reduction that comes out 1 has met only 1s, so at every
  position the tested one-bit word is 1; that word is ((0 ≤ g) and (g < 64)) or (g = 255) with the order read on
  signed values, which is exactly the label range.
-/
import proofs.«411778_j1022202216838_3_alg».proof.Pre_finite_inputs
import proofs.«411778_j1022202216838_3_alg».proof.Proof.Spec
import proofs.«411778_j1022202216838_3_alg».proof.Proof.Labels
import Idealize.ShloMosaic.Lib.ReduceAll

noncomputable section

namespace Cert.Hsl

open Idealize.ShloMosaic

/-- A shape with no axes has a single index. -/
private instance : Subsingleton Cert.Pre_finite_inputs.S_.Idx := ⟨fun a b => funext fun d => d.elim0⟩

theorem inRange_of_pre [Cert.Pre_finite_inputs.Facts] (a0 : FVec Ideal Cert.Pre_finite_inputs.S16x1x1024x1024 .f32) (a1 : IVec Cert.Pre_finite_inputs.S16x1x1024x1024 32)
    (h : Cert.Pre_finite_inputs.fn (F := Ideal) a0 a1 = fun _ => 1#1) : ∀ i, InRange (a1 i) := by
  intro i
  have h0 := congrFun h ValueIdx.ix0
  dsimp only [Cert.Pre_finite_inputs.fn] at h0
  -- the second conjunct: the and-reduction of the label test is 1
  have h1 := (IntOp.andi_eq_one.1 h0).2
  -- so the test is 1 at every position
  have h2 := Host.reduce_andi_all _ _ _ _ _ h1 i
  -- the test at position i, with the broadcast constants read
  have h3 : IntOp.ori (IntOp.andi (IntOp.cmpi .sge (a1 i) 0#32) (IntOp.cmpi .slt (a1 i) 64#32))
      (IntOp.cmpi .eq (a1 i) 255#32) = 1#1 := h2
  have e0 : (0#32 : BitVec 32).toInt = 0 := by decide
  have e64 : (64#32 : BitVec 32).toInt = 64 := by decide
  rcases IntOp.ori_eq_one.1 h3 with hl | hr
  · obtain ⟨hge, hlt⟩ := IntOp.andi_eq_one.1 hl
    rw [IntOp.cmpi_sge, e0] at hge
    rw [IntOp.cmpi_slt, e64] at hlt
    exact Or.inl ⟨hge, hlt⟩
  · exact Or.inr (IntOp.cmpi_eq.1 hr)

-- the same through the flattening of the image axes (a reshape reads its operand at an index)
theorem inRange_reshape [Cert.Pre_finite_inputs.Facts] (a0 : FVec Ideal Cert.Pre_finite_inputs.S16x1x1024x1024 .f32) (a1 : IVec Cert.Pre_finite_inputs.S16x1x1024x1024 32)
    (h : Cert.Pre_finite_inputs.fn (F := Ideal) a0 a1 = fun _ => 1#1) (hs : Cert.Pre_finite_inputs.S16x1x1024x1024.ShapeCasts SPix) : ∀ i : SPix.Idx, InRange (shapeCast SPix a1 hs i) := by
  intro i
  unfold shapeCast
  exact inRange_of_pre a0 a1 h _

end Cert.Hsl

end
-- ==== Proof.Inputs.lean ====
/-
  The two flattened inputs as the table side's region finds them: 16 batch rows of 1024·1024 float values, and
  of as many label words.
-/
import proofs.«411778_j1022202216838_3_alg».proof.Proof.Gen.KernelIdeal.Frame
import proofs.«411778_j1022202216838_3_alg».proof.Proof.Spec

noncomputable section

namespace Cert.KernelIdeal.Hist

open Idealize.ShloMosaic Cert.KernelIdeal Cert.KernelIdeal.Gen

variable (m : (ℓ : Loc nD τ sig) → Buf (Elt Ideal) ℓ)

/-- The float values, batch row by pixel. -/
abbrev Xin (c : Dev nD) : Cert.Hsl.SPix.Idx → EReal := V (F := Ideal) m c main_v0

/-- The label words, batch row by pixel. -/
abbrev Gin (c : Dev nD) : IVec Cert.Hsl.SPix 32 := V (F := Ideal) m c main_v1

end Cert.KernelIdeal.Hist

end
-- ==== Proof.OutArr.lean ====
/-
  The output array of the table side as one function of the two flattened inputs: batch row b, table row m,
  lane o holds the table entry for o below 8 and zero on the padding lanes 8..127. Cutting out lanes 0..7 of
  rows 0..7 (resp. 8..15) and flattening (row, lane) to one label axis gives the per-(batch, label) sums
  (resp. counts): label l sits at row l / 8, lane l % 8.
-/
import proofs.«411778_j1022202216838_3_alg».proof.KernelIdeal
import proofs.«411778_j1022202216838_3_alg».proof.Proof.Spec

noncomputable section

namespace Cert.KernelIdeal.Hist

open Idealize.ShloMosaic Idealize.ShloMosaic.ValueIdx Cert.KernelIdeal

/-- The [16, 16, 128] array the table side hands to the closing host computation. -/
def outArr (X : Cert.Hsl.SPix.Idx → EReal) (G : IVec Cert.Hsl.SPix 32) : S16x16x128.Idx → EReal := fun i =>
  if hl : (i 2).val < 8 then
    Cert.Hsl.histK X G (⟨(i 0).val, (i 0).isLt⟩ : Fin 16) (⟨(i 1).val, (i 1).isLt⟩ : Fin 16) (⟨(i 2).val, hl⟩ : Fin 8)
  else 0

end Cert.KernelIdeal.Hist

end
-- ==== Proof.ChunkTable.lean ====
/-
  One chunk's 16 × 8 table as a single term: the batched product, over the 2048 positions of a chunk, of the
  16-row operand (rows 0..7 the squared error selected by the label's top part, rows 8..15 the top part's
  indicators) with the 8-row operand (the indicators of the label's low bits), both built from the chunk's
  float values and label words.
-/
import proofs.«411778_j1022202216838_3_alg».proof.Proof.Gen.KernelIdeal.Skeleton
import Idealize.ShloMosaic.Lib.ValueIdx

noncomputable section

namespace Cert.KernelIdeal.Hist

open Idealize.ShloMosaic Idealize.ShloMosaic.ValueIdx Cert.KernelIdeal Cert.KernelIdeal.Gen

variable {F : FTy → Type} [FloatOps F]

/-- The 16-row operand of a chunk: eight selected squared-error rows, then eight indicator rows. -/
def lhsRows (x : Vec F S8x2048 .f32) (g : Vec F S8x2048 .i32) : FVec F S8x16x2048 .bf16 :=
  k0_pay27 (k0_pay8 g) (k0_pay11 x g) (k0_pay12 x g) (k0_pay13 x g) (k0_pay14 x g)
    (k0_pay17 (k0_pay10 x g) (k0_pay15 g) (k0_pay16 (F := F)))
    (k0_pay18 (k0_pay8 g) (k0_pay10 x g)) (k0_pay19 (k0_pay8 g) (k0_pay10 x g)) (k0_pay20 (k0_pay8 g) (k0_pay10 x g))
    (k0_pay21 (F := F) (k0_pay8 g)) (k0_pay22 (F := F) (k0_pay8 g)) (k0_pay23 (F := F) (k0_pay8 g))
    (k0_pay24 (F := F) (k0_pay8 g)) (k0_pay25 (F := F) (k0_pay8 g)) (k0_pay26 (F := F) (k0_pay8 g)) 6#32

/-- The chunk's table: the batched product of the two operands into a zero accumulator. -/
def chunkTable (x : Vec F S8x2048 .f32) (g : Vec F S8x2048 .i32) : FVec F S8x16x8 .f32 :=
  k0_pay3 (k0_pay9 g) (lhsRows x g) (k0_pay28 (F := F) (k0_pay9 g)) (k0_pay29 (F := F) (k0_pay9 g))
    (k0_pay30 (F := F) (k0_pay9 g)) (k0_pay31 (F := F) (k0_pay9 g)) (k0_pay32 (F := F) (k0_pay9 g)) k0_pay33

/-- The stored value of the first accumulator after a chunk: what was there plus rows 0..7 of the chunk's table. -/
theorem pay4_eq (x : Vec F S8x2048 .f32) (g : Vec F S8x2048 .i32) (v : Vec F S8x8x8 .f32) :
    k0_pay4 (k0_pay9 g) (lhsRows x g) (k0_pay28 (F := F) (k0_pay9 g)) (k0_pay29 (F := F) (k0_pay9 g))
      (k0_pay30 (F := F) (k0_pay9 g)) (k0_pay31 (F := F) (k0_pay9 g)) (k0_pay32 (F := F) (k0_pay9 g)) k0_pay33 v
    = shapeCast S8x8x8 (addf v (extractStridedSlice S8x8x8 ![0, 0, 0] (chunkTable x g) Facts₀.slices_S8x16x8_o0_0_0_S8x8x8))
        Facts₀.shapeCasts_S8x8x8_S8x8x8 := rfl

/-- The stored value of the second accumulator after a chunk: what was there plus rows 8..15 of the chunk's table. -/
theorem pay5_eq (x : Vec F S8x2048 .f32) (g : Vec F S8x2048 .i32) (v : Vec F S8x8x8 .f32) :
    k0_pay5 (k0_pay9 g) (lhsRows x g) (k0_pay28 (F := F) (k0_pay9 g)) (k0_pay29 (F := F) (k0_pay9 g))
      (k0_pay30 (F := F) (k0_pay9 g)) (k0_pay31 (F := F) (k0_pay9 g)) (k0_pay32 (F := F) (k0_pay9 g)) k0_pay33 v
    = shapeCast S8x8x8 (addf v (extractStridedSlice S8x8x8 ![0, 8, 0] (chunkTable x g) Facts₀.slices_S8x16x8_o0_8_0_S8x8x8))
        Facts₀.shapeCasts_S8x8x8_S8x8x8 := rfl

/-- Chunk k of a tile's block: its columns 2048·k … 2048·k + 2047. -/
def chunkOf {e : EltTy} (x : Vec F S8x65536 e) (k : Fin 32) : Vec F S8x2048 e := fun y =>
  x (ix2 (⟨(y 0).val, (y 0).isLt⟩ : Fin 8)
    (⟨k.val * 2048 + (y 1).val, by have := k.isLt; have : (y 1).val < 2048 := (y 1).isLt; omega⟩ : Fin 65536))

/-- A tile's table: the tables of its 32 chunks added up. -/
def tileTable (x0 : Vec Ideal S8x65536 .f32) (x1 : Vec Ideal S8x65536 .i32) : S8x16x8.Idx → EReal := fun i =>
  ∑ k : Fin 32, chunkTable (F := Ideal) (chunkOf x0 k) (chunkOf x1 k) i

end Cert.KernelIdeal.Hist

end
-- ==== Proof.BatchedProduct.lean ====
/-
  A batched product read at an entry.

  The product contracts the last axis of both operands, keeps the middle axis of each, and runs over a shared
  leading batch axis: entry (b, m, o) of the result reads the first operand at (b, m, ·) and the second at
  (b, o, ·). Into a zero accumulator it is therefore the plain sum, over the 2048 contracted positions j, of
  A(b, m, j) · B(b, o, j). The contraction index has a single axis, so the sum over it is a sum over Fin 2048.
-/
import proofs.«411778_j1022202216838_3_alg».proof.KernelIdeal
import Idealize.ShloMosaic.PureOps.Ideal.Laws
import Idealize.ShloMosaic.Lib.ValueIdx

noncomputable section

namespace Cert.KernelIdeal.Hist

open Idealize.ShloMosaic Idealize.ShloMosaic.ValueIdx Cert.KernelIdeal

/-- Reading a coordinate does not depend on how its position is written. -/
private theorem coord_congr {s : Shape} (j : s.Idx) (p q : Nat) (hp : p < s.rank) (hq : q < s.rank) (h : p = q) :
    (j ⟨p, hp⟩).val = (j ⟨q, hq⟩).val := by subst h; rfl

/-- The first operand's batch axis reads the entry's first coordinate. -/
private theorem lhs_0 [Cert.KernelIdeal.Facts] (j : S8x16x8.Idx) (k : dot_S8x16x2048_S8x8x2048_S8x16x8_2_2_1_1_0_0.contr.Idx) :
    (dot_S8x16x2048_S8x8x2048_S8x16x8_2_2_1_1_0_0.lhsIdx j k 0).val = (j 0).val := by
  unfold DotDims.lhsIdx
  rw [dif_pos (show (0 : Fin S8x16x2048.rank) ∈ dot_S8x16x2048_S8x8x2048_S8x16x8_2_2_1_1_0_0.lhsBatch from
    (by decide : (0 : Fin 3) ∈ ([0] : List (Fin 3))))]
  exact coord_congr j _ _ _ _ (by decide : List.idxOf (0 : Fin 3) [0] = 0 % 3)

/-- The first operand's kept axis reads the entry's second coordinate. -/
private theorem lhs_1 [Cert.KernelIdeal.Facts] (j : S8x16x8.Idx) (k : dot_S8x16x2048_S8x8x2048_S8x16x8_2_2_1_1_0_0.contr.Idx) :
    (dot_S8x16x2048_S8x8x2048_S8x16x8_2_2_1_1_0_0.lhsIdx j k 1).val = (j 1).val := by
  unfold DotDims.lhsIdx
  rw [dif_neg (show ¬ (1 : Fin S8x16x2048.rank) ∈ dot_S8x16x2048_S8x8x2048_S8x16x8_2_2_1_1_0_0.lhsBatch from
      (by decide : ¬ (1 : Fin 3) ∈ ([0] : List (Fin 3)))),
    dif_pos (show (1 : Fin S8x16x2048.rank) ∈ dot_S8x16x2048_S8x8x2048_S8x16x8_2_2_1_1_0_0.lhsNonContracting from
      (by decide : (1 : Fin 3) ∈ ([1] : List (Fin 3))))]
  exact coord_congr j _ _ _ _ (by decide : ([0] : List (Fin 3)).length + List.idxOf (1 : Fin 3) [1] = 1 % 3)

/-- The first operand's contracted axis reads the contraction position. -/
private theorem lhs_2 [Cert.KernelIdeal.Facts] (j : S8x16x8.Idx) (k : dot_S8x16x2048_S8x8x2048_S8x16x8_2_2_1_1_0_0.contr.Idx) :
    (dot_S8x16x2048_S8x8x2048_S8x16x8_2_2_1_1_0_0.lhsIdx j k 2).val = (k ⟨0, Nat.one_pos⟩).val :=
  dot_S8x16x2048_S8x8x2048_S8x16x8_2_2_1_1_0_0.lhsIdx_val_of_single (cl := 2) rfl j k

/-- The second operand's batch axis reads the entry's first coordinate. -/
private theorem rhs_0 [Cert.KernelIdeal.Facts] (j : S8x16x8.Idx) (k : dot_S8x16x2048_S8x8x2048_S8x16x8_2_2_1_1_0_0.contr.Idx) :
    (dot_S8x16x2048_S8x8x2048_S8x16x8_2_2_1_1_0_0.rhsIdx j k 0).val = (j 0).val := by
  unfold DotDims.rhsIdx
  rw [dif_pos (show (0 : Fin S8x8x2048.rank) ∈ dot_S8x16x2048_S8x8x2048_S8x16x8_2_2_1_1_0_0.rhsBatch from
    (by decide : (0 : Fin 3) ∈ ([0] : List (Fin 3))))]
  exact coord_congr j _ _ _ _ (by decide : List.idxOf (0 : Fin 3) [0] = 0 % 3)

/-- The second operand's kept axis reads the entry's third coordinate. -/
private theorem rhs_1 [Cert.KernelIdeal.Facts] (j : S8x16x8.Idx) (k : dot_S8x16x2048_S8x8x2048_S8x16x8_2_2_1_1_0_0.contr.Idx) :
    (dot_S8x16x2048_S8x8x2048_S8x16x8_2_2_1_1_0_0.rhsIdx j k 1).val = (j 2).val := by
  unfold DotDims.rhsIdx
  rw [dif_neg (show ¬ (1 : Fin S8x8x2048.rank) ∈ dot_S8x16x2048_S8x8x2048_S8x16x8_2_2_1_1_0_0.rhsBatch from
      (by decide : ¬ (1 : Fin 3) ∈ ([0] : List (Fin 3)))),
    dif_pos (show (1 : Fin S8x8x2048.rank) ∈ dot_S8x16x2048_S8x8x2048_S8x16x8_2_2_1_1_0_0.rhsNonContracting from
      (by decide : (1 : Fin 3) ∈ ([1] : List (Fin 3))))]
  exact coord_congr j _ _ _ _
    (by decide : ([0] : List (Fin 3)).length + ([1] : List (Fin 3)).length + List.idxOf (1 : Fin 3) [1] = 2 % 3)

/-- The second operand's contracted axis reads the contraction position. -/
private theorem rhs_2 [Cert.KernelIdeal.Facts] (j : S8x16x8.Idx) (k : dot_S8x16x2048_S8x8x2048_S8x16x8_2_2_1_1_0_0.contr.Idx) :
    (dot_S8x16x2048_S8x8x2048_S8x16x8_2_2_1_1_0_0.rhsIdx j k 2).val = (k ⟨0, Nat.one_pos⟩).val :=
  dot_S8x16x2048_S8x8x2048_S8x16x8_2_2_1_1_0_0.rhsIdx_val_of_single (cr := 2) rfl j k

/-- Where the first operand is read for entry (b, m, o) at contracted position j. -/
private theorem lhs_at [Cert.KernelIdeal.Facts] (b : Fin 8) (mm : Fin 16) (o : Fin 8) (j : Fin 2048) :
    dot_S8x16x2048_S8x8x2048_S8x16x8_2_2_1_1_0_0.lhsIdx (ix3 b mm o)
        ((contrEquiv1 dot_S8x16x2048_S8x8x2048_S8x16x8_2_2_1_1_0_0 2048 rfl rfl).symm j) = ix3 b mm j := by
  funext a
  match a with
  | ⟨0, _⟩ => exact Fin.ext (lhs_0 _ _)
  | ⟨1, _⟩ => exact Fin.ext (lhs_1 _ _)
  | ⟨2, _⟩ => exact Fin.ext ((lhs_2 _ _).trans (contrEquiv1_symm_val dot_S8x16x2048_S8x8x2048_S8x16x8_2_2_1_1_0_0 2048 rfl rfl j))

/-- Where the second operand is read for entry (b, m, o) at contracted position j. -/
private theorem rhs_at [Cert.KernelIdeal.Facts] (b : Fin 8) (mm : Fin 16) (o : Fin 8) (j : Fin 2048) :
    dot_S8x16x2048_S8x8x2048_S8x16x8_2_2_1_1_0_0.rhsIdx (ix3 b mm o)
        ((contrEquiv1 dot_S8x16x2048_S8x8x2048_S8x16x8_2_2_1_1_0_0 2048 rfl rfl).symm j) = ix3 b o j := by
  funext a
  match a with
  | ⟨0, _⟩ => exact Fin.ext (rhs_0 _ _)
  | ⟨1, _⟩ => exact Fin.ext (rhs_1 _ _)
  | ⟨2, _⟩ => exact Fin.ext ((rhs_2 _ _).trans (contrEquiv1_symm_val dot_S8x16x2048_S8x8x2048_S8x16x8_2_2_1_1_0_0 2048 rfl rfl j))

/-- entry (b, m, o) of the batched product into a zero accumulator: the sum over the 2048 contracted positions -/
theorem batched_prod_apply [Cert.KernelIdeal.Facts] (A : FVec Ideal S8x16x2048 .bf16) (B : FVec Ideal S8x8x2048 .bf16) (b : Fin 8) (mm : Fin 16) (o : Fin 8) :
    matmul (F := Ideal) dot_S8x16x2048_S8x8x2048_S8x16x8_2_2_1_1_0_0 none A B (constant (F := Ideal) S8x16x8 .f32 0x00000000#32) (ix3 b mm o)
      = ∑ j : Fin 2048, A (ix3 b mm j) * B (ix3 b o j) := by
  refine (Ideal.matmul_constant_zero_apply dot_S8x16x2048_S8x8x2048_S8x16x8_2_2_1_1_0_0 none A B (ix3 b mm o)).trans ?_
  rw [← Equiv.sum_comp (contrEquiv1 dot_S8x16x2048_S8x8x2048_S8x16x8_2_2_1_1_0_0 2048 rfl rfl).symm]
  refine Finset.sum_congr rfl fun j _ => ?_
  rw [lhs_at, rhs_at]

end Cert.KernelIdeal.Hist

end
-- ==== Proof.ChunkValue.lean ====
/-
  One chunk's 16 × 8 table, entry by entry.

  A chunk holds, for each of 8 batch rows, 2048 pixels: a float value and a label word each. The table's entry
  (b, m, o) is the sum over the 2048 pixels of batch row b of "row m's entry at the pixel" times "the pixel's low
  label bits are o". The two factors are read off the two stacked operands of the batched product: the 16-row
  operand is sixteen [8, 2048] rows stacked along a new middle axis (rows 0..7 the squared error where the label's
  top part equals the row number, rows 8..15 the indicator that the top part equals the row number less 8), the
  8-row operand is the eight indicator rows of the low bits. Reading a stacked operand at (b, m, j) picks row m at
  (b, j); each row at a pixel is an `if` on an equation between words, or that equation's indicator.
-/
import proofs.«411778_j1022202216838_3_alg».proof.Proof.ChunkTable
import proofs.«411778_j1022202216838_3_alg».proof.Proof.Spec
import proofs.«411778_j1022202216838_3_alg».proof.Proof.BatchedProduct
import Idealize.ShloMosaic.Lib.ValueIdx
import Idealize.ShloMosaic.PureOps.Ideal
import Idealize.ShloMosaic.PureOps.Ideal.Laws
import Idealize.ShloMosaic.Lib.Pipeline.Value

noncomputable section

namespace Cert.KernelIdeal.Hist
open Idealize.ShloMosaic Idealize.ShloMosaic.ValueIdx Cert.KernelIdeal Cert.KernelIdeal.Gen

/-- A pixel's label: its word when below 255 as a signed number, else 0. -/
private theorem pay7_apply (g : Vec Ideal S8x2048 .i32) (y : S8x2048.Idx) :
    k0_pay7 (F := Ideal) g y = Cert.Hsl.labW (g y) := by
  unfold k0_pay7 Cert.Hsl.labW
  simp only [shapeCast_self]
  rfl

/-- The label's top part. -/
private theorem pay8_apply (g : Vec Ideal S8x2048 .i32) (y : S8x2048.Idx) :
    k0_pay8 (F := Ideal) g y = Cert.Hsl.hiW (g y) := by
  unfold k0_pay8 Cert.Hsl.hiW
  rw [← pay7_apply]; rfl

/-- The label's low three bits. -/
private theorem pay9_apply (g : Vec Ideal S8x2048 .i32) (y : S8x2048.Idx) :
    k0_pay9 (F := Ideal) g y = Cert.Hsl.loW (g y) := by
  unfold k0_pay9 Cert.Hsl.loW
  rw [← pay7_apply]; rfl

/-- The squared error of a pixel against its label. -/
private theorem pay10_apply (x : Vec Ideal S8x2048 .f32) (g : Vec Ideal S8x2048 .i32) (y : S8x2048.Idx) :
    k0_pay10 (F := Ideal) x g y = Cert.Hsl.sqE (x y) (g y) := by
  unfold k0_pay10 Cert.Hsl.sqE
  simp only [shapeCast_self]
  rw [← pay7_apply]; rfl

/-- The equality test of two words is the bit 1 when they agree … -/
private theorem cmpi_eq_of_eq {a c : BitVec 32} (h : a = c) : IntOp.cmpi .eq a c = 1#1 := by
  subst h; simp [IntOp.cmpi]

/-- … and the bit 0 when they differ. -/
private theorem cmpi_eq_of_ne {a c : BitVec 32} (h : a ≠ c) : IntOp.cmpi .eq a c = 0#1 := by
  have hb : (a == c) = false := by simpa using h
  simp [IntOp.cmpi, hb]

/-- A select on an equality test is the `if` on the equation. -/
private theorem sel_eq {α : Type} (a c : BitVec 32) (u v : α) :
    Scalar.select (IntOp.cmpi .eq a c) u v = if a = c then u else v := by
  by_cases h : a = c
  · rw [cmpi_eq_of_eq h, select_one, if_pos h]
  · rw [cmpi_eq_of_ne h, select_zero, if_neg h]

/-- An equality test, widened to a word and read as a signed number, is the indicator of the equation. -/
private theorem ind_eq (a c : BitVec 32) :
    (FloatOps.sitofp (F := Ideal) .f32 ((IntOp.cmpi .eq a c).setWidth 32) : EReal) = Cert.Hsl.ind a c := by
  unfold Cert.Hsl.ind
  by_cases h : a = c
  · rw [cmpi_eq_of_eq h, if_pos h]
    show (((( (1#1 : BitVec 1).setWidth 32).toInt : ℝ)) : EReal) = 1
    norm_num
  · rw [cmpi_eq_of_ne h, if_neg h]
    show (((( (0#1 : BitVec 1).setWidth 32).toInt : ℝ)) : EReal) = 0
    norm_num

private theorem scalar_ofBits_eq (b : BitVec 32) : Scalar.ofBits (F := Ideal) .f32 b = Ideal.ofBits .f32 b := rfl

/-- A row that carries `sq` where the word vector `hi` equals `c`, and 0 elsewhere. -/
def selRow (hi : IVec S8x2048 32) (sq : FVec Ideal S8x2048 .f32) (c : BitVec 32) : FVec Ideal S8x2048 .bf16 :=
  truncf .bf16 (select (cmpi .eq hi (broadcast S8x2048 c)) sq
    (broadcast S8x2048 (Scalar.ofBits (F := Ideal) .f32 0x00000000#32))) Facts₀.bitsLt_bf16_f32

/-- A row that carries 1 where the word vector `w` equals `c`, and 0 elsewhere. -/
def indRow (w : IVec S8x2048 32) (c : BitVec 32) : FVec Ideal S8x2048 .bf16 :=
  truncf .bf16 (sitofp .f32 (extui 32 (cmpi .eq w (broadcast S8x2048 c)) Facts₀.natLt_1_32)) Facts₀.bitsLt_bf16_f32

theorem selRow_apply (hi : IVec S8x2048 32) (sq : FVec Ideal S8x2048 .f32) (c : BitVec 32) (y : S8x2048.Idx) :
    selRow hi sq c y = if hi y = c then sq y else 0 := by
  unfold selRow
  simp only [truncf_apply, select_apply, broadcast_apply]
  show Scalar.select (IntOp.cmpi .eq (hi y) c) (sq y) (Scalar.ofBits (F := Ideal) .f32 0x00000000#32) = _
  rw [sel_eq, scalar_ofBits_eq, Ideal.ofBits_zero_f32]

theorem indRow_apply (w : IVec S8x2048 32) (c : BitVec 32) (y : S8x2048.Idx) :
    indRow w c y = Cert.Hsl.ind (w y) c := by
  unfold indRow
  simp only [truncf_apply, sitofp_apply, extui_apply]
  show FloatOps.sitofp (F := Ideal) .f32 ((IntOp.cmpi .eq (w y) c).setWidth 32) = _
  exact ind_eq _ _

/-- Row m of the 16-row operand: below 8 the squared error selected by the top part, from 8 on the top part's indicator. -/
def rowL (x : Vec Ideal S8x2048 .f32) (g : Vec Ideal S8x2048 .i32) (m : Fin 16) : FVec Ideal S8x2048 .bf16 :=
  if m.val < 8 then selRow (k0_pay8 g) (k0_pay10 x g) (BitVec.ofNat 32 m.val)
  else indRow (k0_pay8 g) (BitVec.ofNat 32 (m.val - 8))

/-- Row o of the 8-row operand: the indicator of the low bits. -/
def rowR (g : Vec Ideal S8x2048 .i32) (o : Fin 8) : FVec Ideal S8x2048 .bf16 :=
  indRow (k0_pay9 g) (BitVec.ofNat 32 o.val)

theorem rowL_apply (x : Vec Ideal S8x2048 .f32) (g : Vec Ideal S8x2048 .i32) (m : Fin 16) (y : S8x2048.Idx) :
    rowL x g m y = Cert.Hsl.lhsE m (x y) (g y) := by
  unfold rowL Cert.Hsl.lhsE
  by_cases h : m.val < 8
  · rw [if_pos h, if_pos h, selRow_apply, pay8_apply, pay10_apply]
  · rw [if_neg h, if_neg h, indRow_apply, pay8_apply]

theorem rowR_apply (g : Vec Ideal S8x2048 .i32) (o : Fin 8) (y : S8x2048.Idx) :
    rowR g o y = Cert.Hsl.rhsE o (g y) := by
  unfold rowR Cert.Hsl.rhsE
  rw [indRow_apply, pay9_apply]

/-- The 8-row operand of a chunk: the eight indicator rows of the low bits, stacked. -/
def rhsRows (g : Vec Ideal S8x2048 .i32) : FVec Ideal S8x8x2048 .bf16 :=
  concatenate S8x8x2048 1
    (List.ofFn fun n : Fin 8 => (⟨S8x1x2048, shapeCast S8x1x2048 (rowR g n) Facts₀.shapeCasts_S8x2048_S8x1x2048⟩ : (s : Shape) × (s.Idx → Ideal .bf16)))
    Facts₀.concatenates_S8x1x2048_S8x1x2048_S8x1x2048_S8x1x2048_S8x1x2048_S8x1x2048_S8x1x2048_S8x1x2048_S8x8x2048_d1

/-- The 16-row operand is its sixteen rows, stacked. -/
theorem lhsRows_eq (x : Vec Ideal S8x2048 .f32) (g : Vec Ideal S8x2048 .i32) :
    lhsRows (F := Ideal) x g = concatenate S8x16x2048 1
      (List.ofFn fun n : Fin 16 => (⟨S8x1x2048, shapeCast S8x1x2048 (rowL x g n) Facts₀.shapeCasts_S8x2048_S8x1x2048⟩ : (s : Shape) × (s.Idx → Ideal .bf16)))
      Facts₀.concatenates_S8x1x2048_S8x1x2048_S8x1x2048_S8x1x2048_S8x1x2048_S8x1x2048_S8x1x2048_S8x1x2048_S8x1x2048_S8x1x2048_S8x1x2048_S8x1x2048_S8x1x2048_S8x1x2048_S8x1x2048_S8x1x2048_S8x16x2048_d1 := by
  rfl

/-- A chunk's table is the batched product of the two stacked operands into the zero table. -/
theorem chunkTable_eq (x : Vec Ideal S8x2048 .f32) (g : Vec Ideal S8x2048 .i32) :
    chunkTable (F := Ideal) x g = matmul (F := Ideal) dot_S8x16x2048_S8x8x2048_S8x16x8_2_2_1_1_0_0 none (lhsRows (F := Ideal) x g) (rhsRows g)
      (constant (F := Ideal) S8x16x8 .f32 0x00000000#32) := by
  rfl

/-- Off the stacking axis, the index (b, 0, j) of a one-row piece has the coordinates of (b, m, j). -/
private theorem off_axisL (b : Fin 8) (m : Fin 16) (j : Fin 2048) :
    ∀ b' : Fin S8x1x2048.rank, b'.cast (rfl : S8x1x2048.rank = S8x16x2048.rank) ≠ (1 : Fin S8x16x2048.rank) →
      ((ix3 b (0 : Fin 1) j : S8x1x2048.Idx) b').val = ((ix3 b m j : S8x16x2048.Idx) (b'.cast rfl)).val := by
  intro b' hb
  match b' with
  | ⟨0, _⟩ => rfl
  | ⟨1, _⟩ => exact absurd rfl hb
  | ⟨2, _⟩ => rfl

private theorem off_axisR (b : Fin 8) (o : Fin 8) (j : Fin 2048) :
    ∀ b' : Fin S8x1x2048.rank, b'.cast (rfl : S8x1x2048.rank = S8x8x2048.rank) ≠ (1 : Fin S8x8x2048.rank) →
      ((ix3 b (0 : Fin 1) j : S8x1x2048.Idx) b').val = ((ix3 b o j : S8x8x2048.Idx) (b'.cast rfl)).val := by
  intro b' hb
  match b' with
  | ⟨0, _⟩ => rfl
  | ⟨1, _⟩ => exact absurd rfl hb
  | ⟨2, _⟩ => rfl

/-- A [8, 2048] row viewed as [8, 1, 2048], read at (b, 0, j), is the row at (b, j): the two positions are the same
    in row-major order. -/
private theorem cast_row_apply {α : Type} (v : S8x2048.Idx → α) (h : S8x2048.ShapeCasts S8x1x2048) (b : Fin 8) (j : Fin 2048) :
    shapeCast S8x1x2048 v h (ix3 b (0 : Fin 1) j) = v (ix2 b j) := by
  refine shapeCast_apply v h (ix3 b (0 : Fin 1) j) (ix2 b j) ?_
  rw [Shape.rowMajor_val_two, Shape.rowMajor_val_three]
  show b.val * 2048 + j.val = (b.val * 1 + 0) * 2048 + j.val
  omega

/-- The 16-row operand at (b, m, j) is row m at (b, j). -/
theorem lhsRows_row (x : Vec Ideal S8x2048 .f32) (g : Vec Ideal S8x2048 .i32) (b : Fin 8) (m : Fin 16) (j : Fin 2048) :
    lhsRows (F := Ideal) x g (ix3 b m j) = rowL x g m (ix2 b j) := by
  rw [lhsRows_eq]
  refine (concatenate_ofFn_unit_apply (1 : Fin S8x16x2048.rank)
    (fun n : Fin 16 => shapeCast S8x1x2048 (rowL x g n) Facts₀.shapeCasts_S8x2048_S8x1x2048) _ rfl rfl (ix3 b m j) m rfl
    (ix3 b (0 : Fin 1) j) (off_axisL b m j)).trans ?_
  exact cast_row_apply _ _ b j

/-- The 8-row operand at (b, o, j) is row o at (b, j). -/
theorem rhsRows_row (g : Vec Ideal S8x2048 .i32) (b : Fin 8) (o : Fin 8) (j : Fin 2048) :
    rhsRows g (ix3 b o j) = rowR g o (ix2 b j) := by
  unfold rhsRows
  refine (concatenate_ofFn_unit_apply (1 : Fin S8x8x2048.rank)
    (fun n : Fin 8 => shapeCast S8x1x2048 (rowR g n) Facts₀.shapeCasts_S8x2048_S8x1x2048) _ rfl rfl (ix3 b o j) o rfl
    (ix3 b (0 : Fin 1) j) (off_axisR b o j)).trans ?_
  exact cast_row_apply _ _ b j

/-- Entry (b, m, o) of a chunk's table: over the chunk's 2048 positions, row m's entry times the indicator of low
    bits o. -/
theorem chunkTable_apply (x : Vec Ideal S8x2048 .f32) (g : Vec Ideal S8x2048 .i32) (b : Fin 8) (mm : Fin 16) (o : Fin 8) :
    chunkTable (F := Ideal) x g (ix3 b mm o) = ∑ j : Fin 2048, Cert.Hsl.term mm o (x (ix2 b j)) (g (ix2 b j)) := by
  rw [chunkTable_eq]
  refine (batched_prod_apply (lhsRows (F := Ideal) x g) (rhsRows g) b mm o).trans ?_
  refine Finset.sum_congr rfl fun j _ => ?_
  rw [lhsRows_row, rhsRows_row, rowL_apply, rowR_apply]
  rfl

end Cert.KernelIdeal.Hist

end
-- ==== Proof.TripValue.lean ====
/-
  What the counted loop leaves in the two accumulators.

  Each trip reads one chunk of the tile (2048 columns of the two input blocks), forms the chunk's 16 × 8 table, and
  adds rows 0..7 of it into the first accumulator and rows 8..15 into the second, each through one store that covers
  the whole accumulator. So after k trips an accumulator holds what it held at loop entry plus the rows of the first
  k chunk tables, entry by entry.
-/
import proofs.«411778_j1022202216838_3_alg».proof.Proof.ChunkTable
import proofs.«411778_j1022202216838_3_alg».proof.Proof.Gen.KernelIdeal.Loops
import Idealize.ShloMosaic.Lib.ValueIdx
import Idealize.ShloMosaic.Lib.Pipeline.Value
import Idealize.ShloMosaic.PureOps.Ideal

set_option maxRecDepth 16384
set_option maxHeartbeats 4000000

noncomputable section

namespace Cert.KernelIdeal.Hist

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx Cert.KernelIdeal Cert.KernelIdeal.Gen

variable {F : FTy → Type} [FloatOps F]

/-- The zero offsets of a whole accumulator, spelt as a constant function. -/
theorem accOff_zero : (![0, 0, 0] : Fin S8x8x8.rank → Nat) = fun _ => 0 := by
  funext a; fin_cases a <;> rfl

/-- The loop makes 32 trips. -/
theorem trips_eq : k0_t1_loop.trips = 32 := by decide

/-- After a list of stores whose last one covers the whole buffer, the buffer reads that store's value. -/
theorem read_writes_cons_whole {Val : EltTy → Type} {sg : RefSig} {κ : Kind} {sp : Space} {S : Shape} {e : EltTy}
    (v : View sg κ sp S e) (f : v.ty.Contents Val) {off : Fin S.rank → Nat} (h : off = fun _ => 0)
    (inb : ∀ a, off a + S.size a ≤ S.size a) (w : S.Idx → Val e) (L : List (View.Piece Val S e)) (y : S.Idx) :
    v.read Val (v.writes Val f ((⟨Rect.unit off S.size inb, w⟩ : View.Piece Val S e) :: L)) y = w y := by
  subst h
  have e := View.read_writes_cons_emb v f (Rect.whole S) w L y
  rw [Rect.emb_whole_apply] at e
  exact e

/-- What trip k loads of an input block: its 2048 columns from column 2048·k on. -/
def tripLoad {e : EltTy} (a : Memref sig .tc .vmem S8x65536 e) (X : BufTy.Contents (Elt F) a.view.ty)
    (k : Fin k0_t1_loop.trips) : Vec F S8x2048 e :=
  View.readAt (Elt F) a.view (Rect.unit (s := S8x65536) (k0_off1 k) S8x2048.size (k0_off1_inb k)).toLoadRect X

/-- A trip's store into the first accumulator: one store over the whole of it, of what it held plus rows 0..7 of
    the trip's chunk table. -/
theorem trip_fst (𝒱 : Variants) (c : Dev nD) (bd : Option 𝒱.V) (i : grid0.Coords) (arg2 : Memref sig .tc .vmem S8x65536 .f32) (harg2 : arg2.IsWhole) (arg3 : Memref sig .tc .vmem S8x65536 .i32) (harg3 : arg3.IsWhole) (arg4 : Memref sig .tc .vmem S8x16x128 .f32) (harg4 : arg4.IsWhole) (arg5 : Memref sig .tc .vmem S8x8x8 .f32) (harg5 : arg5.IsWhole) (arg6 : Memref sig .tc .vmem S8x8x8 .f32) (harg6 : arg6.IsWhole) (X2 : BufTy.Contents (Elt F) arg2.view.ty) (X3 : BufTy.Contents (Elt F) arg3.view.ty) (k : Fin k0_t1_loop.trips)
    (f5 : BufTy.Contents (Elt F) arg5.view.ty) (f6 : BufTy.Contents (Elt F) arg6.view.ty) :
    (trip_k0_t1 (F := F) 𝒱 c bd i arg2 harg2 arg3 harg3 arg4 harg4 arg5 harg5 arg6 harg6 X2 X3 k).1 f5 f6
      = [(⟨Rect.unit (s := S8x8x8) ![0, 0, 0] S8x8x8.size inb_S8x8x8_S8x8x8_0_0_0,
          shapeCast S8x8x8 (addf (View.readAt (Elt F) arg5.view (Rect.unit (s := S8x8x8) ![0, 0, 0] S8x8x8.size inb_S8x8x8_S8x8x8_0_0_0).toLoadRect f5)
            (extractStridedSlice S8x8x8 ![0, 0, 0] (chunkTable (tripLoad arg2 X2 k) (tripLoad arg3 X3 k)) Facts₀.slices_S8x16x8_o0_0_0_S8x8x8))
            Facts₀.shapeCasts_S8x8x8_S8x8x8⟩ : View.Piece (Elt F) S8x8x8 .f32)] := by
  unfold trip_k0_t1
  dsimp only
  sl_unfold_words
  rfl

/-- A trip's store into the second accumulator: what it held plus rows 8..15 of the trip's chunk table. -/
theorem trip_snd (𝒱 : Variants) (c : Dev nD) (bd : Option 𝒱.V) (i : grid0.Coords) (arg2 : Memref sig .tc .vmem S8x65536 .f32) (harg2 : arg2.IsWhole) (arg3 : Memref sig .tc .vmem S8x65536 .i32) (harg3 : arg3.IsWhole) (arg4 : Memref sig .tc .vmem S8x16x128 .f32) (harg4 : arg4.IsWhole) (arg5 : Memref sig .tc .vmem S8x8x8 .f32) (harg5 : arg5.IsWhole) (arg6 : Memref sig .tc .vmem S8x8x8 .f32) (harg6 : arg6.IsWhole) (X2 : BufTy.Contents (Elt F) arg2.view.ty) (X3 : BufTy.Contents (Elt F) arg3.view.ty) (k : Fin k0_t1_loop.trips)
    (f5 : BufTy.Contents (Elt F) arg5.view.ty) (f6 : BufTy.Contents (Elt F) arg6.view.ty) :
    (trip_k0_t1 (F := F) 𝒱 c bd i arg2 harg2 arg3 harg3 arg4 harg4 arg5 harg5 arg6 harg6 X2 X3 k).2.1 f5 f6
      = [(⟨Rect.unit (s := S8x8x8) ![0, 0, 0] S8x8x8.size inb_S8x8x8_S8x8x8_0_0_0,
          shapeCast S8x8x8 (addf (View.readAt (Elt F) arg6.view (Rect.unit (s := S8x8x8) ![0, 0, 0] S8x8x8.size inb_S8x8x8_S8x8x8_0_0_0).toLoadRect f6)
            (extractStridedSlice S8x8x8 ![0, 8, 0] (chunkTable (tripLoad arg2 X2 k) (tripLoad arg3 X3 k)) Facts₀.slices_S8x16x8_o0_8_0_S8x8x8))
            Facts₀.shapeCasts_S8x8x8_S8x8x8⟩ : View.Piece (Elt F) S8x8x8 .f32)] := by
  unfold trip_k0_t1
  dsimp only
  sl_unfold_words
  rfl

/-- Trip j's chunk table — and nothing past the last trip, so that the tables of the first k trips can be summed over
    a range of naturals. -/
def tripTable (a2 : Memref sig .tc .vmem S8x65536 .f32) (a3 : Memref sig .tc .vmem S8x65536 .i32)
    (X2 : BufTy.Contents (Elt Ideal) a2.view.ty) (X3 : BufTy.Contents (Elt Ideal) a3.view.ty) (j : ℕ) : S8x16x8.Idx → EReal :=
  if hj : j < k0_t1_loop.trips then chunkTable (F := Ideal) (tripLoad a2 X2 ⟨j, hj⟩) (tripLoad a3 X3 ⟨j, hj⟩) else fun _ => 0

/-- THE FIRST ACCUMULATOR AFTER k TRIPS, entry by entry: what it held at loop entry plus entry (b, h, o) of each of the
    first k chunk tables. By induction on k: trip k's one store covers the accumulator, and its value is what the
    accumulator read before plus the trip's rows. -/
theorem acc0_after_trips (𝒱 : Variants) (c : Dev nD) (bd : Option 𝒱.V) (i : grid0.Coords) (arg2 : Memref sig .tc .vmem S8x65536 .f32) (harg2 : arg2.IsWhole) (arg3 : Memref sig .tc .vmem S8x65536 .i32) (harg3 : arg3.IsWhole) (arg4 : Memref sig .tc .vmem S8x16x128 .f32) (harg4 : arg4.IsWhole) (arg5 : Memref sig .tc .vmem S8x8x8 .f32) (harg5 : arg5.IsWhole) (arg6 : Memref sig .tc .vmem S8x8x8 .f32) (harg6 : arg6.IsWhole) (X2 : BufTy.Contents (Elt Ideal) arg2.view.ty) (X3 : BufTy.Contents (Elt Ideal) arg3.view.ty) (G5 : BufTy.Contents (Elt Ideal) arg5.view.ty) (G6 : BufTy.Contents (Elt Ideal) arg6.view.ty)
    (v0 : Vec Ideal S8x8x8 .f32) (hv : arg5.view.read (Elt Ideal) G5 = v0) (b h o : Fin 8) :
    ∀ k : ℕ, k ≤ k0_t1_loop.trips →
      arg5.view.read (Elt Ideal) (arg5.view.writes (Elt Ideal) G5 (pb_k0_t1 (F := Ideal) 𝒱 c bd i arg2 harg2 arg3 harg3 arg4 harg4 arg5 harg5 arg6 harg6 X2 X3 G5 G6 k).1) (ix3 b h o)
        = v0 (ix3 b h o) + ∑ j ∈ Finset.range k, tripTable arg2 arg3 X2 X3 j (ix3 b (⟨h.val, Nat.lt_of_lt_of_le h.isLt (by decide)⟩ : Fin 16) o)
  | 0, _ => by
    show arg5.view.read (Elt Ideal) G5 (ix3 b h o) = _
    rw [hv, Finset.range_zero, Finset.sum_empty, add_zero]
  | k + 1, hk => by
    have hk' : k < k0_t1_loop.trips := hk
    have ih := acc0_after_trips 𝒱 c bd i arg2 harg2 arg3 harg3 arg4 harg4 arg5 harg5 arg6 harg6 X2 X3 G5 G6 v0 hv b h o k (Nat.le_of_lt hk')
    have e : pb_k0_t1 (F := Ideal) 𝒱 c bd i arg2 harg2 arg3 harg3 arg4 harg4 arg5 harg5 arg6 harg6 X2 X3 G5 G6 (k + 1) = _ :=
      pb_k0_t1_succ (F := Ideal) 𝒱 c bd i arg2 harg2 arg3 harg3 arg4 harg4 arg5 harg5 arg6 harg6 X2 X3 G5 G6 ⟨k, hk'⟩
    rw [e]
    dsimp only
    rw [trip_fst, List.singleton_append, read_writes_cons_whole _ _ accOff_zero]
    refine (congrFun (shapeCast_self _ _) (ix3 b h o)).trans ?_
    rw [addf_apply, View.readAt_eq_ld, View.ld_unit_zero accOff_zero, ih, Finset.sum_range_succ, add_assoc]
    congr 2
    refine (extractStridedSlice_apply ![0, 0, 0] _ Facts₀.slices_S8x16x8_o0_0_0_S8x8x8 (ix3 b h o)
      (ix3 b (⟨h.val, Nat.lt_of_lt_of_le h.isLt (by decide)⟩ : Fin 16) o) (fun a => by fin_cases a <;> simp)).trans ?_
    unfold tripTable
    rw [dif_pos hk']

/-- THE SECOND ACCUMULATOR AFTER k TRIPS: what it held at loop entry plus entry (b, 8 + h, o) of each of the first k
    chunk tables. -/
theorem acc1_after_trips (𝒱 : Variants) (c : Dev nD) (bd : Option 𝒱.V) (i : grid0.Coords) (arg2 : Memref sig .tc .vmem S8x65536 .f32) (harg2 : arg2.IsWhole) (arg3 : Memref sig .tc .vmem S8x65536 .i32) (harg3 : arg3.IsWhole) (arg4 : Memref sig .tc .vmem S8x16x128 .f32) (harg4 : arg4.IsWhole) (arg5 : Memref sig .tc .vmem S8x8x8 .f32) (harg5 : arg5.IsWhole) (arg6 : Memref sig .tc .vmem S8x8x8 .f32) (harg6 : arg6.IsWhole) (X2 : BufTy.Contents (Elt Ideal) arg2.view.ty) (X3 : BufTy.Contents (Elt Ideal) arg3.view.ty) (G5 : BufTy.Contents (Elt Ideal) arg5.view.ty) (G6 : BufTy.Contents (Elt Ideal) arg6.view.ty)
    (v0 : Vec Ideal S8x8x8 .f32) (hv : arg6.view.read (Elt Ideal) G6 = v0) (b h o : Fin 8) :
    ∀ k : ℕ, k ≤ k0_t1_loop.trips →
      arg6.view.read (Elt Ideal) (arg6.view.writes (Elt Ideal) G6 (pb_k0_t1 (F := Ideal) 𝒱 c bd i arg2 harg2 arg3 harg3 arg4 harg4 arg5 harg5 arg6 harg6 X2 X3 G5 G6 k).2) (ix3 b h o)
        = v0 (ix3 b h o) + ∑ j ∈ Finset.range k, tripTable arg2 arg3 X2 X3 j (ix3 b (⟨8 + h.val, Nat.add_lt_add_left h.isLt 8⟩ : Fin 16) o)
  | 0, _ => by
    show arg6.view.read (Elt Ideal) G6 (ix3 b h o) = _
    rw [hv, Finset.range_zero, Finset.sum_empty, add_zero]
  | k + 1, hk => by
    have hk' : k < k0_t1_loop.trips := hk
    have ih := acc1_after_trips 𝒱 c bd i arg2 harg2 arg3 harg3 arg4 harg4 arg5 harg5 arg6 harg6 X2 X3 G5 G6 v0 hv b h o k (Nat.le_of_lt hk')
    have e : pb_k0_t1 (F := Ideal) 𝒱 c bd i arg2 harg2 arg3 harg3 arg4 harg4 arg5 harg5 arg6 harg6 X2 X3 G5 G6 (k + 1) = _ :=
      pb_k0_t1_succ (F := Ideal) 𝒱 c bd i arg2 harg2 arg3 harg3 arg4 harg4 arg5 harg5 arg6 harg6 X2 X3 G5 G6 ⟨k, hk'⟩
    rw [e]
    dsimp only
    rw [trip_snd, List.singleton_append, read_writes_cons_whole _ _ accOff_zero]
    refine (congrFun (shapeCast_self _ _) (ix3 b h o)).trans ?_
    rw [addf_apply, View.readAt_eq_ld, View.ld_unit_zero accOff_zero, ih, Finset.sum_range_succ, add_assoc]
    congr 2
    refine (extractStridedSlice_apply ![0, 8, 0] _ Facts₀.slices_S8x16x8_o0_8_0_S8x8x8 (ix3 b h o)
      (ix3 b (⟨8 + h.val, Nat.add_lt_add_left h.isLt 8⟩ : Fin 16) o) (fun a => by fin_cases a <;> simp)).trans ?_
    unfold tripTable
    rw [dif_pos hk']

/-- What a trip loads of a whole input block is that block's chunk. -/
theorem tripLoad_unread {e : EltTy} (a : Memref sig .tc .vmem S8x65536 e) (ha : a.IsWhole) (x : Vec F S8x65536 e)
    (k : Fin k0_t1_loop.trips) : tripLoad a (ha.unread x) k = chunkOf x (Fin.cast trips_eq k) := by
  unfold tripLoad
  rw [View.readAt_eq_ld, ha.read_unread]
  funext y
  unfold chunkOf
  show x _ = x _
  refine congrArg x (funext fun d => Fin.ext ?_)
  have h0 : (k0_off1 k) 0 = 0 := by rw [k0_off1_eq k]; rfl
  have h1 : (k0_off1 k) 1 = 2048 * k.val := by rw [k0_off1_eq k]; rfl
  fin_cases d
  · show (k0_off1 k) 0 + 1 * (y 0).val = (y 0).val
    omega
  · show (k0_off1 k) 1 + 1 * (y 1).val = k.val * 2048 + (y 1).val
    omega

/-- All 32 trips' tables, over whole input blocks, add up to the tile's table. -/
theorem sum_tripTable (a2 : Memref sig .tc .vmem S8x65536 .f32) (h2 : a2.IsWhole) (a3 : Memref sig .tc .vmem S8x65536 .i32)
    (h3 : a3.IsWhole) (x0 : Vec Ideal S8x65536 .f32) (x1 : Vec Ideal S8x65536 .i32) (y : S8x16x8.Idx) :
    ∑ j ∈ Finset.range k0_t1_loop.trips, tripTable a2 a3 (h2.unread x0) (h3.unread x1) j y = tileTable x0 x1 y := by
  unfold tileTable
  rw [trips_eq, Finset.sum_range]
  refine Finset.sum_congr rfl fun j _ => ?_
  unfold tripTable
  rw [dif_pos (by rw [trips_eq]; exact j.isLt), tripLoad_unread, tripLoad_unread]
  rfl

end Cert.KernelIdeal.Hist

end
-- ==== Proof.OutBlock.lean ====
/-
  The stored output block, entry by entry.

  The block is two [8, 8, 128] halves laid one after the other along the middle axis; each half is an [8, 8, 8]
  table followed, along the last axis, by 120 zeros. So the entry at (b, m, l) is 0 for l from 8 on, and for l
  below 8 it is the first table's entry (b, m, l) when m is below 8 and the second table's entry (b, m − 8, l)
  otherwise.
-/
import proofs.«411778_j1022202216838_3_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelIdeal.Hist

open Idealize.ShloMosaic Idealize.ShloMosaic.ValueIdx Cert.KernelIdeal Cert.KernelIdeal.Gen

/-- One half of the block: a table followed by zeros along the last axis. -/
private theorem half_apply (v : Vec Ideal S8x8x8 .f32) (b : Fin 8) (m : Fin 8) (l : Fin 128) :
    concatenate S8x8x128 2 [⟨S8x8x8, v⟩, ⟨S8x8x120, broadcast S8x8x120 (Scalar.ofBits (F := Ideal) .f32 0x00000000#32)⟩]
        concatenates_S8x8x8_S8x8x120_S8x8x128_d2 (ix3 b m l)
      = if hl : l.val < 8 then v (ix3 b m (⟨l.val, hl⟩ : Fin 8)) else 0 := by
  by_cases hl : l.val < 8
  · rw [dif_pos hl]
    exact concatenate_pair_apply_left (t := S8x8x128) (s₁ := S8x8x8) (s₂ := S8x8x120) (2 : Fin 3) _ _ _ (ix3 b m l) rfl (ix3 b m (⟨l.val, hl⟩ : Fin 8))
      (fun d => match d with | ⟨0, _⟩ => rfl | ⟨1, _⟩ => rfl | ⟨2, _⟩ => rfl)
  · rw [dif_neg hl]
    have hl' : l.val - 8 < 120 := by have := l.isLt; omega
    refine (concatenate_pair_apply_right (t := S8x8x128) (s₁ := S8x8x8) (s₂ := S8x8x120) (2 : Fin 3) _ _ _ (ix3 b m l) rfl rfl (ix3 b m (⟨l.val - 8, hl'⟩ : Fin 120))
      (fun d => match d with
        | ⟨0, _⟩ => fun _ => rfl
        | ⟨1, _⟩ => fun _ => rfl
        | ⟨2, _⟩ => fun hne => absurd rfl hne)
      (by show l.val - 8 + 8 = l.val; omega)).trans ?_
    exact Ideal.ofBits_zero_f32

theorem pay6_apply (v8 v10 : Vec Ideal S8x8x8 .f32) (b : Fin 8) (mm : Fin 16) (l : Fin 128) :
    k0_pay6 (F := Ideal) v8 v10 (ix3 b mm l)
      = if hl : l.val < 8 then (if hm : mm.val < 8 then v8 (ix3 b (⟨mm.val, hm⟩ : Fin 8) (⟨l.val, hl⟩ : Fin 8)) else v10 (ix3 b (⟨mm.val - 8, by omega⟩ : Fin 8) (⟨l.val, hl⟩ : Fin 8))) else 0 := by
  unfold k0_pay6
  by_cases hm : mm.val < 8
  · -- the first half, at the same coordinates
    refine (concatenate_pair_apply_left (t := S8x16x128) (s₁ := S8x8x128) (s₂ := S8x8x128) (1 : Fin 3) _ _ _ (ix3 b mm l) rfl (ix3 b (⟨mm.val, hm⟩ : Fin 8) l)
      (fun d => match d with | ⟨0, _⟩ => rfl | ⟨1, _⟩ => rfl | ⟨2, _⟩ => rfl)).trans ?_
    rw [half_apply]
    by_cases hl : l.val < 8
    · rw [dif_pos hl, dif_pos hl, dif_pos hm]
    · rw [dif_neg hl, dif_neg hl]
  · -- the second half, eight rows up
    have hm' : mm.val - 8 < 8 := by have := mm.isLt; omega
    refine (concatenate_pair_apply_right (t := S8x16x128) (s₁ := S8x8x128) (s₂ := S8x8x128) (1 : Fin 3) _ _ _ (ix3 b mm l) rfl rfl (ix3 b (⟨mm.val - 8, hm'⟩ : Fin 8) l)
      (fun d => match d with
        | ⟨0, _⟩ => fun _ => rfl
        | ⟨1, _⟩ => fun hne => absurd rfl hne
        | ⟨2, _⟩ => fun _ => rfl)
      (by show mm.val - 8 + 8 = mm.val; omega)).trans ?_
    rw [half_apply]
    by_cases hl : l.val < 8
    · rw [dif_pos hl, dif_pos hl, dif_neg hm]
    · rw [dif_neg hl, dif_neg hl]

end Cert.KernelIdeal.Hist

end
-- ==== Proof.PointValue.lean ====
/-
  What each control case of the body leaves behind, entry by entry, as a function of the point's two input blocks and
  of what the accumulators held before.

  At the first tile of a batch half the accumulators are zeroed and the 32 chunk tables added: they end holding the
  tile's table, rows 0..7 in the first and rows 8..15 in the second. At the other tiles nothing is zeroed: they end
  holding what they held plus the tile's table. At the last tile the output block is stored as well: its rows 0..7
  are the first accumulator, rows 8..15 the second, in lanes 0..7, and lanes 8..127 are zero.
-/
import proofs.«411778_j1022202216838_3_alg».proof.Proof.TripValue
import proofs.«411778_j1022202216838_3_alg».proof.Proof.OutBlock
import proofs.«411778_j1022202216838_3_alg».proof.Proof.Gen.KernelIdeal.Frame
import Idealize.ShloMosaic.Lib.ValueIdx
import Idealize.ShloMosaic.Lib.Pipeline.Value
import Idealize.ShloMosaic.PureOps.Ideal
import Idealize.ShloMosaic.PureOps.Ideal.Laws

set_option maxRecDepth 16384
set_option maxHeartbeats 4000000

noncomputable section

namespace Cert.KernelIdeal.Hist

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx Cert.KernelIdeal Cert.KernelIdeal.Gen

variable {F : FTy → Type} [FloatOps F]

/-! ## The stores of each case -/

/-- First tile, first accumulator: the loop's stores, after the store of zeros. -/
theorem runA_fst (c : Dev nD) (i : grid0.Coords) (arg2 : Memref sig .tc .vmem S8x65536 .f32) (harg2 : arg2.IsWhole) (arg3 : Memref sig .tc .vmem S8x65536 .i32) (harg3 : arg3.IsWhole) (arg4 : Memref sig .tc .vmem S8x16x128 .f32) (harg4 : arg4.IsWhole) (arg5 : Memref sig .tc .vmem S8x8x8 .f32) (harg5 : arg5.IsWhole) (arg6 : Memref sig .tc .vmem S8x8x8 .f32) (harg6 : arg6.IsWhole) (hc0 : cond0_0 i) (hc1 : ¬cond0_1 i) (x0 : Vec F S8x65536 .f32) (x1 : Vec F S8x65536 .i32) :
    (kernelRun0_A (F := F) c i arg2 harg2 arg3 harg3 arg4 harg4 arg5 harg5 arg6 harg6 hc0 hc1 x0 x1).2.1 = (pb_k0_t1 (F := F) Variants.none c none i arg2 harg2 arg3 harg3 arg4 harg4 arg5 harg5 arg6 harg6 (harg2.unread x0) (harg3.unread x1) (arg5.view.writes (Elt F) arg5.view.junk [(⟨Rect.unit (s := S8x8x8) ![0, 0, 0] S8x8x8.size inb_S8x8x8_S8x8x8_0_0_0, k0_pay1⟩ : View.Piece (Elt F) S8x8x8 .f32)]) (arg6.view.writes (Elt F) arg6.view.junk [(⟨Rect.unit (s := S8x8x8) ![0, 0, 0] S8x8x8.size inb_S8x8x8_S8x8x8_0_0_0, k0_pay2⟩ : View.Piece (Elt F) S8x8x8 .f32)]) k0_t1_loop.trips).1 ++ [(⟨Rect.unit (s := S8x8x8) ![0, 0, 0] S8x8x8.size inb_S8x8x8_S8x8x8_0_0_0, k0_pay1⟩ : View.Piece (Elt F) S8x8x8 .f32)] := by
  unfold kernelRun0_A
  rfl

/-- First tile, second accumulator. -/
theorem runA_snd (c : Dev nD) (i : grid0.Coords) (arg2 : Memref sig .tc .vmem S8x65536 .f32) (harg2 : arg2.IsWhole) (arg3 : Memref sig .tc .vmem S8x65536 .i32) (harg3 : arg3.IsWhole) (arg4 : Memref sig .tc .vmem S8x16x128 .f32) (harg4 : arg4.IsWhole) (arg5 : Memref sig .tc .vmem S8x8x8 .f32) (harg5 : arg5.IsWhole) (arg6 : Memref sig .tc .vmem S8x8x8 .f32) (harg6 : arg6.IsWhole) (hc0 : cond0_0 i) (hc1 : ¬cond0_1 i) (x0 : Vec F S8x65536 .f32) (x1 : Vec F S8x65536 .i32) :
    (kernelRun0_A (F := F) c i arg2 harg2 arg3 harg3 arg4 harg4 arg5 harg5 arg6 harg6 hc0 hc1 x0 x1).2.2.1 = (pb_k0_t1 (F := F) Variants.none c none i arg2 harg2 arg3 harg3 arg4 harg4 arg5 harg5 arg6 harg6 (harg2.unread x0) (harg3.unread x1) (arg5.view.writes (Elt F) arg5.view.junk [(⟨Rect.unit (s := S8x8x8) ![0, 0, 0] S8x8x8.size inb_S8x8x8_S8x8x8_0_0_0, k0_pay1⟩ : View.Piece (Elt F) S8x8x8 .f32)]) (arg6.view.writes (Elt F) arg6.view.junk [(⟨Rect.unit (s := S8x8x8) ![0, 0, 0] S8x8x8.size inb_S8x8x8_S8x8x8_0_0_0, k0_pay2⟩ : View.Piece (Elt F) S8x8x8 .f32)]) k0_t1_loop.trips).2 ++ [(⟨Rect.unit (s := S8x8x8) ![0, 0, 0] S8x8x8.size inb_S8x8x8_S8x8x8_0_0_0, k0_pay2⟩ : View.Piece (Elt F) S8x8x8 .f32)] := by
  unfold kernelRun0_A
  rfl

/-- A middle tile: the loop's stores over what the accumulators held. -/
theorem runB_fst (c : Dev nD) (i : grid0.Coords) (arg2 : Memref sig .tc .vmem S8x65536 .f32) (harg2 : arg2.IsWhole) (arg3 : Memref sig .tc .vmem S8x65536 .i32) (harg3 : arg3.IsWhole) (arg4 : Memref sig .tc .vmem S8x16x128 .f32) (harg4 : arg4.IsWhole) (arg5 : Memref sig .tc .vmem S8x8x8 .f32) (harg5 : arg5.IsWhole) (arg6 : Memref sig .tc .vmem S8x8x8 .f32) (harg6 : arg6.IsWhole) (hc0 : ¬cond0_0 i) (hc1 : ¬cond0_1 i) (x0 : Vec F S8x65536 .f32) (x1 : Vec F S8x65536 .i32) (xs0 xs1 : Vec F S8x8x8 .f32) :
    (kernelRun0_B (F := F) c i arg2 harg2 arg3 harg3 arg4 harg4 arg5 harg5 arg6 harg6 hc0 hc1 x0 x1 xs0 xs1).2.1 = (pb_k0_t1 (F := F) Variants.none c none i arg2 harg2 arg3 harg3 arg4 harg4 arg5 harg5 arg6 harg6 (harg2.unread x0) (harg3.unread x1) (harg5.unread xs0) (harg6.unread xs1) k0_t1_loop.trips).1 := by
  unfold kernelRun0_B
  rfl

theorem runB_snd (c : Dev nD) (i : grid0.Coords) (arg2 : Memref sig .tc .vmem S8x65536 .f32) (harg2 : arg2.IsWhole) (arg3 : Memref sig .tc .vmem S8x65536 .i32) (harg3 : arg3.IsWhole) (arg4 : Memref sig .tc .vmem S8x16x128 .f32) (harg4 : arg4.IsWhole) (arg5 : Memref sig .tc .vmem S8x8x8 .f32) (harg5 : arg5.IsWhole) (arg6 : Memref sig .tc .vmem S8x8x8 .f32) (harg6 : arg6.IsWhole) (hc0 : ¬cond0_0 i) (hc1 : ¬cond0_1 i) (x0 : Vec F S8x65536 .f32) (x1 : Vec F S8x65536 .i32) (xs0 xs1 : Vec F S8x8x8 .f32) :
    (kernelRun0_B (F := F) c i arg2 harg2 arg3 harg3 arg4 harg4 arg5 harg5 arg6 harg6 hc0 hc1 x0 x1 xs0 xs1).2.2.1 = (pb_k0_t1 (F := F) Variants.none c none i arg2 harg2 arg3 harg3 arg4 harg4 arg5 harg5 arg6 harg6 (harg2.unread x0) (harg3.unread x1) (harg5.unread xs0) (harg6.unread xs1) k0_t1_loop.trips).2 := by
  unfold kernelRun0_B
  rfl

/-- The last tile: the same stores into the accumulators … -/
theorem runC_fst (c : Dev nD) (i : grid0.Coords) (arg2 : Memref sig .tc .vmem S8x65536 .f32) (harg2 : arg2.IsWhole) (arg3 : Memref sig .tc .vmem S8x65536 .i32) (harg3 : arg3.IsWhole) (arg4 : Memref sig .tc .vmem S8x16x128 .f32) (harg4 : arg4.IsWhole) (arg5 : Memref sig .tc .vmem S8x8x8 .f32) (harg5 : arg5.IsWhole) (arg6 : Memref sig .tc .vmem S8x8x8 .f32) (harg6 : arg6.IsWhole) (hc0 : ¬cond0_0 i) (hc1 : cond0_1 i) (x0 : Vec F S8x65536 .f32) (x1 : Vec F S8x65536 .i32) (xs0 xs1 : Vec F S8x8x8 .f32) :
    (kernelRun0_C (F := F) c i arg2 harg2 arg3 harg3 arg4 harg4 arg5 harg5 arg6 harg6 hc0 hc1 x0 x1 xs0 xs1).2.1 = (pb_k0_t1 (F := F) Variants.none c none i arg2 harg2 arg3 harg3 arg4 harg4 arg5 harg5 arg6 harg6 (harg2.unread x0) (harg3.unread x1) (harg5.unread xs0) (harg6.unread xs1) k0_t1_loop.trips).1 := by
  unfold kernelRun0_C
  rfl

theorem runC_snd (c : Dev nD) (i : grid0.Coords) (arg2 : Memref sig .tc .vmem S8x65536 .f32) (harg2 : arg2.IsWhole) (arg3 : Memref sig .tc .vmem S8x65536 .i32) (harg3 : arg3.IsWhole) (arg4 : Memref sig .tc .vmem S8x16x128 .f32) (harg4 : arg4.IsWhole) (arg5 : Memref sig .tc .vmem S8x8x8 .f32) (harg5 : arg5.IsWhole) (arg6 : Memref sig .tc .vmem S8x8x8 .f32) (harg6 : arg6.IsWhole) (hc0 : ¬cond0_0 i) (hc1 : cond0_1 i) (x0 : Vec F S8x65536 .f32) (x1 : Vec F S8x65536 .i32) (xs0 xs1 : Vec F S8x8x8 .f32) :
    (kernelRun0_C (F := F) c i arg2 harg2 arg3 harg3 arg4 harg4 arg5 harg5 arg6 harg6 hc0 hc1 x0 x1 xs0 xs1).2.2.1 = (pb_k0_t1 (F := F) Variants.none c none i arg2 harg2 arg3 harg3 arg4 harg4 arg5 harg5 arg6 harg6 (harg2.unread x0) (harg3.unread x1) (harg5.unread xs0) (harg6.unread xs1) k0_t1_loop.trips).2 := by
  unfold kernelRun0_C
  rfl

/-- … and one store over the whole output block, of the two accumulators as the loop left them, laid side by side
    with zeros. -/
theorem runC_out (c : Dev nD) (i : grid0.Coords) (arg2 : Memref sig .tc .vmem S8x65536 .f32) (harg2 : arg2.IsWhole) (arg3 : Memref sig .tc .vmem S8x65536 .i32) (harg3 : arg3.IsWhole) (arg4 : Memref sig .tc .vmem S8x16x128 .f32) (harg4 : arg4.IsWhole) (arg5 : Memref sig .tc .vmem S8x8x8 .f32) (harg5 : arg5.IsWhole) (arg6 : Memref sig .tc .vmem S8x8x8 .f32) (harg6 : arg6.IsWhole) (hc0 : ¬cond0_0 i) (hc1 : cond0_1 i) (x0 : Vec F S8x65536 .f32) (x1 : Vec F S8x65536 .i32) (xs0 xs1 : Vec F S8x8x8 .f32) :
    (kernelRun0_C (F := F) c i arg2 harg2 arg3 harg3 arg4 harg4 arg5 harg5 arg6 harg6 hc0 hc1 x0 x1 xs0 xs1).1
      = [(⟨Rect.unit (s := S8x16x128) ![0, 0, 0] S8x16x128.size inb_S8x16x128_S8x16x128_0_0_0,
          k0_pay6 (View.readAt (Elt F) arg5.view (Rect.unit (s := S8x8x8) ![0, 0, 0] S8x8x8.size inb_S8x8x8_S8x8x8_0_0_0).toLoadRect (arg5.view.writes (Elt F) (harg5.unread xs0) (pb_k0_t1 (F := F) Variants.none c none i arg2 harg2 arg3 harg3 arg4 harg4 arg5 harg5 arg6 harg6 (harg2.unread x0) (harg3.unread x1) (harg5.unread xs0) (harg6.unread xs1) k0_t1_loop.trips).1))
            (View.readAt (Elt F) arg6.view (Rect.unit (s := S8x8x8) ![0, 0, 0] S8x8x8.size inb_S8x8x8_S8x8x8_0_0_0).toLoadRect (arg6.view.writes (Elt F) (harg6.unread xs1) (pb_k0_t1 (F := F) Variants.none c none i arg2 harg2 arg3 harg3 arg4 harg4 arg5 harg5 arg6 harg6 (harg2.unread x0) (harg3.unread x1) (harg5.unread xs0) (harg6.unread xs1) k0_t1_loop.trips).2))⟩
          : View.Piece (Elt F) S8x16x128 .f32)] := by
  unfold kernelRun0_C
  rfl

/-! ## The zeros -/

theorem outOff_zero : (![0, 0, 0] : Fin S8x16x128.rank → Nat) = fun _ => 0 := by
  funext a; fin_cases a <;> rfl

/-- The value stored when an accumulator is reset is zero everywhere. -/
theorem pay1_apply (y : S8x8x8.Idx) : k0_pay1 (F := Ideal) y = 0 := by
  unfold k0_pay1
  refine (congrFun (shapeCast_self _ _) y).trans ?_
  exact Ideal.ofBits_zero_f32

theorem pay2_apply (y : S8x8x8.Idx) : k0_pay2 (F := Ideal) y = 0 := by
  unfold k0_pay2
  refine (congrFun (shapeCast_self _ _) y).trans ?_
  exact Ideal.ofBits_zero_f32

/-! ## The accumulators after each case -/

theorem sout0_A_0_apply (c : Dev nD) (i : grid0.Coords) (arg2 : Memref sig .tc .vmem S8x65536 .f32) (harg2 : arg2.IsWhole) (arg3 : Memref sig .tc .vmem S8x65536 .i32) (harg3 : arg3.IsWhole) (arg4 : Memref sig .tc .vmem S8x16x128 .f32) (harg4 : arg4.IsWhole) (arg5 : Memref sig .tc .vmem S8x8x8 .f32) (harg5 : arg5.IsWhole) (arg6 : Memref sig .tc .vmem S8x8x8 .f32) (harg6 : arg6.IsWhole) (hc0 : cond0_0 i) (hc1 : ¬cond0_1 i) (x0 : Vec Ideal S8x65536 .f32) (x1 : Vec Ideal S8x65536 .i32) (b h o : Fin 8) :
    sout0_A_0 (F := Ideal) c i arg2 harg2 arg3 harg3 arg4 harg4 arg5 harg5 arg6 harg6 hc0 hc1 x0 x1 (ix3 b h o) = tileTable x0 x1 (ix3 b (⟨h.val, Nat.lt_of_lt_of_le h.isLt (by decide)⟩ : Fin 16) o) := by
  unfold sout0_A_0
  rw [View.read_writes_apply_eq VS0_0 VS0_0.junk arg5.view arg5.view.junk (ix3 b h o) _
      (scover0_A_0 c i arg2 harg2 arg3 harg3 arg4 harg4 arg5 harg5 arg6 harg6 hc0 hc1 x0 x1 (ix3 b h o)),
    runA_fst, View.writes_append,
    acc0_after_trips Variants.none c none i arg2 harg2 arg3 harg3 arg4 harg4 arg5 harg5 arg6 harg6 (harg2.unread x0) (harg3.unread x1) _ _ (k0_pay1 (F := Ideal))
      (funext fun y => read_writes_cons_whole _ _ accOff_zero _ _ _ y) b h o k0_t1_loop.trips le_rfl,
    sum_tripTable, pay1_apply, zero_add]

theorem sout0_A_1_apply (c : Dev nD) (i : grid0.Coords) (arg2 : Memref sig .tc .vmem S8x65536 .f32) (harg2 : arg2.IsWhole) (arg3 : Memref sig .tc .vmem S8x65536 .i32) (harg3 : arg3.IsWhole) (arg4 : Memref sig .tc .vmem S8x16x128 .f32) (harg4 : arg4.IsWhole) (arg5 : Memref sig .tc .vmem S8x8x8 .f32) (harg5 : arg5.IsWhole) (arg6 : Memref sig .tc .vmem S8x8x8 .f32) (harg6 : arg6.IsWhole) (hc0 : cond0_0 i) (hc1 : ¬cond0_1 i) (x0 : Vec Ideal S8x65536 .f32) (x1 : Vec Ideal S8x65536 .i32) (b h o : Fin 8) :
    sout0_A_1 (F := Ideal) c i arg2 harg2 arg3 harg3 arg4 harg4 arg5 harg5 arg6 harg6 hc0 hc1 x0 x1 (ix3 b h o) = tileTable x0 x1 (ix3 b (⟨8 + h.val, Nat.add_lt_add_left h.isLt 8⟩ : Fin 16) o) := by
  unfold sout0_A_1
  rw [View.read_writes_apply_eq VS0_1 VS0_1.junk arg6.view arg6.view.junk (ix3 b h o) _
      (scover0_A_1 c i arg2 harg2 arg3 harg3 arg4 harg4 arg5 harg5 arg6 harg6 hc0 hc1 x0 x1 (ix3 b h o)),
    runA_snd, View.writes_append,
    acc1_after_trips Variants.none c none i arg2 harg2 arg3 harg3 arg4 harg4 arg5 harg5 arg6 harg6 (harg2.unread x0) (harg3.unread x1) _ _ (k0_pay2 (F := Ideal))
      (funext fun y => read_writes_cons_whole _ _ accOff_zero _ _ _ y) b h o k0_t1_loop.trips le_rfl,
    sum_tripTable, pay2_apply, zero_add]

theorem sout0_B_0_apply (c : Dev nD) (i : grid0.Coords) (arg2 : Memref sig .tc .vmem S8x65536 .f32) (harg2 : arg2.IsWhole) (arg3 : Memref sig .tc .vmem S8x65536 .i32) (harg3 : arg3.IsWhole) (arg4 : Memref sig .tc .vmem S8x16x128 .f32) (harg4 : arg4.IsWhole) (arg5 : Memref sig .tc .vmem S8x8x8 .f32) (harg5 : arg5.IsWhole) (arg6 : Memref sig .tc .vmem S8x8x8 .f32) (harg6 : arg6.IsWhole) (hc0 : ¬cond0_0 i) (hc1 : ¬cond0_1 i) (x0 : Vec Ideal S8x65536 .f32) (x1 : Vec Ideal S8x65536 .i32) (xs0 xs1 : Vec Ideal S8x8x8 .f32) (b h o : Fin 8) :
    sout0_B_0 (F := Ideal) c i arg2 harg2 arg3 harg3 arg4 harg4 arg5 harg5 arg6 harg6 hc0 hc1 x0 x1 xs0 xs1 (ix3 b h o)
      = xs0 (ix3 b h o) + tileTable x0 x1 (ix3 b (⟨h.val, Nat.lt_of_lt_of_le h.isLt (by decide)⟩ : Fin 16) o) := by
  unfold sout0_B_0
  rw [View.read_writes_apply_eq VS0_0 VS0_0.junk arg5.view (harg5.unread xs0) (ix3 b h o) _
      (scover0_B_0 c i arg2 harg2 arg3 harg3 arg4 harg4 arg5 harg5 arg6 harg6 hc0 hc1 x0 x1 xs0 xs1 (ix3 b h o)),
    runB_fst,
    acc0_after_trips Variants.none c none i arg2 harg2 arg3 harg3 arg4 harg4 arg5 harg5 arg6 harg6 (harg2.unread x0) (harg3.unread x1) (harg5.unread xs0) (harg6.unread xs1) xs0 (harg5.read_unread xs0) b h o k0_t1_loop.trips le_rfl,
    sum_tripTable]

theorem sout0_B_1_apply (c : Dev nD) (i : grid0.Coords) (arg2 : Memref sig .tc .vmem S8x65536 .f32) (harg2 : arg2.IsWhole) (arg3 : Memref sig .tc .vmem S8x65536 .i32) (harg3 : arg3.IsWhole) (arg4 : Memref sig .tc .vmem S8x16x128 .f32) (harg4 : arg4.IsWhole) (arg5 : Memref sig .tc .vmem S8x8x8 .f32) (harg5 : arg5.IsWhole) (arg6 : Memref sig .tc .vmem S8x8x8 .f32) (harg6 : arg6.IsWhole) (hc0 : ¬cond0_0 i) (hc1 : ¬cond0_1 i) (x0 : Vec Ideal S8x65536 .f32) (x1 : Vec Ideal S8x65536 .i32) (xs0 xs1 : Vec Ideal S8x8x8 .f32) (b h o : Fin 8) :
    sout0_B_1 (F := Ideal) c i arg2 harg2 arg3 harg3 arg4 harg4 arg5 harg5 arg6 harg6 hc0 hc1 x0 x1 xs0 xs1 (ix3 b h o)
      = xs1 (ix3 b h o) + tileTable x0 x1 (ix3 b (⟨8 + h.val, Nat.add_lt_add_left h.isLt 8⟩ : Fin 16) o) := by
  unfold sout0_B_1
  rw [View.read_writes_apply_eq VS0_1 VS0_1.junk arg6.view (harg6.unread xs1) (ix3 b h o) _
      (scover0_B_1 c i arg2 harg2 arg3 harg3 arg4 harg4 arg5 harg5 arg6 harg6 hc0 hc1 x0 x1 xs0 xs1 (ix3 b h o)),
    runB_snd,
    acc1_after_trips Variants.none c none i arg2 harg2 arg3 harg3 arg4 harg4 arg5 harg5 arg6 harg6 (harg2.unread x0) (harg3.unread x1) (harg5.unread xs0) (harg6.unread xs1) xs1 (harg6.read_unread xs1) b h o k0_t1_loop.trips le_rfl,
    sum_tripTable]

theorem sout0_C_0_apply (c : Dev nD) (i : grid0.Coords) (arg2 : Memref sig .tc .vmem S8x65536 .f32) (harg2 : arg2.IsWhole) (arg3 : Memref sig .tc .vmem S8x65536 .i32) (harg3 : arg3.IsWhole) (arg4 : Memref sig .tc .vmem S8x16x128 .f32) (harg4 : arg4.IsWhole) (arg5 : Memref sig .tc .vmem S8x8x8 .f32) (harg5 : arg5.IsWhole) (arg6 : Memref sig .tc .vmem S8x8x8 .f32) (harg6 : arg6.IsWhole) (hc0 : ¬cond0_0 i) (hc1 : cond0_1 i) (x0 : Vec Ideal S8x65536 .f32) (x1 : Vec Ideal S8x65536 .i32) (xs0 xs1 : Vec Ideal S8x8x8 .f32) (b h o : Fin 8) :
    sout0_C_0 (F := Ideal) c i arg2 harg2 arg3 harg3 arg4 harg4 arg5 harg5 arg6 harg6 hc0 hc1 x0 x1 xs0 xs1 (ix3 b h o)
      = xs0 (ix3 b h o) + tileTable x0 x1 (ix3 b (⟨h.val, Nat.lt_of_lt_of_le h.isLt (by decide)⟩ : Fin 16) o) := by
  unfold sout0_C_0
  rw [View.read_writes_apply_eq VS0_0 VS0_0.junk arg5.view (harg5.unread xs0) (ix3 b h o) _
      (scover0_C_0 c i arg2 harg2 arg3 harg3 arg4 harg4 arg5 harg5 arg6 harg6 hc0 hc1 x0 x1 xs0 xs1 (ix3 b h o)),
    runC_fst,
    acc0_after_trips Variants.none c none i arg2 harg2 arg3 harg3 arg4 harg4 arg5 harg5 arg6 harg6 (harg2.unread x0) (harg3.unread x1) (harg5.unread xs0) (harg6.unread xs1) xs0 (harg5.read_unread xs0) b h o k0_t1_loop.trips le_rfl,
    sum_tripTable]

theorem sout0_C_1_apply (c : Dev nD) (i : grid0.Coords) (arg2 : Memref sig .tc .vmem S8x65536 .f32) (harg2 : arg2.IsWhole) (arg3 : Memref sig .tc .vmem S8x65536 .i32) (harg3 : arg3.IsWhole) (arg4 : Memref sig .tc .vmem S8x16x128 .f32) (harg4 : arg4.IsWhole) (arg5 : Memref sig .tc .vmem S8x8x8 .f32) (harg5 : arg5.IsWhole) (arg6 : Memref sig .tc .vmem S8x8x8 .f32) (harg6 : arg6.IsWhole) (hc0 : ¬cond0_0 i) (hc1 : cond0_1 i) (x0 : Vec Ideal S8x65536 .f32) (x1 : Vec Ideal S8x65536 .i32) (xs0 xs1 : Vec Ideal S8x8x8 .f32) (b h o : Fin 8) :
    sout0_C_1 (F := Ideal) c i arg2 harg2 arg3 harg3 arg4 harg4 arg5 harg5 arg6 harg6 hc0 hc1 x0 x1 xs0 xs1 (ix3 b h o)
      = xs1 (ix3 b h o) + tileTable x0 x1 (ix3 b (⟨8 + h.val, Nat.add_lt_add_left h.isLt 8⟩ : Fin 16) o) := by
  unfold sout0_C_1
  rw [View.read_writes_apply_eq VS0_1 VS0_1.junk arg6.view (harg6.unread xs1) (ix3 b h o) _
      (scover0_C_1 c i arg2 harg2 arg3 harg3 arg4 harg4 arg5 harg5 arg6 harg6 hc0 hc1 x0 x1 xs0 xs1 (ix3 b h o)),
    runC_snd,
    acc1_after_trips Variants.none c none i arg2 harg2 arg3 harg3 arg4 harg4 arg5 harg5 arg6 harg6 (harg2.unread x0) (harg3.unread x1) (harg5.unread xs0) (harg6.unread xs1) xs1 (harg6.read_unread xs1) b h o k0_t1_loop.trips le_rfl,
    sum_tripTable]

/-! ## The output block after the last tile -/

theorem out0_C_2_apply (c : Dev nD) (i : grid0.Coords) (arg2 : Memref sig .tc .vmem S8x65536 .f32) (harg2 : arg2.IsWhole) (arg3 : Memref sig .tc .vmem S8x65536 .i32) (harg3 : arg3.IsWhole) (arg4 : Memref sig .tc .vmem S8x16x128 .f32) (harg4 : arg4.IsWhole) (arg5 : Memref sig .tc .vmem S8x8x8 .f32) (harg5 : arg5.IsWhole) (arg6 : Memref sig .tc .vmem S8x8x8 .f32) (harg6 : arg6.IsWhole) (hc0 : ¬cond0_0 i) (hc1 : cond0_1 i) (x0 : Vec Ideal S8x65536 .f32) (x1 : Vec Ideal S8x65536 .i32) (xs0 xs1 : Vec Ideal S8x8x8 .f32) (b : Fin 8) (mm : Fin 16) (l : Fin 128) :
    out0_C_2 (F := Ideal) c i arg2 harg2 arg3 harg3 arg4 harg4 arg5 harg5 arg6 harg6 hc0 hc1 x0 x1 xs0 xs1 (ix3 b mm l)
      = if hl : l.val < 8 then
          (if hm : mm.val < 8 then xs0 (ix3 b (⟨mm.val, hm⟩ : Fin 8) (⟨l.val, hl⟩ : Fin 8))
            else xs1 (ix3 b (⟨mm.val - 8, by have := mm.isLt; omega⟩ : Fin 8) (⟨l.val, hl⟩ : Fin 8)))
            + tileTable x0 x1 (ix3 b mm (⟨l.val, hl⟩ : Fin 8))
        else 0 := by
  unfold out0_C_2
  rw [runC_out, read_writes_cons_whole _ _ outOff_zero, pay6_apply]
  by_cases hl : l.val < 8
  · simp only [dif_pos hl]
    by_cases hm : mm.val < 8
    · simp only [dif_pos hm]
      rw [View.readAt_eq_ld, View.ld_unit_zero accOff_zero,
        acc0_after_trips Variants.none c none i arg2 harg2 arg3 harg3 arg4 harg4 arg5 harg5 arg6 harg6 (harg2.unread x0) (harg3.unread x1) (harg5.unread xs0) (harg6.unread xs1) xs0 (harg5.read_unread xs0)
          b (⟨mm.val, hm⟩ : Fin 8) (⟨l.val, hl⟩ : Fin 8) k0_t1_loop.trips le_rfl,
        sum_tripTable]
    · simp only [dif_neg hm]
      rw [View.readAt_eq_ld, View.ld_unit_zero accOff_zero,
        acc1_after_trips Variants.none c none i arg2 harg2 arg3 harg3 arg4 harg4 arg5 harg5 arg6 harg6 (harg2.unread x0) (harg3.unread x1) (harg5.unread xs0) (harg6.unread xs1) xs1 (harg6.read_unread xs1)
          b (⟨mm.val - 8, by have := mm.isLt; omega⟩ : Fin 8) (⟨l.val, hl⟩ : Fin 8) k0_t1_loop.trips le_rfl,
        sum_tripTable]
      have e : (⟨8 + (mm.val - 8), Nat.add_lt_add_left (by have := mm.isLt; omega : mm.val - 8 < 8) 8⟩ : Fin 16) = mm :=
        Fin.ext (by show 8 + (mm.val - 8) = mm.val; omega)
      rw [e]
  · simp only [dif_neg hl]

end Cert.KernelIdeal.Hist

end
-- ==== Proof.GridFold.lean ====
/-
  From grid points to batch rows and tiles.

  The pixels of the 16 batch rows are visited over a 2 × 16 grid: point number t works on the eight rows
  8·(t / 16) … 8·(t / 16) + 7 and on tile t % 16 of each of them, a run of 65536 consecutive pixels. The block a
  point receives is therefore the array at row 8·(t / 16) + b and column 65536·(t % 16) + p, and chunk k of the
  block is the array at the pixel numbered (tile, k, j) by the specification. Summing one chunk's table over the
  32 chunks gives the tile's contribution to the table of each of the point's eight rows.
-/
import proofs.«411778_j1022202216838_3_alg».proof.Proof.ChunkTable
import proofs.«411778_j1022202216838_3_alg».proof.Proof.Spec
import proofs.«411778_j1022202216838_3_alg».proof.Proof.Inputs
import proofs.«411778_j1022202216838_3_alg».proof.Proof.Gen.KernelIdeal.Frame
import proofs.«411778_j1022202216838_3_alg».proof.Proof.ChunkValue
import proofs.«411778_j1022202216838_3_alg».proof.Proof.PointValue
import Idealize.ShloMosaic.Lib.ValueIdx
import Idealize.ShloMosaic.Lib.Pipeline.Value

set_option maxRecDepth 16384

noncomputable section

namespace Cert.KernelIdeal.Hist

open Idealize.ShloMosaic Idealize.ShloMosaic.ValueIdx Cert.KernelIdeal Cert.KernelIdeal.Gen

variable (m : (ℓ : Loc nD τ sig) → Buf (Elt Ideal) ℓ)

/-- The float block of grid point t: eight rows by one tile. -/
abbrev xblk (c : Dev nD) (t : Fin cfg0.N) : Vec Ideal S8x65536 .f32 := iblk (F := Ideal) m c 0 t
/-- The label block of grid point t. -/
abbrev gblk (c : Dev nD) (t : Fin cfg0.N) : Vec Ideal S8x65536 .i32 := iblk (F := Ideal) m c 1 t

/-- Point t has grid coordinates (t / 16, t % 16), and both inputs are blocked at exactly those coordinates. -/
theorem block_index : ∀ t : Fin cfg0.N,
    win0_0.index t (0 : Fin 2) = t.val / 16 ∧ win0_0.index t (1 : Fin 2) = t.val % 16
    ∧ win0_1.index t (0 : Fin 2) = t.val / 16 ∧ win0_1.index t (1 : Fin 2) = t.val % 16 :=
  (by decide +kernel : ∀ t : Fin grid0.N, _)

/-- The batch row that row b of point t's block is. -/
def rowAt (t : Fin cfg0.N) (b : Fin 8) : Fin 16 :=
  ⟨8 * (t.val / 16) + b.val, by have := t.isLt; have : cfg0.N = 32 := N_0; omega⟩

/-- The pixel that column p of point t's block is. -/
def colAt (t : Fin cfg0.N) (p : Fin 65536) : Fin 1048576 :=
  ⟨65536 * (t.val % 16) + p.val, by have := p.isLt; omega⟩

/-- The float block read at (b, p) is the array at (row, pixel). -/
theorem xblk_apply (c : Dev nD) (t : Fin cfg0.N) (b : Fin 8) (p : Fin 65536) :
    xblk m c t (ix2 b p) = Xin m c (ix2 (rowAt t b) (colAt t p)) := by
  obtain ⟨e0, e1, -, -⟩ := block_index t
  show V (F := Ideal) m c main_v0 (((cfg0.win 0).blk t).view.emb (ix2 b p)) = V (F := Ideal) m c main_v0 (ix2 (rowAt t b) (colAt t p))
  refine congrArg _ ?_
  funext a; apply Fin.ext
  match a with
  | ⟨0, _⟩ => show win0_0.index t (0 : Fin 2) * 8 + 1 * b.val = 8 * (t.val / 16) + b.val; omega
  | ⟨1, _⟩ => show win0_0.index t (1 : Fin 2) * 65536 + 1 * p.val = 65536 * (t.val % 16) + p.val; omega

/-- The label block read at (b, p) is the array at (row, pixel). -/
theorem gblk_apply (c : Dev nD) (t : Fin cfg0.N) (b : Fin 8) (p : Fin 65536) :
    gblk m c t (ix2 b p) = Gin m c (ix2 (rowAt t b) (colAt t p)) := by
  obtain ⟨-, -, e0, e1⟩ := block_index t
  show V (F := Ideal) m c main_v1 (((cfg0.win 1).blk t).view.emb (ix2 b p)) = V (F := Ideal) m c main_v1 (ix2 (rowAt t b) (colAt t p))
  refine congrArg _ ?_
  funext a; apply Fin.ext
  match a with
  | ⟨0, _⟩ => show win0_1.index t (0 : Fin 2) * 8 + 1 * b.val = 8 * (t.val / 16) + b.val; omega
  | ⟨1, _⟩ => show win0_1.index t (1 : Fin 2) * 65536 + 1 * p.val = 65536 * (t.val % 16) + p.val; omega

/-- The tile that point t works on. -/
def tileAt (t : Fin cfg0.N) : Fin 16 := ⟨t.val % 16, Nat.mod_lt _ (by decide)⟩

/-- Chunk k of a block read at (b, j) is the block at column 2048·k + j. -/
theorem chunkOf_apply {e : EltTy} (x : Vec Ideal S8x65536 e) (k : Fin 32) (b : Fin 8) (j : Fin 2048) :
    chunkOf x k (ix2 b j) = x (ix2 b (⟨k.val * 2048 + j.val, by have := k.isLt; have := j.isLt; omega⟩ : Fin 65536)) := rfl

/-- Column 2048·k + j of point t's block is pixel (tile, k, j). -/
theorem colAt_chunk (t : Fin cfg0.N) (k : Fin 32) (j : Fin 2048) (hp : k.val * 2048 + j.val < 65536) :
    colAt t ⟨k.val * 2048 + j.val, hp⟩ = Cert.Hsl.pix (tileAt t) k j :=
  Fin.ext (by show 65536 * (t.val % 16) + (k.val * 2048 + j.val) = t.val % 16 * 65536 + k.val * 2048 + j.val; omega)

/-- The table of point t's tile, at row b of its block, is the tile's contribution to that batch row's table. -/
theorem tileTable_eq (c : Dev nD) (t : Fin cfg0.N) (b : Fin 8) (mm : Fin 16) (o : Fin 8) :
    tileTable (xblk m c t) (gblk m c t) (ix3 b mm o)
      = Cert.Hsl.tileSum (Xin m c) (Gin m c) (rowAt t b) (tileAt t) mm o := by
  show ∑ k : Fin 32, chunkTable (F := Ideal) (chunkOf (xblk m c t) k) (chunkOf (gblk m c t) k) (ix3 b mm o)
      = ∑ k : Fin 32, Cert.Hsl.chunkSum (Xin m c) (Gin m c) (rowAt t b) (tileAt t) k mm o
  refine Finset.sum_congr rfl fun k _ => ?_
  refine (chunkTable_apply (chunkOf (xblk m c t) k) (chunkOf (gblk m c t) k) b mm o).trans ?_
  show ∑ j : Fin 2048, Cert.Hsl.term mm o (chunkOf (xblk m c t) k (ix2 b j)) (chunkOf (gblk m c t) k (ix2 b j))
      = ∑ j : Fin 2048, Cert.Hsl.term mm o (Xin m c (ix2 (rowAt t b) (Cert.Hsl.pix (tileAt t) k j))) (Gin m c (ix2 (rowAt t b) (Cert.Hsl.pix (tileAt t) k j)))
  refine Finset.sum_congr rfl fun j _ => ?_
  have hp : k.val * 2048 + j.val < 65536 := by have := k.isLt; have := j.isLt; omega
  have ex : chunkOf (xblk m c t) k (ix2 b j) = Xin m c (ix2 (rowAt t b) (Cert.Hsl.pix (tileAt t) k j)) :=
    ((chunkOf_apply (xblk m c t) k b j).trans (xblk_apply m c t b ⟨k.val * 2048 + j.val, hp⟩)).trans
      (congrArg (fun q => Xin m c (ix2 (rowAt t b) q)) (colAt_chunk t k j hp))
  have eg : chunkOf (gblk m c t) k (ix2 b j) = Gin m c (ix2 (rowAt t b) (Cert.Hsl.pix (tileAt t) k j)) :=
    ((chunkOf_apply (gblk m c t) k b j).trans (gblk_apply m c t b ⟨k.val * 2048 + j.val, hp⟩)).trans
      (congrArg (fun q => Gin m c (ix2 (rowAt t b) q)) (colAt_chunk t k j hp))
  rw [ex, eg]

/-- The same with the blocks and the row and tile numbers written out. -/
theorem tileTable_iblk (c : Dev nD) (t : Fin cfg0.N) (b : Fin 8) (mm : Fin 16) (o : Fin 8) :
    tileTable (iblk (F := Ideal) m c 0 t) (iblk (F := Ideal) m c 1 t) (ix3 b mm o)
      = Cert.Hsl.tileSum (Xin m c) (Gin m c)
          (⟨8 * (t.val / 16) + b.val, by have := t.isLt; have : cfg0.N = 32 := N_0; omega⟩ : Fin 16)
          (⟨t.val % 16, Nat.mod_lt _ (by decide)⟩ : Fin 16) mm o :=
  tileTable_eq m c t b mm o

/-! ## Tiles 0 … k of a batch row -/

/-- Rows 0..7 of the 16-row table. -/
def lo16 (h : Fin 8) : Fin 16 := ⟨h.val, by omega⟩
/-- Rows 8..15 of the 16-row table. -/
def hi16 (h : Fin 8) : Fin 16 := ⟨8 + h.val, by omega⟩

/-- Batch row r's table entry (mm, o) restricted to tiles 0 … k. -/
def partSum (X : Cert.Hsl.SPix.Idx → EReal) (G : IVec Cert.Hsl.SPix 32) (r : Fin 16) (k : ℕ) (mm : Fin 16) (o : Fin 8) : EReal :=
  ∑ tt' ∈ Finset.univ.filter (fun tt' : Fin 16 => tt'.val ≤ k), Cert.Hsl.tileSum X G r tt' mm o

/-- Up to tile 0 there is only tile 0. -/
theorem partSum_first (X : Cert.Hsl.SPix.Idx → EReal) (G : IVec Cert.Hsl.SPix 32) (r : Fin 16) (mm : Fin 16) (o : Fin 8)
    (k : ℕ) (tt : Fin 16) (hk : k = 0) (htt : tt.val = k) :
    partSum X G r k mm o = Cert.Hsl.tileSum X G r tt mm o := by
  unfold partSum
  have hs : Finset.univ.filter (fun tt' : Fin 16 => tt'.val ≤ k) = {tt} := by
    ext x
    simp only [Finset.mem_filter, Finset.mem_univ, true_and, Finset.mem_singleton]
    constructor
    · intro hx; exact Fin.ext (by omega)
    · rintro rfl; omega
  rw [hs, Finset.sum_singleton]

/-- Tiles 0 … k + 1 are tiles 0 … k and tile k + 1. -/
theorem partSum_step (X : Cert.Hsl.SPix.Idx → EReal) (G : IVec Cert.Hsl.SPix 32) (r : Fin 16) (mm : Fin 16) (o : Fin 8)
    (k k' : ℕ) (tt : Fin 16) (hk : k' = k + 1) (htt : tt.val = k') :
    partSum X G r k' mm o = partSum X G r k mm o + Cert.Hsl.tileSum X G r tt mm o := by
  unfold partSum
  have hs : Finset.univ.filter (fun tt' : Fin 16 => tt'.val ≤ k')
      = insert tt (Finset.univ.filter (fun tt' : Fin 16 => tt'.val ≤ k)) := by
    ext x
    simp only [Finset.mem_filter, Finset.mem_univ, true_and, Finset.mem_insert]
    constructor
    · intro hx
      by_cases hxt : x = tt
      · exact Or.inl hxt
      · right
        have hne : x.val ≠ tt.val := fun h => hxt (Fin.ext h)
        omega
    · rintro (rfl | hx) <;> omega
  have hnot : tt ∉ Finset.univ.filter (fun tt' : Fin 16 => tt'.val ≤ k) := by
    simp only [Finset.mem_filter, Finset.mem_univ, true_and]; omega
  rw [hs, Finset.sum_insert hnot, add_comm]

/-- Tiles 0 … 15 are all of them. -/
theorem partSum_all (X : Cert.Hsl.SPix.Idx → EReal) (G : IVec Cert.Hsl.SPix 32) (r : Fin 16) (mm : Fin 16) (o : Fin 8) :
    partSum X G r 15 mm o = Cert.Hsl.histK X G r mm o := by
  unfold partSum Cert.Hsl.histK
  rw [Finset.filter_true_of_mem (fun x _ => by have := x.isLt; omega)]

/-! ## The carried tables after each grid point -/

/-- At the first tile of a core half the two carried tables are reset and hold that tile alone. -/
theorem scratch_first (c : Dev nD) (t : Fin cfg0.N) (h0 : t.val % 16 = 0) (b h o : Fin 8) :
    (outsAt0 (F := Ideal) m c t.val t.isLt).2.1 (ix3 b h o) = partSum (Xin m c) (Gin m c) (rowAt t b) (t.val % 16) (lo16 h) o
      ∧ (outsAt0 (F := Ideal) m c t.val t.isLt).2.2 (ix3 b h o) = partSum (Xin m c) (Gin m c) (rowAt t b) (t.val % 16) (hi16 h) o := by
  have h1 : ¬ t.val % 16 = 15 := by omega
  rw [outsAt0_A m c t h0 h1]; dsimp only
  constructor
  · refine (sout0_A_0_apply c (grid0.coords t) (ms0_0 t) (hs0_0 t) (ms0_1 t) (hs0_1 t) (ms0_2 t) (hs0_2 t) scM0_0 (Memref.isWhole_whole _) scM0_1 (Memref.isWhole_whole _) ((hcond0_0 t).mpr h0) (fun h => h1 ((hcond0_1 t).mp h)) (xblk m c t) (gblk m c t) b h o).trans ?_
    rw [tileTable_eq]
    exact (partSum_first _ _ _ _ _ (t.val % 16) (tileAt t) h0 rfl).symm
  · refine (sout0_A_1_apply c (grid0.coords t) (ms0_0 t) (hs0_0 t) (ms0_1 t) (hs0_1 t) (ms0_2 t) (hs0_2 t) scM0_0 (Memref.isWhole_whole _) scM0_1 (Memref.isWhole_whole _) ((hcond0_0 t).mpr h0) (fun h => h1 ((hcond0_1 t).mp h)) (xblk m c t) (gblk m c t) b h o).trans ?_
    rw [tileTable_eq]
    exact (partSum_first _ _ _ _ _ (t.val % 16) (tileAt t) h0 rfl).symm

/-- At a later tile the carried tables hold what the point before left plus this tile. -/
theorem scratch_next (c : Dev nD) (t : Fin cfg0.N) (h0 : ¬ t.val % 16 = 0)
    (ih : ∀ b h o : Fin 8,
      (outsAt0 (F := Ideal) m c (t.val - 1) (Nat.lt_of_le_of_lt (Nat.sub_le _ _) t.isLt)).2.1 (ix3 b h o) = partSum (Xin m c) (Gin m c) (rowAt t b) (t.val % 16 - 1) (lo16 h) o
      ∧ (outsAt0 (F := Ideal) m c (t.val - 1) (Nat.lt_of_le_of_lt (Nat.sub_le _ _) t.isLt)).2.2 (ix3 b h o) = partSum (Xin m c) (Gin m c) (rowAt t b) (t.val % 16 - 1) (hi16 h) o)
    (b h o : Fin 8) :
    (outsAt0 (F := Ideal) m c t.val t.isLt).2.1 (ix3 b h o) = partSum (Xin m c) (Gin m c) (rowAt t b) (t.val % 16) (lo16 h) o
      ∧ (outsAt0 (F := Ideal) m c t.val t.isLt).2.2 (ix3 b h o) = partSum (Xin m c) (Gin m c) (rowAt t b) (t.val % 16) (hi16 h) o := by
  by_cases h1 : t.val % 16 = 15
  · rw [outsAt0_C m c t h0 h1]; dsimp only
    constructor
    · refine (sout0_C_0_apply c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) ((hcond0_1 t).mpr h1) (xblk m c t) (gblk m c t) (outsAt0 (F := Ideal) m c (t.val - 1) (Nat.lt_of_le_of_lt (Nat.sub_le _ _) t.isLt)).2.1 (outsAt0 (F := Ideal) m c (t.val - 1) (Nat.lt_of_le_of_lt (Nat.sub_le _ _) t.isLt)).2.2 b h o).trans ?_
      rw [(ih b h o).1, tileTable_eq]
      exact (partSum_step _ _ _ _ _ (t.val % 16 - 1) (t.val % 16) (tileAt t) (by omega) rfl).symm
    · refine (sout0_C_1_apply c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) ((hcond0_1 t).mpr h1) (xblk m c t) (gblk m c t) (outsAt0 (F := Ideal) m c (t.val - 1) (Nat.lt_of_le_of_lt (Nat.sub_le _ _) t.isLt)).2.1 (outsAt0 (F := Ideal) m c (t.val - 1) (Nat.lt_of_le_of_lt (Nat.sub_le _ _) t.isLt)).2.2 b h o).trans ?_
      rw [(ih b h o).2, tileTable_eq]
      exact (partSum_step _ _ _ _ _ (t.val % 16 - 1) (t.val % 16) (tileAt t) (by omega) rfl).symm
  · rw [outsAt0_B m c t h0 h1]; dsimp only
    constructor
    · refine (sout0_B_0_apply c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) (fun h => h1 ((hcond0_1 t).mp h)) (xblk m c t) (gblk m c t) (outsAt0 (F := Ideal) m c (t.val - 1) (Nat.lt_of_le_of_lt (Nat.sub_le _ _) t.isLt)).2.1 (outsAt0 (F := Ideal) m c (t.val - 1) (Nat.lt_of_le_of_lt (Nat.sub_le _ _) t.isLt)).2.2 b h o).trans ?_
      rw [(ih b h o).1, tileTable_eq]
      exact (partSum_step _ _ _ _ _ (t.val % 16 - 1) (t.val % 16) (tileAt t) (by omega) rfl).symm
    · refine (sout0_B_1_apply c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) (fun h => h1 ((hcond0_1 t).mp h)) (xblk m c t) (gblk m c t) (outsAt0 (F := Ideal) m c (t.val - 1) (Nat.lt_of_le_of_lt (Nat.sub_le _ _) t.isLt)).2.1 (outsAt0 (F := Ideal) m c (t.val - 1) (Nat.lt_of_le_of_lt (Nat.sub_le _ _) t.isLt)).2.2 b h o).trans ?_
      rw [(ih b h o).2, tileTable_eq]
      exact (partSum_step _ _ _ _ _ (t.val % 16 - 1) (t.val % 16) (tileAt t) (by omega) rfl).symm

/-- After every grid point: the carried tables hold tiles 0 … t % 16 of the point's eight batch rows. -/
theorem scratch_at_all (c : Dev nD) : ∀ (n : ℕ) (t : Fin cfg0.N), t.val = n → ∀ b h o : Fin 8,
    (outsAt0 (F := Ideal) m c t.val t.isLt).2.1 (ix3 b h o) = partSum (Xin m c) (Gin m c) (rowAt t b) (t.val % 16) (lo16 h) o
      ∧ (outsAt0 (F := Ideal) m c t.val t.isLt).2.2 (ix3 b h o) = partSum (Xin m c) (Gin m c) (rowAt t b) (t.val % 16) (hi16 h) o := by
  intro n
  induction n with
  | zero => intro t ht b h o; exact scratch_first m c t (by omega) b h o
  | succ n ih =>
    intro t ht b h o
    by_cases h0 : t.val % 16 = 0
    · exact scratch_first m c t h0 b h o
    · have hlt : t.val - 1 < cfg0.N := Nat.lt_of_le_of_lt (Nat.sub_le _ _) t.isLt
      refine scratch_next m c t h0 (fun b h o => ?_) b h o
      have e := ih ⟨t.val - 1, hlt⟩ (by show t.val - 1 = n; omega) b h o
      have er : rowAt ⟨t.val - 1, hlt⟩ b = rowAt t b :=
        Fin.ext (by show 8 * ((t.val - 1) / 16) + b.val = 8 * (t.val / 16) + b.val; omega)
      have ek : (t.val - 1) % 16 = t.val % 16 - 1 := by omega
      dsimp only at e
      rw [er, ek] at e
      exact e

/-! ## The statements, in the specification's words -/

/-- After grid point t the first carried table holds, at (b, h, o), rows 0..7 of tiles 0 … t % 16 of batch row
    8·(t / 16) + b. -/
theorem scratch0_at (c : Dev nD) (t : Fin cfg0.N) (b h o : Fin 8) :
    (outsAt0 (F := Ideal) m c t.val t.isLt).2.1 (ix3 b h o)
      = ∑ tt' ∈ Finset.univ.filter (fun tt' : Fin 16 => tt'.val ≤ t.val % 16),
          Cert.Hsl.tileSum (Xin m c) (Gin m c) (⟨8 * (t.val / 16) + b.val, by have := t.isLt; have : cfg0.N = 32 := N_0; omega⟩ : Fin 16) tt' (⟨h.val, by omega⟩ : Fin 16) o :=
  (scratch_at_all m c t.val t rfl b h o).1

/-- After grid point t the second carried table holds rows 8..15 of the same. -/
theorem scratch1_at (c : Dev nD) (t : Fin cfg0.N) (b h o : Fin 8) :
    (outsAt0 (F := Ideal) m c t.val t.isLt).2.2 (ix3 b h o)
      = ∑ tt' ∈ Finset.univ.filter (fun tt' : Fin 16 => tt'.val ≤ t.val % 16),
          Cert.Hsl.tileSum (Xin m c) (Gin m c) (⟨8 * (t.val / 16) + b.val, by have := t.isLt; have : cfg0.N = 32 := N_0; omega⟩ : Fin 16) tt' (⟨8 + h.val, by omega⟩ : Fin 16) o :=
  (scratch_at_all m c t.val t rfl b h o).2

/-- At the last tile of a core half the stored block holds, in its first eight lanes, the whole table of each of the
    eight batch rows, and zero in the other lanes. -/
theorem out_at_last (c : Dev nD) (t : Fin cfg0.N) (ht : t.val % 16 = 15) (b : Fin 8) (mm : Fin 16) (l : Fin 128) :
    (outsAt0 (F := Ideal) m c t.val t.isLt).1 (ix3 b mm l)
      = if hl : l.val < 8 then Cert.Hsl.histK (Xin m c) (Gin m c) (⟨8 * (t.val / 16) + b.val, by have := t.isLt; have : cfg0.N = 32 := N_0; omega⟩ : Fin 16) mm (⟨l.val, hl⟩ : Fin 8) else 0 := by
  have h0 : ¬ t.val % 16 = 0 := by omega
  have h1 : t.val % 16 = 15 := ht
  have hlt : t.val - 1 < cfg0.N := Nat.lt_of_le_of_lt (Nat.sub_le _ _) t.isLt
  rw [outsAt0_C m c t h0 h1]; dsimp only
  refine (out0_C_2_apply c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) ((hcond0_1 t).mpr h1) (xblk m c t) (gblk m c t) (outsAt0 (F := Ideal) m c (t.val - 1) (Nat.lt_of_le_of_lt (Nat.sub_le _ _) t.isLt)).2.1 (outsAt0 (F := Ideal) m c (t.val - 1) (Nat.lt_of_le_of_lt (Nat.sub_le _ _) t.isLt)).2.2 b mm l).trans ?_
  by_cases hl : l.val < 8
  · rw [dif_pos hl, dif_pos hl]
    have er : rowAt ⟨t.val - 1, hlt⟩ b = rowAt t b :=
      Fin.ext (by show 8 * ((t.val - 1) / 16) + b.val = 8 * (t.val / 16) + b.val; omega)
    have ek : (t.val - 1) % 16 = 14 := by omega
    show _ = Cert.Hsl.histK (Xin m c) (Gin m c) (rowAt t b) mm ⟨l.val, hl⟩
    rw [← partSum_all, tileTable_eq]
    by_cases hm : mm.val < 8
    · rw [dif_pos hm]
      have e := (scratch_at_all m c (t.val - 1) ⟨t.val - 1, hlt⟩ rfl b ⟨mm.val, hm⟩ ⟨l.val, hl⟩).1
      dsimp only at e
      rw [er, ek, show lo16 ⟨mm.val, hm⟩ = mm from Fin.ext rfl] at e
      rw [e]
      exact (partSum_step _ _ _ _ _ 14 15 (tileAt t) rfl ht).symm
    · rw [dif_neg hm]
      have e := (scratch_at_all m c (t.val - 1) ⟨t.val - 1, hlt⟩ rfl b ⟨mm.val - 8, by have := mm.isLt; omega⟩ ⟨l.val, hl⟩).2
      dsimp only at e
      rw [er, ek, show hi16 ⟨mm.val - 8, by have := mm.isLt; omega⟩ = mm from Fin.ext (by show 8 + (mm.val - 8) = mm.val; omega)] at e
      rw [e]
      exact (partSum_step _ _ _ _ _ 14 15 (tileAt t) rfl ht).symm
  · rw [dif_neg hl, dif_neg hl]

end Cert.KernelIdeal.Hist

end
-- ==== Proof.KernelArray.lean ====
/-
  The table side's output array after the whole grid.

  The grid visits, for each half of the 16 batch rows, the 16 tiles of the pixel axis in order, and hands its
  [8, 16, 128] block back to the [16, 16, 128] array only after the last tile of a half: at that point the block
  holds, for each of the half's 8 batch rows, the finished 16 × 8 table on lanes 0..7 and zero on lanes 8..127.
  The two blocks written back sit at batch rows 0..7 and 8..15, so together they tile the array, and the array
  ends as one function of the two flattened inputs: entry (b, m, o) is batch row b's table entry (m, o) for
  o below 8, and zero on the padding lanes.
-/
import proofs.«411778_j1022202216838_3_alg».proof.Proof.Gen.KernelIdeal.Frame
import proofs.«411778_j1022202216838_3_alg».proof.Proof.Spec
import proofs.«411778_j1022202216838_3_alg».proof.Proof.Inputs
import proofs.«411778_j1022202216838_3_alg».proof.Proof.OutArr
import proofs.«411778_j1022202216838_3_alg».proof.Proof.GridFold
import Idealize.ShloMosaic.Lib.Pipeline.Value
import Idealize.ShloMosaic.Lib.ValueIdx

noncomputable section

namespace Cert.KernelIdeal.Hist

open Idealize.ShloMosaic Idealize.ShloMosaic.ValueIdx Idealize.ShloMosaic.TcCoe Idealize.SL.Sem
open Cert.KernelIdeal Cert.KernelIdeal.Gen
open Idealize.ShloMosaic.Pipeline (Dat)

variable (m : (ℓ : Loc nD τ sig) → Buf (Elt Ideal) ℓ)

/-- The output block is written back exactly after the last tile of each half of the batch rows. -/
theorem flush_iff : ∀ t : Fin cfg0.N, (cfg0.win 2).flush t = true ↔ t.val % 16 = 15 :=
  (by decide +kernel : ∀ t : Fin grid0.N, (cfg0.win 2).flush t = true ↔ t.val % 16 = 15)

/-- The output block's index at a grid point: the half of the batch rows on the first axis, zero on the others. -/
theorem out_index : ∀ t : Fin cfg0.N, win0_2.index t (0 : Fin 3) = t.val / 16
    ∧ win0_2.index t (1 : Fin 3) = 0 ∧ win0_2.index t (2 : Fin 3) = 0 :=
  (by decide +kernel : ∀ t : Fin grid0.N, win0_2.index t (0 : Fin 3) = t.val / 16
    ∧ win0_2.index t (1 : Fin 3) = 0 ∧ win0_2.index t (2 : Fin 3) = 0)

/-- The array at an index whose coordinates are known: the table entry on lanes below 8, zero on the padding lanes. -/
theorem outArr_at (X : Cert.Hsl.SPix.Idx → EReal) (G : IVec Cert.Hsl.SPix 32) (i : S16x16x128.Idx)
    (b : Fin 16) (mm : Fin 16) (l : Fin 128) (h0 : (i 0).val = b.val) (h1 : (i 1).val = mm.val) (h2 : (i 2).val = l.val) :
    outArr X G i = if hl : l.val < 8 then Cert.Hsl.histK X G b mm (⟨l.val, hl⟩ : Fin 8) else 0 := by
  have e : i = ix3 b mm l := by
    funext a
    match a with
    | ⟨0, _⟩ => exact Fin.ext h0
    | ⟨1, _⟩ => exact Fin.ext h1
    | ⟨2, _⟩ => exact Fin.ext h2
  subst e
  rfl

/-- What a write-back point hands to the array is that point's block of the table array: batch rows
    8·(half) … 8·(half) + 7, every table row, every lane. -/
theorem flushed_eq (c : Dev nD) (t : Fin cfg0.N) (hf : (cfg0.win 2).flush t = true) :
    (dats m 0 c).flushed 2 t = ((cfg0.win 2).blk t).view.read (Elt Ideal) (outArr (Xin m c) (Gin m c)) := by
  have ht : t.val % 16 = 15 := (flush_iff t).mp hf
  have hN : cfg0.N = 32 := N_0
  have htl : t.val < 32 := lt_of_lt_of_eq t.isLt hN
  show (cfg0.win 2).cut (grid0.coords t) ((dats m 0 c).after 2 t) = _
  rw [after0_2]
  funext y
  have hy0 : (y 0).val < 8 := (y 0).isLt
  have hy1 : (y 1).val < 16 := (y 1).isLt
  have hy2 : (y 2).val < 128 := (y 2).isLt
  have e : (cfg0.win 2).xinj (grid0.coords t) y
      = ix3 (⟨(y 0).val, hy0⟩ : Fin 8) (⟨(y 1).val, hy1⟩ : Fin 16) (⟨(y 2).val, hy2⟩ : Fin 128) := by
    funext a
    match a with
    | ⟨0, _⟩ => rfl
    | ⟨1, _⟩ => rfl
    | ⟨2, _⟩ => rfl
  show (outsAt0 (F := Ideal) m c t.val t.isLt).1 ((cfg0.win 2).xinj (grid0.coords t) y)
    = outArr (Xin m c) (Gin m c) (((cfg0.win 2).blk t).view.emb y)
  rw [e, out_at_last m c t ht]
  obtain ⟨e0, e1, e2⟩ := out_index t
  have h0 : ((((cfg0.win 2).blk t).view.emb y) 0).val = 8 * (t.val / 16) + (y 0).val := by
    show win0_2.index t (0 : Fin 3) * 8 + 1 * (y 0).val = _
    rw [e0]; omega
  have h1 : ((((cfg0.win 2).blk t).view.emb y) 1).val = (y 1).val := by
    show win0_2.index t (1 : Fin 3) * 16 + 1 * (y 1).val = _
    rw [e1]; omega
  have h2 : ((((cfg0.win 2).blk t).view.emb y) 2).val = (y 2).val := by
    show win0_2.index t (2 : Fin 3) * 128 + 1 * (y 2).val = _
    rw [e2]; omega
  exact (outArr_at (Xin m c) (Gin m c) (((cfg0.win 2).blk t).view.emb y)
    (⟨8 * (t.val / 16) + (y 0).val, by omega⟩ : Fin 16) (⟨(y 1).val, hy1⟩ : Fin 16) (⟨(y 2).val, hy2⟩ : Fin 128) h0 h1 h2).symm

/-- An index of the array lies in a point's block iff each coordinate lies in the block's range on its axis. -/
theorem mem_out_blk (t : Fin cfg0.N) (i : S16x16x128.Idx) :
    i ∈ ((cfg0.win 2).blk t).view.set ↔ ∀ a : Fin 3, win0_2.index t a * S8x16x128.size a ≤ (i a).val
      ∧ (i a).val < win0_2.index t a * S8x16x128.size a + S8x16x128.size a := by
  show i ∈ ((View.whole main_v2).slice (win0_2.rect t)).set ↔ _
  rw [View.set_slice_whole, Rect.mem_set_unit]
  exact Iff.rfl

/-- Every index of the array lies in the block of a write-back point: batch row r is written after the last tile of
    its half, the point 16·(r / 8) + 15. -/
theorem out_covered (i : S16x16x128.Idx) :
    ∃ t : Fin cfg0.N, (cfg0.win 2).flush t = true ∧ i ∈ ((cfg0.win 2).blk t).view.set := by
  have hi0 : (i 0).val < 16 := (i 0).isLt
  have hi1 : (i 1).val < 16 := (i 1).isLt
  have hi2 : (i 2).val < 128 := (i 2).isLt
  have hN : cfg0.N = 32 := N_0
  have hlt : 16 * ((i 0).val / 8) + 15 < cfg0.N := by rw [hN]; omega
  refine ⟨⟨16 * ((i 0).val / 8) + 15, hlt⟩, (flush_iff _).mpr (by show (16 * ((i 0).val / 8) + 15) % 16 = 15; omega), ?_⟩
  rw [mem_out_blk]
  obtain ⟨e0, e1, e2⟩ := out_index ⟨16 * ((i 0).val / 8) + 15, hlt⟩
  have e0' : win0_2.index ⟨16 * ((i 0).val / 8) + 15, hlt⟩ (0 : Fin 3) = (i 0).val / 8 := by
    rw [e0]; show (16 * ((i 0).val / 8) + 15) / 16 = _; omega
  intro a
  match a with
  | ⟨0, _⟩ =>
    show win0_2.index ⟨16 * ((i 0).val / 8) + 15, hlt⟩ (0 : Fin 3) * 8 ≤ (i 0).val
      ∧ (i 0).val < win0_2.index ⟨16 * ((i 0).val / 8) + 15, hlt⟩ (0 : Fin 3) * 8 + 8
    rw [e0']; omega
  | ⟨1, _⟩ =>
    show win0_2.index ⟨16 * ((i 0).val / 8) + 15, hlt⟩ (1 : Fin 3) * 16 ≤ (i 1).val
      ∧ (i 1).val < win0_2.index ⟨16 * ((i 0).val / 8) + 15, hlt⟩ (1 : Fin 3) * 16 + 16
    rw [e1]; omega
  | ⟨2, _⟩ =>
    show win0_2.index ⟨16 * ((i 0).val / 8) + 15, hlt⟩ (2 : Fin 3) * 128 ≤ (i 2).val
      ∧ (i 2).val < win0_2.index ⟨16 * ((i 0).val / 8) + 15, hlt⟩ (2 : Fin 3) * 128 + 128
    rw [e2]; omega

/-- THE OUTPUT ARRAY after the grid: every batch row's table on lanes 0..7, zero on the padding lanes. -/
theorem arr_final (c : Dev nD) : (dats m 0 c).arrAt 2 cfg0.N = outArr (Xin m c) (Gin m c) :=
  (dats m 0 c).arrAt_eq_of_cover 2 (outArr (Xin m c) (Gin m c)) (flushed_eq m c) out_covered

end Cert.KernelIdeal.Hist

end
-- ==== Proof.OutBins.lean ====
/-
  Reading the per-(batch, label) sums and counts out of the table side's output array.

  The array has shape [16, 16, 128]: batch row, table row, lane. Cutting out table rows 0..7 (resp. 8..15) and
  lanes 0..7 leaves a [16, 8, 8] block, and flattening its last two axes gives [16, 64]. A flattening keeps the
  row-major position, so entry (b, l) of the result is entry (b, l / 8, l % 8) of the block, which is entry
  (b, l / 8, l % 8) (resp. (b, 8 + l / 8, l % 8)) of the array. The lane l % 8 is below 8, so that entry is the
  table entry itself and not padding: exactly the per-(batch, label) sum (resp. count) of label l.
-/
import proofs.«411778_j1022202216838_3_alg».proof.Proof.OutArr
import Idealize.ShloMosaic.Lib.Pipeline.Value
import Idealize.ShloMosaic.Lib.ValueIdx

noncomputable section

namespace Cert.KernelIdeal.Hist

open Idealize.ShloMosaic Idealize.ShloMosaic.ValueIdx Cert.KernelIdeal

/-- The sums: table rows 0..7, lanes 0..7, flattened to one label axis. -/
theorem bins_sumsq (X : Cert.Hsl.SPix.Idx → EReal) (G : IVec Cert.Hsl.SPix 32)
    (hs : S16x16x128.Slices ![0, 0, 0] S16x8x8) (hc : S16x8x8.ShapeCasts S16x64) :
    shapeCast S16x64 (extractStridedSlice S16x8x8 ![0, 0, 0] (outArr X G) hs) hc = Cert.Hsl.sumsqK X G := by
  funext i
  have h0 : (i 0).val < 16 := (i 0).isLt
  have h1 : (i 1).val < 64 := (i 1).isLt
  -- the block entry with the same row-major position as (b, l)
  refine (shapeCast_apply _ hc i
    (ix3 (⟨(i 0).val, h0⟩ : Fin 16) (⟨(i 1).val / 8, by omega⟩ : Fin 8) (⟨(i 1).val % 8, by omega⟩ : Fin 8)) ?_).trans ?_
  · rw [Shape.rowMajor_val_three, Shape.rowMajor_val_two]
    show ((i 0).val * 8 + (i 1).val / 8) * 8 + (i 1).val % 8 = (i 0).val * 64 + (i 1).val
    omega
  -- the array entry under that block entry
  refine (extractStridedSlice_apply _ _ hs _
    (ix3 (⟨(i 0).val, h0⟩ : Fin 16) (⟨(i 1).val / 8, by omega⟩ : Fin 16) (⟨(i 1).val % 8, by omega⟩ : Fin 128))
    ?_).trans ?_
  · intro a
    match a with
    | ⟨0, _⟩ => show (i 0).val = 0 + (i 0).val; omega
    | ⟨1, _⟩ => show (i 1).val / 8 = 0 + (i 1).val / 8; omega
    | ⟨2, _⟩ => show (i 1).val % 8 = 0 + (i 1).val % 8; omega
  -- a lane below 8 holds the table entry
  have hl : (i 1).val % 8 < 8 := Nat.mod_lt _ (by decide)
  unfold outArr
  exact (dif_pos hl).trans rfl

/-- The counts: table rows 8..15, lanes 0..7, flattened to one label axis. -/
theorem bins_cnt (X : Cert.Hsl.SPix.Idx → EReal) (G : IVec Cert.Hsl.SPix 32)
    (hs : S16x16x128.Slices ![0, 8, 0] S16x8x8) (hc : S16x8x8.ShapeCasts S16x64) :
    shapeCast S16x64 (extractStridedSlice S16x8x8 ![0, 8, 0] (outArr X G) hs) hc = Cert.Hsl.cntK X G := by
  funext i
  have h0 : (i 0).val < 16 := (i 0).isLt
  have h1 : (i 1).val < 64 := (i 1).isLt
  refine (shapeCast_apply _ hc i
    (ix3 (⟨(i 0).val, h0⟩ : Fin 16) (⟨(i 1).val / 8, by omega⟩ : Fin 8) (⟨(i 1).val % 8, by omega⟩ : Fin 8)) ?_).trans ?_
  · rw [Shape.rowMajor_val_three, Shape.rowMajor_val_two]
    show ((i 0).val * 8 + (i 1).val / 8) * 8 + (i 1).val % 8 = (i 0).val * 64 + (i 1).val
    omega
  refine (extractStridedSlice_apply _ _ hs _
    (ix3 (⟨(i 0).val, h0⟩ : Fin 16) (⟨8 + (i 1).val / 8, by omega⟩ : Fin 16) (⟨(i 1).val % 8, by omega⟩ : Fin 128))
    ?_).trans ?_
  · intro a
    match a with
    | ⟨0, _⟩ => show (i 0).val = 0 + (i 0).val; omega
    | ⟨1, _⟩ => show 8 + (i 1).val / 8 = 8 + (i 1).val / 8; rfl
    | ⟨2, _⟩ => show (i 1).val % 8 = 0 + (i 1).val % 8; omega
  have hl : (i 1).val % 8 < 8 := Nat.mod_lt _ (by decide)
  unfold outArr
  exact (dif_pos hl).trans rfl

end Cert.KernelIdeal.Hist

end
-- ==== Proof.KernelRun.lean ====
/-
  The table side's whole run, with its result named.

  Before the grid the two inputs have their image axes flattened. After the grid the closing host computation
  cuts lanes 0..7 of table rows 0..7 and of table rows 8..15 out of the [16, 16, 128] array and flattens each to
  [16, 64]: these are the per-(batch, label) sums of squared errors and the per-(batch, label) counts. It then
  takes sum / max(count, 1) where the count is positive and 0 elsewhere, adds these up over labels 1..63 and all
  batch rows, and divides by 16. The inputs themselves are left as launched.
-/
import proofs.«411778_j1022202216838_3_alg».proof.Proof.KernelArray
import proofs.«411778_j1022202216838_3_alg».proof.Proof.OutBins
import Idealize.ShloMosaic.Lib.Pipeline.Value
import Idealize.ShloMosaic.Lib.ValueIdx
import Idealize.ShloMosaic.Lib.StableHlo.Run
import Idealize.ShloMosaic.Lib.Tactic

noncomputable section

namespace Cert.KernelIdeal.Hist

open Idealize.ShloMosaic Idealize.ShloMosaic.ValueIdx Idealize.ShloMosaic.TcCoe Idealize.SL.Sem
open Cert.KernelIdeal Cert.KernelIdeal.Gen
open Idealize.ShloMosaic.Pipeline (Dat)

variable (m : (ℓ : Loc nD τ sig) → Buf (Elt Ideal) ℓ)

/-- The first input as the grid finds it: the launch contents with the image axes flattened. -/
theorem Xin_eq (c : Dev nD) : Xin m c
    = shapeCast Cert.Hsl.SPix (m ((c.tc : Thread nD τ).loc main_arg0)) Facts₀.shapeCasts_S16x1x1024x1024_S16x1048576 := by
  show StableHlo.after hostOps0 (fun b => m (c, b)) (Proc.devRef .tc main_v0) = _
  after_results
  rfl

/-- The second input as the grid finds it: the launch contents with the image axes flattened. -/
theorem Gin_eq (c : Dev nD) : Gin m c
    = shapeCast Cert.Hsl.SPix (m ((c.tc : Thread nD τ).loc main_arg1)) Facts₀.shapeCasts_S16x1x1024x1024_S16x1048576 := by
  show StableHlo.after hostOps0 (fun b => m (c, b)) (Proc.devRef .tc main_v1) = _
  after_results
  rfl

/-- The array the closing host computation reads is the table array of the two flattened inputs. -/
theorem arr_read (c : Dev nD) :
    Pipeline.withArrays (cfgs 0).spec c (V0 (F := Ideal) m c) (fun w => (dats m 0 c).arrAt w (cfgs 0).N) (Proc.devRef .tc main_v2)
      = outArr (Xin m c) (Gin m c) :=
  (Pipeline.withArrays_arr spec0 launch0.win.arr_inj c _ _ 2).trans (arr_final m c)

/-- The closing host computation: lanes 0..7 of table rows 0..7 and of rows 8..15 cut out and flattened to the
    per-(batch, label) sums and counts, then the mean where the count is positive, added up over labels 1..63 and
    all batch rows, divided by 16. -/
theorem tail_eq (c : Dev nD) :
    Pipeline.afterTail₀ cfgs (dats m) 0 (V0 m) [hostOps1, hostOps1_1, hostOps1_2] c main_v15
      = Cert.Hsl.lossOf Facts₀.bcast_S_S16x64 Facts₀.slices_S16x64_S16x63_0_1 Facts₀.reducesTo_S16x63_S_d0_1 Facts₀.h_S_
          (Cert.Hsl.sumsqK (Xin m c) (Gin m c)) (Cert.Hsl.cntK (Xin m c) (Gin m c)) := by
  unfold Pipeline.afterTail₀
  simp only [hostOps1, hostOps1_1, hostOps1_2, List.flatten_cons, List.flatten_nil, List.append_nil, List.cons_append, List.nil_append]
  after_results
  rw [← bins_sumsq (Xin m c) (Gin m c) Facts₀.slices_S16x16x128_S16x8x8_0_0_0 Facts₀.shapeCasts_S16x8x8_S16x64,
    ← bins_cnt (Xin m c) (Gin m c) Facts₀.slices_S16x16x128_S16x8x8_0_8_0 Facts₀.shapeCasts_S16x8x8_S16x64,
    ← arr_read m c]
  rfl

/-- THE RUN of the table side: every weakly fair execution ends with the result at the closing computation of the
    table's sums and counts over the two flattened inputs, and the inputs as launched. -/
theorem kernel_run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v15)
          = Cert.Hsl.lossOf Facts₀.bcast_S_S16x64 Facts₀.slices_S16x64_S16x63_0_1 Facts₀.reducesTo_S16x63_S_d0_1 Facts₀.h_S_
              (Cert.Hsl.sumsqK (shapeCast Cert.Hsl.SPix (m ((c.tc : Thread nD τ).loc main_arg0)) Facts₀.shapeCasts_S16x1x1024x1024_S16x1048576) (shapeCast Cert.Hsl.SPix (m ((c.tc : Thread nD τ).loc main_arg1)) Facts₀.shapeCasts_S16x1x1024x1024_S16x1048576))
              (Cert.Hsl.cntK (shapeCast Cert.Hsl.SPix (m ((c.tc : Thread nD τ).loc main_arg0)) Facts₀.shapeCasts_S16x1x1024x1024_S16x1048576) (shapeCast Cert.Hsl.SPix (m ((c.tc : Thread nD τ).loc main_arg1)) Facts₀.shapeCasts_S16x1x1024x1024_S16x1048576))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨(((h c).2 main_v15 (Pipeline.mem_restRefs_of main_v15 (by decide) (by decide))).trans (tail_eq m c)).trans
        (by rw [Xin_eq m c, Gin_eq m c]),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end Cert.KernelIdeal.Hist

end
-- ==== Proof.LibRowGatherScatter.lean ====
/-
  Three host indexing operations read at an index, for any extents: the gather of whole rows of an
  [N × C] table named by an [E × 1] column of row numbers (jnp's table[idx, :]), and the accumulating
  float scatters that add E updates (rows of an [E × C] array, or the entries of an [E] vector) into the
  rows (entries) those row numbers name (jnp's .at[idx].add, segment_sum), at the exact-arithmetic instance
  where the accumulation is a plain sum.
-/
import Idealize.ShloMosaic.PureOps.Ideal
import Idealize.ShloMosaic.PureOps.Contract
import Idealize.ShloMosaic.Lib.ValueIdx

noncomputable section

namespace Idealize.ShloMosaic.RowOps

open Idealize.ShloMosaic Idealize.ShloMosaic.ValueIdx

/-- Row e of the gathered array is the table's row at e's row number, read signed and clamped into the table. -/
theorem gather_rows_apply {α : Type} {N C E w : Nat} (d : GatherDims ⟨2, ![N, C]⟩ ⟨2, ![E, 1]⟩ ⟨2, ![E, C]⟩)
    (hoff : d.offsetDims = [1]) (hcoll : d.collapsedSliceDims = [0]) (hob : d.operandBatchingDims = [])
    (hsim : d.startIndexMap = [0]) (hivd : d.indexVectorDim = 1) (hss : d.sliceSizes = ![1, C])
    (x : (⟨2, ![N, C]⟩ : Shape).Idx → α) (idx : IVec ⟨2, ![E, 1]⟩ w) (e : Fin E) (k : Fin C) (hN : 0 < N) :
    Host.gather d x idx (ix2 e k) = x (ix2 (⟨min (idx (ix2 e (0 : Fin 1))).toInt.toNat (N - 1), by omega⟩ : Fin N) k) := by
  unfold Host.gather
  congr 1
  funext a
  -- the result's one batch axis is axis 0 (axis 1 is its offset axis); no operand axis is a batching axis
  have hbd : d.batchDims = [0] := by
    show (⟨2, ![E, C]⟩ : Shape).kept d.offsetDims = [0]
    rw [hoff]; rfl
  have hob0 : ∀ a : Fin 2, a ∉ d.operandBatchingDims := fun a => by rw [hob]; exact List.not_mem_nil
  -- every entry of a one-element list of axes is that axis, whatever position it is read at
  have hall0 : ∀ X ∈ d.batchDims, X = 0 := fun X hX => by rw [hbd] at hX; exact List.mem_singleton.1 hX
  have hall1 : ∀ X ∈ d.offsetDims, X = 1 := fun X hX => by rw [hoff] at hX; exact List.mem_singleton.1 hX
  have coord0 : ∀ X : Fin 2, X = 0 → ((ix2 e k) X).val = e.val := fun X h => by subst h; rfl
  have coord1 : ∀ X : Fin 2, X = 1 → ((ix2 e k) X).val = k.val := fun X h => by subst h; rfl
  match a with
  | ⟨0, _⟩ =>
    -- operand axis 0: collapsed (slice size 1, no offset coordinate) and start-indexed: the clamped row number
    apply Fin.ext
    have hk : (0 : Fin 2) ∉ d.sKept := by rw [GatherDims.mem_sKept, hcoll]; simp
    have hm : (0 : Fin 2) ∈ d.startIndexMap := by rw [hsim]; exact List.mem_singleton.mpr rfl
    have hsl : d.sliceSizes 0 = 1 := d.slice_collapsed 0 (by rw [hcoll]; exact List.mem_singleton.mpr rfl)
    show d.start (ix2 e k) idx 0 + d.batchCoord (ix2 e k) 0 + d.offCoord (ix2 e k) 0 = min (idx (ix2 e 0)).toInt.toNat (N - 1)
    rw [GatherDims.batchCoord_eq_zero _ _ _ (hob0 0), GatherDims.offCoord_eq_zero _ _ _ hk]
    simp only [Nat.add_zero]
    unfold GatherDims.start
    rw [dif_pos hm]
    show min (idx _).toInt.toNat (N - d.sliceSizes 0) = _
    rw [hsl]
    congr 3
    congr 1
    -- the start index is read at (e, 0): e from the result's batch coordinate, 0 the one component of the index vector
    funext b
    match b with
    | ⟨0, _⟩ =>
      unfold GatherDims.siIdx
      rw [dif_neg (by rw [hivd]; simp)]
      unfold GatherDims.siCoord
      apply Fin.ext
      simp only [Fin.val_cast]
      exact coord0 _ (hall0 _ (List.getElem_mem _))
    | ⟨1, _⟩ =>
      unfold GatherDims.siIdx
      rw [dif_pos (by rw [hivd])]
      apply Fin.ext
      show List.idxOf (0 : Fin 2) d.startIndexMap = 0
      rw [hsim]; simp
  | ⟨1, _⟩ =>
    -- operand axis 1: not start-indexed (start 0), kept whole: the offset coordinate is the result's coordinate on axis 1
    apply Fin.ext
    have hk : (1 : Fin 2) ∈ d.sKept := by rw [GatherDims.mem_sKept, hcoll]; exact ⟨by simp, hob0 1⟩
    have hm : (1 : Fin 2) ∉ d.startIndexMap := by rw [hsim]; simp
    show d.start (ix2 e k) idx 1 + d.batchCoord (ix2 e k) 1 + d.offCoord (ix2 e k) 1 = k.val
    rw [GatherDims.batchCoord_eq_zero _ _ _ (hob0 1)]
    unfold GatherDims.start GatherDims.offCoord
    rw [dif_neg hm, dif_pos hk]
    simp only [Nat.add_zero, Nat.zero_add]
    exact coord1 _ (hall1 _ (List.getElem_mem _))

/-- Where one update lands: update (e, k') lands on (i, k) exactly when e's row number, read signed, is i and k' is k.
    On axis 0 (inserted: no window coordinate) the landing coordinate is the row number itself, not clamped, so a
    negative one or one past the table lands nowhere; on axis 1 (start 0) it is the update's own coordinate k', always
    inside the row. -/
private theorem resultIdx_rows_iff {N C E w : Nat} (d : ScatterDims ⟨2, ![N, C]⟩ ⟨2, ![E, 1]⟩ ⟨2, ![E, C]⟩)
    (huw : d.updateWindowDims = [1]) (hiw : d.insertedWindowDims = [0]) (hsd : d.scatterDimsToOperandDims = [0])
    (hivd : d.indexVectorDim = 1) (idx : IVec ⟨2, ![E, 1]⟩ w) (e : Fin E) (k' : Fin C) (i : Fin N) (k : Fin C) :
    d.resultIdx? (ix2 e k') idx = some (ix2 i k) ↔ (idx (ix2 e (0 : Fin 1))).toInt = (i.val : Int) ∧ k' = k := by
  -- the updates' one scatter axis is axis 0 (axis 1 is their window axis); the operand's one window axis is axis 1
  have hus : d.uScatter = [0] := by
    show (⟨2, ![E, C]⟩ : Shape).kept d.updateWindowDims = [0]
    rw [huw]; rfl
  have hsk : d.sKept = [1] := by
    show (⟨2, ![N, C]⟩ : Shape).kept d.insertedWindowDims = [1]
    rw [hiw]; rfl
  have hall0 : ∀ X ∈ d.uScatter, X = 0 := fun X hX => by rw [hus] at hX; exact List.mem_singleton.1 hX
  have hall1 : ∀ X ∈ d.updateWindowDims, X = 1 := fun X hX => by rw [huw] at hX; exact List.mem_singleton.1 hX
  have coord0 : ∀ X : Fin 2, X = 0 → ((ix2 e k') X).val = e.val := fun X h => by subst h; rfl
  have coord1 : ∀ X : Fin 2, X = 1 → ((ix2 e k') X).val = k'.val := fun X h => by subst h; rfl
  -- the four ingredients of the landing index: start and window coordinate on each operand axis
  have hst0 : d.start (ix2 e k') idx 0 = (idx (ix2 e (0 : Fin 1))).toInt := by
    unfold ScatterDims.start
    rw [dif_pos (by rw [hsd]; exact List.mem_singleton.mpr rfl)]
    congr 2
    funext b
    match b with
    | ⟨0, _⟩ =>
      unfold ScatterDims.siIdx
      rw [dif_neg (by rw [hivd]; simp)]
      unfold ScatterDims.siCoord
      apply Fin.ext
      simp only [Fin.val_cast]
      exact coord0 _ (hall0 _ (List.getElem_mem _))
    | ⟨1, _⟩ =>
      unfold ScatterDims.siIdx
      rw [dif_pos (by rw [hivd])]
      apply Fin.ext
      show List.idxOf (0 : Fin 2) d.scatterDimsToOperandDims = 0
      rw [hsd]; simp
  have hw0 : d.window (ix2 e k') 0 = 0 := by
    unfold ScatterDims.window; rw [dif_neg (by rw [hsk]; simp)]
  have hst1 : d.start (ix2 e k') idx 1 = 0 := by
    unfold ScatterDims.start; rw [dif_neg (by rw [hsd]; simp)]
  have hw1 : d.window (ix2 e k') 1 = k'.val := by
    unfold ScatterDims.window; rw [dif_pos (by rw [hsk]; simp)]
    exact coord1 _ (hall1 _ (List.getElem_mem _))
  unfold ScatterDims.resultIdx?
  split
  · -- the landing index is inside the operand: compare it with (i, k) coordinate by coordinate
    rename_i h
    rw [Option.some.injEq]
    constructor
    · intro hf
      have h0 : (d.start (ix2 e k') idx 0 + d.window (ix2 e k') 0).toNat = i.val := congrArg (fun f => (f 0).val) hf
      have h1 : (d.start (ix2 e k') idx 1 + d.window (ix2 e k') 1).toNat = k.val := congrArg (fun f => (f 1).val) hf
      have hh := (h 0).1
      rw [hst0, hw0] at h0 hh
      rw [hst1, hw1] at h1
      exact ⟨by omega, Fin.ext (by omega)⟩
    · rintro ⟨hi, rfl⟩
      funext a
      match a with
      | ⟨0, _⟩ =>
        apply Fin.ext
        show (d.start (ix2 e k') idx 0 + d.window (ix2 e k') 0).toNat = i.val
        rw [hst0, hw0, hi]; omega
      | ⟨1, _⟩ =>
        apply Fin.ext
        show (d.start (ix2 e k') idx 1 + d.window (ix2 e k') 1).toNat = k'.val
        rw [hst1, hw1]; omega
  · -- the landing index leaves the operand: then the row number is no row of the table, i least of all
    rename_i h
    constructor
    · intro hf; exact absurd hf (by simp)
    · rintro ⟨hi, rfl⟩
      exfalso; apply h
      intro a
      match a with
      | ⟨0, _⟩ =>
        show 0 ≤ d.start (ix2 e k') idx 0 + d.window (ix2 e k') 0 ∧ d.start (ix2 e k') idx 0 + d.window (ix2 e k') 0 < (N : Int)
        rw [hst0, hw0, hi]; have := i.isLt; omega
      | ⟨1, _⟩ =>
        show 0 ≤ d.start (ix2 e k') idx 1 + d.window (ix2 e k') 1 ∧ d.start (ix2 e k') idx 1 + d.window (ix2 e k') 1 < (C : Int)
        rw [hst1, hw1]; have := k'.isLt; omega

/-- Entry (i, k) after the scatter: what was there plus the updates' entries (e, k) over the e whose row number is i. -/
theorem scatterAdd_rows_apply {N C E w : Nat} (d : ScatterDims ⟨2, ![N, C]⟩ ⟨2, ![E, 1]⟩ ⟨2, ![E, C]⟩)
    (huw : d.updateWindowDims = [1]) (hiw : d.insertedWindowDims = [0]) (hsd : d.scatterDimsToOperandDims = [0])
    (hivd : d.indexVectorDim = 1)
    (x : (⟨2, ![N, C]⟩ : Shape).Idx → EReal) (idx : IVec ⟨2, ![E, 1]⟩ w) (upd : (⟨2, ![E, C]⟩ : Shape).Idx → EReal)
    (i : Fin N) (k : Fin C) :
    Ideal.hostScatterAdd d x idx upd (ix2 i k)
      = x (ix2 i k) + ∑ e : Fin E, if (idx (ix2 e (0 : Fin 1))).toInt = (i.val : Int) then upd (ix2 e k) else 0 := by
  unfold Ideal.hostScatterAdd
  congr 1
  -- the sum over the updates that land on (i, k), as a double sum over (e, k') of the updates guarded by "lands on (i, k)"
  rw [Finset.sum_filter, sum_idx2]
  refine Finset.sum_congr rfl fun e _ => ?_
  by_cases he : (idx (ix2 e (0 : Fin 1))).toInt = (i.val : Int)
  · -- row e is aimed at row i: of its C entries exactly the one in column k lands on (i, k)
    rw [if_pos he, Finset.sum_eq_single k]
    · rw [if_pos ((resultIdx_rows_iff d huw hiw hsd hivd idx e k i k).2 ⟨he, rfl⟩)]
    · intro k' _ hk'
      rw [if_neg fun h => hk' ((resultIdx_rows_iff d huw hiw hsd hivd idx e k' i k).1 h).2]
    · intro h; exact absurd (Finset.mem_univ k) h
  · -- row e is aimed elsewhere (or nowhere): none of its entries lands on (i, k)
    rw [if_neg he]
    refine Finset.sum_eq_zero fun k' _ => ?_
    rw [if_neg fun h => he ((resultIdx_rows_iff d huw hiw hsd hivd idx e k' i k).1 h).1]

/-- A sum over a rank-1 index set is the sum over its one coordinate. -/
private theorem sum_idx1 {M : Type*} [AddCommMonoid M] {n : Nat} (f : (⟨1, ![n]⟩ : Shape).Idx → M) :
    ∑ j, f j = ∑ a : Fin n, f (ix1 a) := by
  let φ : (⟨1, ![n]⟩ : Shape).Idx ≃ Fin n :=
    { toFun := fun j => j 0, invFun := fun a => ix1 a, left_inv := fun j => (eq_ix1 j).symm, right_inv := fun _ => rfl }
  rw [← Equiv.sum_comp φ.symm f]
  rfl

/-- Where one update of a vector lands: update e lands on entry i exactly when e's row number, read signed, is i (the
    operand's one axis is inserted: the landing coordinate is the row number itself, not clamped). -/
private theorem resultIdx_vec_iff {N E w : Nat} (d : ScatterDims ⟨1, ![N]⟩ ⟨2, ![E, 1]⟩ ⟨1, ![E]⟩)
    (huw : d.updateWindowDims = []) (hiw : d.insertedWindowDims = [0]) (hsd : d.scatterDimsToOperandDims = [0])
    (hivd : d.indexVectorDim = 1) (idx : IVec ⟨2, ![E, 1]⟩ w) (e : Fin E) (i : Fin N) :
    d.resultIdx? (ix1 e) idx = some (ix1 i) ↔ (idx (ix2 e (0 : Fin 1))).toInt = (i.val : Int) := by
  -- the operand has no window axis
  have hsk : d.sKept = [] := by
    show (⟨1, ![N]⟩ : Shape).kept d.insertedWindowDims = []
    rw [hiw]; rfl
  have coord0 : ∀ X : Fin 1, ((ix1 e) X).val = e.val := fun X => by
    obtain rfl : X = 0 := Subsingleton.elim _ _
    rfl
  have hst0 : d.start (ix1 e) idx 0 = (idx (ix2 e (0 : Fin 1))).toInt := by
    unfold ScatterDims.start
    rw [dif_pos (by rw [hsd]; exact List.mem_singleton.mpr rfl)]
    congr 2
    funext b
    match b with
    | ⟨0, _⟩ =>
      unfold ScatterDims.siIdx
      rw [dif_neg (by rw [hivd]; simp)]
      unfold ScatterDims.siCoord
      apply Fin.ext
      simp only [Fin.val_cast]
      exact coord0 _
    | ⟨1, _⟩ =>
      unfold ScatterDims.siIdx
      rw [dif_pos (by rw [hivd])]
      apply Fin.ext
      show List.idxOf (0 : Fin 1) d.scatterDimsToOperandDims = 0
      rw [hsd]; simp
  have hw0 : d.window (ix1 e) 0 = 0 := by
    unfold ScatterDims.window; rw [dif_neg (by rw [hsk]; simp)]
  have hax : ∀ a : Fin 1, a = 0 := fun a => Subsingleton.elim _ _
  unfold ScatterDims.resultIdx?
  split
  · rename_i h
    rw [Option.some.injEq]
    constructor
    · intro hf
      have h0 : (d.start (ix1 e) idx 0 + d.window (ix1 e) 0).toNat = i.val := congrArg (fun f => (f 0).val) hf
      have hh := (h 0).1
      rw [hst0, hw0] at h0 hh
      omega
    · intro hi
      funext a
      obtain rfl := hax a
      apply Fin.ext
      show (d.start (ix1 e) idx 0 + d.window (ix1 e) 0).toNat = i.val
      rw [hst0, hw0, hi]; omega
  · rename_i h
    constructor
    · intro hf; exact absurd hf (by simp)
    · intro hi
      exfalso; apply h
      intro a
      obtain rfl := hax a
      show 0 ≤ d.start (ix1 e) idx 0 + d.window (ix1 e) 0 ∧ d.start (ix1 e) idx 0 + d.window (ix1 e) 0 < (N : Int)
      rw [hst0, hw0, hi]; have := i.isLt; omega

/-- Entry i after the scatter of a vector: what was there plus the updates over the e whose row number is i. -/
theorem scatterAdd_vec_apply {N E w : Nat} (d : ScatterDims ⟨1, ![N]⟩ ⟨2, ![E, 1]⟩ ⟨1, ![E]⟩)
    (huw : d.updateWindowDims = []) (hiw : d.insertedWindowDims = [0]) (hsd : d.scatterDimsToOperandDims = [0])
    (hivd : d.indexVectorDim = 1)
    (x : (⟨1, ![N]⟩ : Shape).Idx → EReal) (idx : IVec ⟨2, ![E, 1]⟩ w) (upd : (⟨1, ![E]⟩ : Shape).Idx → EReal) (i : Fin N) :
    Ideal.hostScatterAdd d x idx upd (ix1 i)
      = x (ix1 i) + ∑ e : Fin E, if (idx (ix2 e (0 : Fin 1))).toInt = (i.val : Int) then upd (ix1 e) else 0 := by
  unfold Ideal.hostScatterAdd
  congr 1
  rw [Finset.sum_filter, sum_idx1]
  refine Finset.sum_congr rfl fun e _ => ?_
  by_cases he : (idx (ix2 e (0 : Fin 1))).toInt = (i.val : Int)
  · rw [if_pos he, if_pos ((resultIdx_vec_iff d huw hiw hsd hivd idx e i).2 he)]
  · rw [if_neg he, if_neg fun h => he ((resultIdx_vec_iff d huw hiw hsd hivd idx e i).1 h)]

end Idealize.ShloMosaic.RowOps

end
-- ==== Proof.RefValue.lean ====
/-
  The direct side's result, as mathematics.

  The direct program lays the 16 × 1048576 pixels out as one list of 16777216 positions (position 1048576·b + p is
  pixel p of batch row b), gives each position the bin number 64·b + label, and adds each position's squared error
  — and, in a second pass, the number 1 — into a zero vector of 1024 bins at that bin number. The vector is then
  read as a 16 × 64 table whose entry (b', l) is bin 64·b' + l.

  One bin holds the sum, over the positions whose bin number is that bin's, of what was added there. Splitting a
  position back into (batch row, pixel) turns the sum over 16777216 positions into the double sum over batch rows
  and pixels: for the squared errors that is the specification's `sumsqR`, for the ones its `cntR`. The operations
  that follow (the mean where the count is positive and 0 elsewhere, the sum over labels 1..63 and all batch rows,
  the division by 16) are the specification's `lossOf`, term for term.
-/
import proofs.«411778_j1022202216838_3_alg».proof.Proof.Spec
import proofs.«411778_j1022202216838_3_alg».proof.Proof.RefRun
import proofs.«411778_j1022202216838_3_alg».proof.Proof.RefRead
import proofs.«411778_j1022202216838_3_alg».proof.Proof.LibRowGatherScatter
import Idealize.ShloMosaic.Lib.ValueIdx
import Idealize.ShloMosaic.Lib.IdealHost
import Idealize.ShloMosaic.PureOps.Ideal.Laws
import Idealize.ShloMosaic.Lib.Pipeline.Value

noncomputable section

namespace Cert.ReferenceIdeal.RefValue

open Idealize.ShloMosaic Idealize.ShloMosaic.ValueIdx Cert.ReferenceIdeal Cert.ReferenceIdeal.Gen Idealize.SL.Sem
open Cert.ReferenceIdeal.Read

/-- The first input: 16 × 1 × 1024 × 1024 extended reals. -/
abbrev XArr : Type := (⟨S16x1x1024x1024, .f32⟩ : BufTy).Contents (Elt Ideal)
/-- The second input: 16 × 1 × 1024 × 1024 label words. -/
abbrev GArr : Type := (⟨S16x1x1024x1024, .i32⟩ : BufTy).Contents (Elt Ideal)

/-- Row-major flattening: pixel p of batch row b sits at position 1048576·b + p, and every position below
    16777216 is of that form exactly once (quotient and remainder by 1048576). -/
def flat : Fin 16 × Fin 1048576 ≃ Fin 16777216 where
  toFun q := ⟨q.1.val * 1048576 + q.2.val, by have := q.1.isLt; have := q.2.isLt; omega⟩
  invFun e := (⟨e.val / 1048576, by have := e.isLt; omega⟩, ⟨e.val % 1048576, Nat.mod_lt _ (by omega)⟩)
  left_inv q := by
    have h1 := q.1.isLt; have h2 := q.2.isLt
    exact Prod.ext (Fin.ext (by show (q.1.val * 1048576 + q.2.val) / 1048576 = q.1.val; omega))
      (Fin.ext (by show (q.1.val * 1048576 + q.2.val) % 1048576 = q.2.val; omega))
  right_inv e := Fin.ext (by show e.val / 1048576 * 1048576 + e.val % 1048576 = e.val; omega)

/-- The flat list read at position 1048576·b + p is the 16 × 1048576 array read at (b, p): for the bin numbers … -/
theorem flat_idx (b : Fin 16) (p : Fin 1048576) :
    idx_main_v14 (ix1 (flat (b, p))) = ix2 b p := by
  have hb := b.isLt; have hp := p.isLt
  funext a
  match a with
  | ⟨0, _⟩ => exact Fin.ext (by show (b.val * 1048576 + p.val) / 1048576 = b.val; omega)
  | ⟨1, _⟩ => exact Fin.ext (by show (b.val * 1048576 + p.val) % 1048576 = p.val; omega)
/-- … for the squared errors … -/
theorem flat_idx15 (b : Fin 16) (p : Fin 1048576) : idx_main_v15 (ix1 (flat (b, p))) = ix2 b p := flat_idx b p
/-- … and for the ones. -/
theorem flat_idx21 (b : Fin 16) (p : Fin 1048576) : idx_main_v21 (ix1 (flat (b, p))) = ix2 b p := flat_idx b p

/-- The one-column array of bin numbers read at (e, 0) is the list of bin numbers read at e. -/
theorem col_idx (e : Fin 16777216) : idx_main_v17 (ix2 e (0 : Fin 1)) = ix1 e := by
  funext a; match a with | ⟨0, _⟩ => rfl

/-- The bin number of pixel p of batch row b: the row number b times 64 plus the pixel's label, in 32-bit arithmetic. -/
theorem seg_point (x1 : GArr) (b : Fin 16) (p : Fin 1048576) :
    val_main_v13 (F := Ideal) x1 (ix2 b p) = Cert.Hsl.segW b (val_main_v1 (F := Ideal) x1 (ix2 b p)) := by
  rw [val_main_v13_apply, val_main_v12_apply, val_main_v11_apply, val_main_v9_apply, val_main_v8_apply,
    val_main_v10_apply, val_main_c_1_apply, val_main_v4_apply, val_main_v3_apply, val_main_v2_apply, val_main_c_apply,
    val_main_call0_v1_apply, val_main_call0_v0_apply, val_main_c_0_apply]
  rfl

/-- What the first pass adds for pixel p of batch row b: the square of the pixel's value minus its label. -/
theorem sq_point (x0 : XArr) (x1 : GArr) (b : Fin 16) (p : Fin 1048576) :
    val_main_v7 (F := Ideal) x0 x1 (ix2 b p)
      = Cert.Hsl.sqE (val_main_v0 (F := Ideal) x0 (ix2 b p)) (val_main_v1 (F := Ideal) x1 (ix2 b p)) := by
  rw [val_main_v7_apply, val_main_v6_apply, val_main_v5_apply, val_main_v4_apply, val_main_v3_apply, val_main_v2_apply,
    val_main_c_apply, val_main_call0_v1_apply, val_main_call0_v0_apply, val_main_c_0_apply]
  rfl

/-- What the second pass adds for every pixel: the number 1 (the float pattern 0x3F800000). -/
theorem one_point (b : Fin 16) (p : Fin 1048576) : val_main_v20 (F := Ideal) (ix2 b p) = 1 := by
  rw [val_main_v20_apply, val_main_cst_2_apply, Ideal.ofBits_def, Ideal.ofBits_one_f32]

/-- Both passes start from the zero vector (the float pattern 0x00000000). -/
theorem zero_point (k : S1024.Idx) : val_main_v16 (F := Ideal) k = 0 := by
  rw [val_main_v16_apply, val_main_cst_apply, Ideal.ofBits_def, Ideal.ofBits_zero_f32]

/-- On the extended reals the accumulating scatter is the plain sum of the updates that land on each entry. -/
theorem scatter_ideal (x : FVec Ideal S1024 .f32) (idx : IVec S16777216x1 32) (upd : FVec Ideal S16777216 .f32) :
    Host.scatterAdd scatter_S1024_S16777216x1_S16777216_n_0_0_1 x idx upd
      = Ideal.hostScatterAdd scatter_S1024_S16777216x1_S16777216_n_0_0_1 x idx upd := by
  simp only [Host.scatterAdd, Ideal.hostScatterAdd_def]

/-- One entry (b', l) of the 16 × 64 table after a pass that adds `f b p` for pixel p of batch row b: it is bin
    64·b' + l of the vector, which started at zero and received exactly the positions whose bin number is
    64·b' + l; the sum over those positions, re-indexed by (batch row, pixel), is the guarded double sum. -/
theorem bins_apply (x1 : GArr) (upd : (⟨S16777216, .f32⟩ : BufTy).Contents (Elt Ideal)) (f : Fin 16 → Fin 1048576 → EReal)
    (hupd : ∀ b p, upd (ix1 (flat (b, p))) = f b p) (i : S16x64.Idx) :
    (shapeCast S16x64 (Host.scatterAdd scatter_S1024_S16777216x1_S16777216_n_0_0_1 (val_main_v16 (F := Ideal))
        (val_main_v17 (F := Ideal) x1) upd) shapeCasts_S1024_S16x64 : FVec Ideal S16x64 .f32) i
      = ∑ b : Fin 16, ∑ p : Fin 1048576,
          if (Cert.Hsl.segW b (val_main_v1 (F := Ideal) x1 (ix2 b p))).toInt = ((64 * (i 0).val + (i 1).val : Nat) : Int)
            then f b p else 0 := by
  have h0 : (i 0).val < 16 := idx2_lt0 i
  have h1 : (i 1).val < 64 := idx2_lt1 i
  -- the bin under table entry (i 0, i 1)
  obtain ⟨k, hk⟩ : ∃ k : Fin 1024, k.val = 64 * (i 0).val + (i 1).val := ⟨⟨_, by omega⟩, rfl⟩
  rw [shapeCast_apply _ shapeCasts_S1024_S16x64 i (ix1 k) (by
    rw [Shape.rowMajor_val_one, Shape.rowMajor_val_two]
    show k.val = (i 0).val * 64 + (i 1).val
    omega)]
  -- bin k: zero plus the updates of the positions aimed at k
  rw [scatter_ideal, RowOps.scatterAdd_vec_apply scatter_S1024_S16777216x1_S16777216_n_0_0_1 rfl rfl rfl rfl, zero_point, zero_add]
  -- positions are (batch row, pixel) pairs
  refine (Equiv.sum_comp flat _).symm.trans ?_
  rw [Fintype.sum_prod_type]
  refine Finset.sum_congr rfl fun b _ => Finset.sum_congr rfl fun p _ => ?_
  rw [hupd, val_main_v17_apply, col_idx, val_main_v14_apply, flat_idx, seg_point, hk]

/-- The table of squared-error sums is the specification's. -/
theorem sumsq_eq (x0 : XArr) (x1 : GArr) :
    val_main_v19 (F := Ideal) x0 x1 = Cert.Hsl.sumsqR (val_main_v0 (F := Ideal) x0) (val_main_v1 (F := Ideal) x1) := by
  funext i
  unfold val_main_v19 val_main_v18 Cert.Hsl.sumsqR
  exact bins_apply x1 (val_main_v15 (F := Ideal) x0 x1) _
    (fun b p => by rw [val_main_v15_apply, flat_idx15, sq_point]) i

/-- The table of counts is the specification's. -/
theorem cnt_eq (x1 : GArr) :
    val_main_v25 (F := Ideal) x1 = Cert.Hsl.cntR (val_main_v1 (F := Ideal) x1) := by
  funext i
  unfold val_main_v25 val_main_v24 Cert.Hsl.cntR
  exact bins_apply x1 (val_main_v21 (F := Ideal)) (fun _ _ => 1)
    (fun b p => by rw [val_main_v21_apply, flat_idx21, one_point]) i

/-- From the two tables on, the program's operations are `lossOf`'s own: compare the count with 0, divide the sum
    by max(count, 1), take 0 where the count is not positive, drop label 0, add everything up, divide by 16. -/
theorem tail_eq (x0 : XArr) (x1 : GArr) :
    val_main_v34 (F := Ideal) x0 x1
      = Cert.Hsl.lossOf bcast_S_S16x64 slices_S16x64_S16x63_0_1 reducesTo_S16x63_S_d0_1 h_S_
          (val_main_v19 (F := Ideal) x0 x1) (val_main_v25 (F := Ideal) x1) := by
  unfold val_main_v34 val_main_v33 val_main_v32 val_main_v31 val_main_v30 val_main_v29 val_main_v28 val_main_v27 val_main_v26
    val_main_call1_v1 val_main_call1_v0 val_main_cst_8 val_main_cst_7 val_main_cst_6 val_main_cst_5 val_main_cst_4 Cert.Hsl.lossOf
  rfl

/-- Every weakly fair execution of the direct program terminates with its result at `lossOf` of the specification's
    two tables of the (flattened) inputs, and with the inputs unchanged. -/
theorem reference_run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v34)
          = Cert.Hsl.lossOf Facts₀.bcast_S_S16x64 Facts₀.slices_S16x64_S16x63_0_1 Facts₀.reducesTo_S16x63_S_d0_1 Facts₀.h_S_
              (Cert.Hsl.sumsqR (shapeCast Cert.Hsl.SPix (m ((c.tc : Thread nD τ).loc main_arg0)) Facts₀.shapeCasts_S16x1x1024x1024_S16x1048576) (shapeCast Cert.Hsl.SPix (m ((c.tc : Thread nD τ).loc main_arg1)) Facts₀.shapeCasts_S16x1x1024x1024_S16x1048576))
              (Cert.Hsl.cntR (shapeCast Cert.Hsl.SPix (m ((c.tc : Thread nD τ).loc main_arg1)) Facts₀.shapeCasts_S16x1x1024x1024_S16x1048576))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => ⟨(h c).1.trans (by
      rw [val_main_v34_eq, tail_eq, sumsq_eq, cnt_eq]
      rfl), (h c).2⟩) (Value.run (F := Ideal) m ρ)

end Cert.ReferenceIdeal.RefValue

end
-- ==== Proof.lean ====
/-
  A per-(batch, label) masked mean-squared-error loss, computed two ways, is one number.

  Each pixel has a float value and a label word; its label is the word when that is below 255 and 0 otherwise,
  its squared error is (value − label)². For every batch row and every label 0..63 both programs form the sum
  of the squared errors and the number of pixels with that label, then the mean where the number is positive
  (0 elsewhere), add the means over labels 1..63 and all batch rows, and divide by 16.

  The table side splits a label into its top part and its low three bits and accumulates, tile by tile and
  chunk by chunk, a 16 × 8 table per batch row with a batched product of two small operands — eight rows of
  squared errors selected by the top part above eight rows of the top part's indicators, against eight rows
  of the low bits' indicators — so that entry (h, o) of the upper half is the sum, and of the lower half the
  count, of label 8h + o. The direct side adds every pixel into bin 64·(batch row) + label of one vector of
  1024 bins.

  For label words in the label range (0..63, or the ignore value 255) a label below 64 has top part h and low
  bits o exactly when it is 8h + o, and bin 64·b' + label is bin 64·b + l exactly when b' = b and the label
  is l; so the two sides form the same sums and the same counts, and the same closing computation gives the
  same loss. On the extended reals this needs no finiteness: only x·1 = x, x·0 = 0 and the commutative,
  associative sum.

  The three frame claims are the programs' runs; the table side's idealization rewrote nothing.
-/
import proofs.«411778_j1022202216838_3_alg».proof.Defs
import proofs.«411778_j1022202216838_3_alg».proof.Proof.Gen.Kernel
import proofs.«411778_j1022202216838_3_alg».proof.Proof.Gen.Kernel.Skeleton
import proofs.«411778_j1022202216838_3_alg».proof.Proof.Gen.Kernel.Loops
import proofs.«411778_j1022202216838_3_alg».proof.Proof.Gen.Kernel.Launch
import proofs.«411778_j1022202216838_3_alg».proof.Proof.Gen.Kernel.Points
import proofs.«411778_j1022202216838_3_alg».proof.Proof.Gen.Kernel.Frame
import proofs.«411778_j1022202216838_3_alg».proof.Proof.Gen.KernelIdeal
import proofs.«411778_j1022202216838_3_alg».proof.Proof.Gen.KernelIdeal.Skeleton
import proofs.«411778_j1022202216838_3_alg».proof.Proof.Gen.KernelIdeal.Loops
import proofs.«411778_j1022202216838_3_alg».proof.Proof.Gen.KernelIdeal.Launch
import proofs.«411778_j1022202216838_3_alg».proof.Proof.Gen.KernelIdeal.Points
import proofs.«411778_j1022202216838_3_alg».proof.Proof.Gen.KernelIdeal.Frame
import proofs.«411778_j1022202216838_3_alg».proof.Proof.Gen.ReferenceIdeal
import proofs.«411778_j1022202216838_3_alg».proof.Proof.Gen.Pre_finite_inputs
import proofs.«411778_j1022202216838_3_alg».proof.Proof.RefRun
import proofs.«411778_j1022202216838_3_alg».proof.Proof.Bridge
import proofs.«411778_j1022202216838_3_alg».proof.Proof.PreDecode
import proofs.«411778_j1022202216838_3_alg».proof.Proof.KernelRun
import proofs.«411778_j1022202216838_3_alg».proof.Proof.RefValue
import Idealize.ShloMosaic.Adequacy
import Idealize.ShloMosaic.Init

noncomputable section

namespace Cert.Proof.Claims

open Idealize.ShloMosaic Idealize.SL.Sem

/-- The word-level table side runs and leaves its arguments as they were. -/
theorem frame_k [Cert.Kernel.Facts] [Cert.Pre_finite_inputs.Facts] : Cert.frame_Kernel :=
  fun m ρ _ => Cert.Kernel.Gen.frame m ρ

/-- So does its reading on the extended reals. -/
theorem frame_ki [Cert.KernelIdeal.Facts] [Cert.Pre_finite_inputs.Facts] : Cert.frame_KernelIdeal :=
  fun m ρ _ => Cert.KernelIdeal.Gen.frame m ρ

/-- The direct side is a straight line of host operations: its run, with the result dropped. -/
theorem frame_ri [Cert.ReferenceIdeal.Facts] [Cert.Pre_finite_inputs.Facts] : Cert.frame_ReferenceIdeal :=
  fun m ρ _ =>
    (θ_run Cert.ReferenceIdeal.defs _ _).mono (fun _ h c => (h c).2) (Cert.ReferenceIdeal.Value.run (F := Ideal) m ρ)

/-- From inputs that agree, with every label word in the label range, both sides end at the same loss: each
    side's result is the closing computation of its per-(batch, label) sums and counts, and those agree. -/
theorem algebraic [Cert.KernelIdeal.Facts] [Cert.ReferenceIdeal.Facts] [Cert.Pre_finite_inputs.Facts] :
    Cert.algebraic_KernelIdeal_ReferenceIdeal := by
  intro m ρ m' ρ' hpre hagree
  refine ⟨_, Cert.KernelIdeal.Hist.kernel_run m ρ, ?_⟩
  refine (θ_run Cert.ReferenceIdeal.defs _ _).mono (fun r h c => ⟨(h c).1.trans ?_, (h c).2⟩)
    (Cert.ReferenceIdeal.RefValue.reference_run m' ρ')
  have hG := Cert.Hsl.inRange_reshape _ _ (hpre c) Cert.KernelIdeal.Facts₀.shapeCasts_S16x1x1024x1024_S16x1048576
  rw [(hagree c).1, (hagree c).2]
  rw [Cert.Hsl.sumsq_bridge _ _ hG, Cert.Hsl.cnt_bridge _ _ hG]

end Cert.Proof.Claims

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    Claims.frame_k, Claims.frame_ki, Claims.frame_ri, trivial, Claims.algebraic⟩

end Cert.Proof

end
